-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x5023x3 : Shape := ⟨3, ![32, 5023, 3]⟩
abbrev S4x5023x9 : Shape := ⟨3, ![4, 5023, 9]⟩
abbrev S32x27 : Shape := ⟨2, ![32, 27]⟩
abbrev S32 : Shape := ⟨1, ![32]⟩
abbrev S64x288 : Shape := ⟨2, ![64, 288]⟩
abbrev S64 : Shape := ⟨1, ![64]⟩
abbrev S128x576 : Shape := ⟨2, ![128, 576]⟩
abbrev S128 : Shape := ⟨1, ![128]⟩
abbrev S128x1152 : Shape := ⟨2, ![128, 1152]⟩
abbrev S256x128 : Shape := ⟨2, ![256, 128]⟩
abbrev S256 : Shape := ⟨1, ![256]⟩
abbrev S_ : Shape := ⟨0, ![]⟩

class Facts : Prop where
  bcast_S_S32x5023x3 : S_.BroadcastsInDim S32x5023x3 (![] : Fin 0 → Fin S32x5023x3.rank)
  reducesTo_S32x5023x3_S_d0_1_2 : S32x5023x3.ReducesTo [0, 1, 2] S_
  h_S_ : 0 < S_.numel
  bcast_S_S32x27 : S_.BroadcastsInDim S32x27 (![] : Fin 0 → Fin S32x27.rank)
  reducesTo_S32x27_S_d0_1 : S32x27.ReducesTo [0, 1] S_
  bcast_S_S32 : S_.BroadcastsInDim S32 (![] : Fin 0 → Fin S32.rank)
  reducesTo_S32_S_d0 : S32.ReducesTo [0] S_
  bcast_S_S64x288 : S_.BroadcastsInDim S64x288 (![] : Fin 0 → Fin S64x288.rank)
  reducesTo_S64x288_S_d0_1 : S64x288.ReducesTo [0, 1] S_
  bcast_S_S64 : S_.BroadcastsInDim S64 (![] : Fin 0 → Fin S64.rank)
  reducesTo_S64_S_d0 : S64.ReducesTo [0] S_
  bcast_S_S128x576 : S_.BroadcastsInDim S128x576 (![] : Fin 0 → Fin S128x576.rank)
  reducesTo_S128x576_S_d0_1 : S128x576.ReducesTo [0, 1] S_
  bcast_S_S128 : S_.BroadcastsInDim S128 (![] : Fin 0 → Fin S128.rank)
  reducesTo_S128_S_d0 : S128.ReducesTo [0] S_
  bcast_S_S128x1152 : S_.BroadcastsInDim S128x1152 (![] : Fin 0 → Fin S128x1152.rank)
  reducesTo_S128x1152_S_d0_1 : S128x1152.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S4x5023x9 : S_.BroadcastsInDim S4x5023x9 (![] : Fin 0 → Fin S4x5023x9.rank)
  reducesTo_S4x5023x9_S_d0_1_2 : S4x5023x9.ReducesTo [0, 1, 2] S_

variable [Facts]

def fn_part3 {F : FTy → Type} [FloatOps F] (main_arg1 : IVec S4x5023x9 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_c_20 : IVec S_ 32 := constantI S_ 32 0#32
  let main_v54 : IVec S4x5023x9 32 := broadcastInDim S4x5023x9 ![] bcast_S_S4x5023x9 main_c_20
  let main_v55 : IVec S4x5023x9 1 := cmpi .sge main_arg1 main_v54
  let main_c_21 : IVec S_ 1 := constantI S_ 1 1#1
  let main_v56 : IVec S_ 1 := (fun x v => Host.reduce IntOp.andi x v reducesTo_S4x5023x9_S_d0_1_2 h_S_) main_v55 main_c_21
  let main_v57 : IVec S_ 1 := andi main_v53 main_v56
  let main_c_22 : IVec S_ 32 := constantI S_ 32 5023#32
  let main_v58 : IVec S4x5023x9 32 := broadcastInDim S4x5023x9 ![] bcast_S_S4x5023x9 main_c_22
  let main_v59 : IVec S4x5023x9 1 := cmpi .slt main_arg1 main_v58
  let main_c_23 : IVec S_ 1 := constantI S_ 1 1#1
  let main_v60 : IVec S_ 1 := (fun x v => Host.reduce IntOp.andi x v reducesTo_S4x5023x9_S_d0_1_2 h_S_) main_v59 main_c_23
  let main_v61 : IVec S_ 1 := andi main_v57 main_v60
  main_v61

def fn_part2 {F : FTy → Type} [FloatOps F] (main_arg1 : IVec S4x5023x9 32) (main_arg8 : FVec F S128x1152 .f32) (main_arg9 : FVec F S128 .f32) (main_arg10 : FVec F S256x128 .f32) (main_arg11 : FVec F S256 .f32) (main_v33 : IVec S_ 1) : IVec S_ 1 :=
  let main_v34 : FVec F S128x1152 .f32 := Host.absf main_arg8
  let main_cst_12 : FVec F S_ .f32 := constant S_ .f32 0x7F800000#32
  let main_v35 : FVec F S128x1152 .f32 := broadcastInDim S128x1152 ![] bcast_S_S128x1152 main_cst_12
  let main_v36 : IVec S128x1152 1 := cmpf .olt main_v34 main_v35
  let main_c_13 : IVec S_ 1 := constantI S_ 1 1#1
  let main_v37 : IVec S_ 1 := (fun x v => Host.reduce IntOp.andi x v reducesTo_S128x1152_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_v48 main_v49 main_v50

def fn_part1 {F : FTy → Type} [FloatOps F] (main_arg1 : IVec S4x5023x9 32) (main_arg5 : FVec F S64 .f32) (main_arg6 : FVec F S128x576 .f32) (main_arg7 : FVec F S128 .f32) (main_arg8 : FVec F S128x1152 .f32) (main_arg9 : FVec F S128 .f32) (main_arg10 : FVec F S256x128 .f32) (main_arg11 : FVec F S256 .f32) (main_v13 : IVec S_ 1) (main_v16 : IVec S64x288 1) : IVec S_ 1 :=
  let main_c_5 : IVec S_ 1 := constantI S_ 1 1#1
  let main_v17 : IVec S_ 1 := (fun x v => Host.reduce IntOp.andi x v reducesTo_S64x288_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x576 .f32 := Host.absf main_arg6
  let main_cst_8 : FVec F S_ .f32 := constant S_ .f32 0x7F800000#32
  let main_v25 : FVec F S128x576 .f32 := broadcastInDim S128x576 ![] bcast_S_S128x576 main_cst_8
  let main_v26 : IVec S128x576 1 := cmpf .olt main_v24 main_v25
  let main_c_9 : IVec S_ 1 := constantI S_ 1 1#1
  let main_v27 : IVec S_ 1 := (fun x v => Host.reduce IntOp.andi x v reducesTo_S128x576_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S32x5023x3 .f32) (main_arg1 : IVec S4x5023x9 32) (main_arg2 : FVec F S32x27 .f32) (main_arg3 : FVec F S32 .f32) (main_arg4 : FVec F S64x288 .f32) (main_arg5 : FVec F S64 .f32) (main_arg6 : FVec F S128x576 .f32) (main_arg7 : FVec F S128 .f32) (main_arg8 : FVec F S128x1152 .f32) (main_arg9 : FVec F S128 .f32) (main_arg10 : FVec F S256x128 .f32) (main_arg11 : FVec F S256 .f32) : IVec S_ 1 :=
  let main_v0 : FVec F S32x5023x3 .f32 := Host.absf main_arg0
  let main_cst : FVec F S_ .f32 := constant S_ .f32 0x7F800000#32
  let main_v1 : FVec F S32x5023x3 .f32 := broadcastInDim S32x5023x3 ![] bcast_S_S32x5023x3 main_cst
  let main_v2 : IVec S32x5023x3 1 := cmpf .olt main_v0 main_v1
  let main_c : IVec S_ 1 := constantI S_ 1 1#1
  let main_v3 : IVec S_ 1 := (fun x v => Host.reduce IntOp.andi x v reducesTo_S32x5023x3_S_d0_1_2 h_S_) main_v2 main_c
  let main_v4 : FVec F S32x27 .f32 := Host.absf main_arg2
  let main_cst_0 : FVec F S_ .f32 := constant S_ .f32 0x7F800000#32
  let main_v5 : FVec F S32x27 .f32 := broadcastInDim S32x27 ![] bcast_S_S32x27 main_cst_0
  let main_v6 : IVec S32x27 1 := cmpf .olt main_v4 main_v5
  let main_c_1 : IVec S_ 1 := constantI S_ 1 1#1
  let main_v7 : IVec S_ 1 := (fun x v => Host.reduce IntOp.andi x v reducesTo_S32x27_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x288 .f32 := Host.absf main_arg4
  let main_cst_4 : FVec F S_ .f32 := constant S_ .f32 0x7F800000#32
  let main_v15 : FVec F S64x288 .f32 := broadcastInDim S64x288 ![] bcast_S_S64x288 main_cst_4
  let main_v16 : IVec S64x288 1 := cmpf .olt main_v14 main_v15
  fn_part1 (F := F) main_arg1 main_arg5 main_arg6 main_arg7 main_arg8 main_arg9 main_arg10 main_arg11 main_v13 main_v16
-- ==== Kernel.lean ====
abbrev S32x5023x3 : Shape := ⟨3, ![32, 5023, 3]⟩
abbrev S4x5023x9 : Shape := ⟨3, ![4, 5023, 9]⟩
abbrev S32x27 : Shape := ⟨2, ![32, 27]⟩
abbrev S32 : Shape := ⟨1, ![32]⟩
abbrev S64x288 : Shape := ⟨2, ![64, 288]⟩
abbrev S64 : Shape := ⟨1, ![64]⟩
abbrev S128x576 : Shape := ⟨2, ![128, 576]⟩
abbrev S128 : Shape := ⟨1, ![128]⟩
abbrev S128x1152 : Shape := ⟨2, ![128, 1152]⟩
abbrev S256x128 : Shape := ⟨2, ![256, 128]⟩
abbrev S256 : Shape := ⟨1, ![256]⟩
abbrev S_ : Shape := ⟨0, ![]⟩
abbrev S32x5120x3 : Shape := ⟨3, ![32, 5120, 3]⟩
abbrev S4x5120x9 : Shape := ⟨3, ![4, 5120, 9]⟩
abbrev S27x32 : Shape := ⟨2, ![27, 32]⟩
abbrev S1x32 : Shape := ⟨2, ![1, 32]⟩
abbrev S1x5120x9 : Shape := ⟨3, ![1, 5120, 9]⟩
abbrev S5120x9 : Shape := ⟨2, ![5120, 9]⟩
abbrev S32x5120x32 : Shape := ⟨3, ![32, 5120, 32]⟩
abbrev S1x5120x3 : Shape := ⟨3, ![1, 5120, 3]⟩
abbrev S128x9 : Shape := ⟨2, ![128, 9]⟩
abbrev S1x128x32 : Shape := ⟨3, ![1, 128, 32]⟩
abbrev S128x5120 : Shape := ⟨2, ![128, 5120]⟩
abbrev S5120x3 : Shape := ⟨2, ![5120, 3]⟩
abbrev S128x32 : Shape := ⟨2, ![128, 32]⟩
abbrev S128x1 : Shape := ⟨2, ![128, 1]⟩
abbrev S128x3 : Shape := ⟨2, ![128, 3]⟩
abbrev S3x32 : Shape := ⟨2, ![3, 32]⟩
abbrev S288x64 : Shape := ⟨2, ![288, 64]⟩
abbrev S1x64 : Shape := ⟨2, ![1, 64]⟩
abbrev S32x5120x64 : Shape := ⟨3, ![32, 5120, 64]⟩
abbrev S1x5120x32 : Shape := ⟨3, ![1, 5120, 32]⟩
abbrev S1x128x64 : Shape := ⟨3, ![1, 128, 64]⟩
abbrev S5120x32 : Shape := ⟨2, ![5120, 32]⟩
abbrev S128x64 : Shape := ⟨2, ![128, 64]⟩
abbrev S32x64 : Shape := ⟨2, ![32, 64]⟩
abbrev S576x128 : Shape := ⟨2, ![576, 128]⟩
abbrev S1x128 : Shape := ⟨2, ![1, 128]⟩
abbrev S32x5120x128 : Shape := ⟨3, ![32, 5120, 128]⟩
abbrev S1x5120x64 : Shape := ⟨3, ![1, 5120, 64]⟩
abbrev S1x128x128 : Shape := ⟨3, ![1, 128, 128]⟩
abbrev S5120x64 : Shape := ⟨2, ![5120, 64]⟩
abbrev S128x128 : Shape := ⟨2, ![128, 128]⟩
abbrev S64x128 : Shape := ⟨2, ![64, 128]⟩
abbrev S1152x128 : Shape := ⟨2, ![1152, 128]⟩
abbrev S1x5120x128 : Shape := ⟨3, ![1, 5120, 128]⟩
abbrev S5120x128 : Shape := ⟨2, ![5120, 128]⟩
abbrev S128x256 : Shape := ⟨2, ![128, 256]⟩
abbrev S1x256 : Shape := ⟨2, ![1, 256]⟩
abbrev S32x5120x256 : Shape := ⟨3, ![32, 5120, 256]⟩
abbrev S1x128x256 : Shape := ⟨3, ![1, 128, 256]⟩
abbrev S32x5023x256 : Shape := ⟨3, ![32, 5023, 256]⟩

abbrev nBuf : Space → Nat
  | .hbm => 48
  | .vmem => 38
  | .smem => 0
  | _ => 0

abbrev bufTy : (tb : Table) → Fin (tcTables nBuf tb) → BufTy
  | .hbm, ⟨0, _⟩ => ⟨S32x5023x3, .f32⟩
  | .hbm, ⟨1, _⟩ => ⟨S4x5023x9, .i32⟩
  | .hbm, ⟨2, _⟩ => ⟨S32x27, .f32⟩
  | .hbm, ⟨3, _⟩ => ⟨S32, .f32⟩
  | .hbm, ⟨4, _⟩ => ⟨S64x288, .f32⟩
  | .hbm, ⟨5, _⟩ => ⟨S64, .f32⟩
  | .hbm, ⟨6, _⟩ => ⟨S128x576, .f32⟩
  | .hbm, ⟨7, _⟩ => ⟨S128, .f32⟩
  | .hbm, ⟨8, _⟩ => ⟨S128x1152, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S32x5120x3, .f32⟩
  | .hbm, ⟨15, _⟩ => ⟨S_, .i32⟩
  | .hbm, ⟨16, _⟩ => ⟨S_, .i32⟩
  | .hbm, ⟨17, _⟩ => ⟨S4x5120x9, .i32⟩
  | .hbm, ⟨18, _⟩ => ⟨S32x5120x3, .bf16⟩
  | .hbm, ⟨19, _⟩ => ⟨S27x32, .f32⟩
  | .hbm, ⟨20, _⟩ => ⟨S27x32, .bf16⟩
  | .hbm, ⟨21, _⟩ => ⟨S1x32, .f32⟩
  | .hbm, ⟨22, _⟩ => ⟨S1x5120x9, .i32⟩
  | .hbm, ⟨23, _⟩ => ⟨S5120x9, .i32⟩
  | .hbm, ⟨24, _⟩ => ⟨S32x5120x32, .bf16⟩
  | .hbm, ⟨25, _⟩ => ⟨S288x64, .f32⟩
  | .hbm, ⟨26, _⟩ => ⟨S288x64, .bf16⟩
  | .hbm, ⟨27, _⟩ => ⟨S1x64, .f32⟩
  | .hbm, ⟨28, _⟩ => ⟨S1x5120x9, .i32⟩
  | .hbm, ⟨29, _⟩ => ⟨S5120x9, .i32⟩
  | .hbm, ⟨30, _⟩ => ⟨S32x5120x64, .bf16⟩
  | .hbm, ⟨31, _⟩ => ⟨S576x128, .f32⟩
  | .hbm, ⟨32, _⟩ => ⟨S576x128, .bf16⟩
  | .hbm, ⟨33, _⟩ => ⟨S1x128, .f32⟩
  | .hbm, ⟨34, _⟩ => ⟨S1x5120x9, .i32⟩
  | .hbm, ⟨35, _⟩ => ⟨S5120x9, .i32⟩
  | .hbm, ⟨36, _⟩ => ⟨S32x5120x128, .bf16⟩
  | .hbm, ⟨37, _⟩ => ⟨S1152x128, .f32⟩
  | .hbm, ⟨38, _⟩ => ⟨S1152x128, .bf16⟩
  | .hbm, ⟨39, _⟩ => ⟨S1x128, .f32⟩
  | .hbm, ⟨40, _⟩ => ⟨S1x5120x9, .i32⟩
  | .hbm, ⟨41, _⟩ => ⟨S5120x9, .i32⟩
  | .hbm, ⟨42, _⟩ => ⟨S32x5120x128, .bf16⟩
  | .hbm, ⟨43, _⟩ => ⟨S128x256, .f32⟩
  | .hbm, ⟨44, _⟩ => ⟨S128x256, .bf16⟩
  | .hbm, ⟨45, _⟩ => ⟨S1x256, .f32⟩
  | .hbm, ⟨46, _⟩ => ⟨S32x5120x256, .f32⟩
  | .hbm, ⟨47, _⟩ => ⟨S32x5023x256, .f32⟩
  | .local _ .vmem, ⟨0, _⟩ => ⟨S1x5120x3, .bf16⟩
  | .local _ .vmem, ⟨1, _⟩ => ⟨S1x5120x3, .bf16⟩
  | .local _ .vmem, ⟨2, _⟩ => ⟨S128x9, .i32⟩
  | .local _ .vmem, ⟨3, _⟩ => ⟨S128x9, .i32⟩
  | .local _ .vmem, ⟨4, _⟩ => ⟨S27x32, .bf16⟩
  | .local _ .vmem, ⟨5, _⟩ => ⟨S1x32, .f32⟩
  | .local _ .vmem, ⟨6, _⟩ => ⟨S1x128x32, .bf16⟩
  | .local _ .vmem, ⟨7, _⟩ => ⟨S1x128x32, .bf16⟩
  | .local _ .vmem, ⟨8, _⟩ => ⟨S1x5120x32, .bf16⟩
  | .local _ .vmem, ⟨9, _⟩ => ⟨S1x5120x32, .bf16⟩
  | .local _ .vmem, ⟨10, _⟩ => ⟨S128x9, .i32⟩
  | .local _ .vmem, ⟨11, _⟩ => ⟨S128x9, .i32⟩
  | .local _ .vmem, ⟨12, _⟩ => ⟨S288x64, .bf16⟩
  | .local _ .vmem, ⟨13, _⟩ => ⟨S1x64, .f32⟩
  | .local _ .vmem, ⟨14, _⟩ => ⟨S1x128x64, .bf16⟩
  | .local _ .vmem, ⟨15, _⟩ => ⟨S1x128x64, .bf16⟩
  | .local _ .vmem, ⟨16, _⟩ => ⟨S1x5120x64, .bf16⟩
  | .local _ .vmem, ⟨17, _⟩ => ⟨S1x5120x64, .bf16⟩
  | .local _ .vmem, ⟨18, _⟩ => ⟨S128x9, .i32⟩
  | .local _ .vmem, ⟨19, _⟩ => ⟨S128x9, .i32⟩
  | .local _ .vmem, ⟨20, _⟩ => ⟨S576x128, .bf16⟩
  | .local _ .vmem, ⟨21, _⟩ => ⟨S1x128, .f32⟩
  | .local _ .vmem, ⟨22, _⟩ => ⟨S1x128x128, .bf16⟩
  | .local _ .vmem, ⟨23, _⟩ => ⟨S1x128x128, .bf16⟩
  | .local _ .vmem, ⟨24, _⟩ => ⟨S1x5120x128, .bf16⟩
  | .local _ .vmem, ⟨25, _⟩ => ⟨S1x5120x128, .bf16⟩
  | .local _ .vmem, ⟨26, _⟩ => ⟨S128x9, .i32⟩
  | .local _ .vmem, ⟨27, _⟩ => ⟨S128x9, .i32⟩
  | .local _ .vmem, ⟨28, _⟩ => ⟨S1152x128, .bf16⟩
  | .local _ .vmem, ⟨29, _⟩ => ⟨S1x128, .f32⟩
  | .local _ .vmem, ⟨30, _⟩ => ⟨S1x128x128, .bf16⟩
  | .local _ .vmem, ⟨31, _⟩ => ⟨S1x128x128, .bf16⟩
  | .local _ .vmem, ⟨32, _⟩ => ⟨S1x128x128, .bf16⟩
  | .local _ .vmem, ⟨33, _⟩ => ⟨S1x128x128, .bf16⟩
  | .local _ .vmem, ⟨34, _⟩ => ⟨S128x256, .bf16⟩
  | .local _ .vmem, ⟨35, _⟩ => ⟨S1x256, .f32⟩
  | .local _ .vmem, ⟨36, _⟩ => ⟨S1x128x256, .f32⟩
  | .local _ .vmem, ⟨37, _⟩ => ⟨S1x128x256, .f32⟩
  | _, _ => ⟨S32x5023x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨2, ![32, 40], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5120x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x9 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S27x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 40], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x5120x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x9 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S288x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![32, 40], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x5120x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x9 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S576x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x128x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![32, 40], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x5120x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x9 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1152x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x128x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![32, 40], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x128x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x128x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  pads_S32x5023x3_S32x5120x3_000_0970_000 : S32x5023x3.Pads (![0, 0, 0] : Fin 3 → Nat) ![0, 97, 0] ![0, 0, 0] S32x5120x3
  h_S_ : 0 < S_.numel
  pads_S4x5023x9_S4x5120x9_000_0970_000 : S4x5023x9.Pads (![0, 0, 0] : Fin 3 → Nat) ![0, 97, 0] ![0, 0, 0] S4x5120x9
  bitsLt_bf16_f32 : FTy.bits .bf16 < FTy.bits .f32
  transposes_S32x27_S27x32_1_0 : S32x27.Transposes [1, 0] S27x32
  shapeCasts_S32_S1x32 : S32.ShapeCasts S1x32
  slices_S4x5120x9_S1x5120x9_0_0_0 : S4x5120x9.Slices ![0, 0, 0] S1x5120x9
  shapeCasts_S1x5120x9_S5120x9 : S1x5120x9.ShapeCasts S5120x9
  iota_S128x5120_d1_w32 : S128x5120.Iotas .tc 32 [1]
  inb_S128x9_S128x9_0_0 : ∀ a, (![0, 0] : Fin 2 → Nat) a + S128x9.size a ≤ S128x9.size a
  h_S128x9 : 0 < S128x9.numel
  shapeCasts_S128x9_S128x9 : S128x9.ShapeCasts S128x9
  inb_S1x5120x3_S1x5120x3_0_0_0 : ∀ a, (![0, 0, 0] : Fin 3 → Nat) a + S1x5120x3.size a ≤ S1x5120x3.size a
  h_S1x5120x3 : 0 < S1x5120x3.numel
  shapeCasts_S1x5120x3_S5120x3 : S1x5120x3.ShapeCasts S5120x3
  slices_S128x9_o0_0_S128x1 : S128x9.Slices ![0, 0] S128x1
  shapeCasts_S128x1_S128 : S128x1.ShapeCasts S128
  shapeCasts_S128_S128x1 : S128.ShapeCasts S128x1
  broadcasts_S128x1_S128x5120 : S128x1.Broadcasts S128x5120
  natLt_1_32 : 1 < 32
  inb_S27x32_S3x32_0_0 : ∀ a, (![0, 0] : Fin 2 → Nat) a + S3x32.size a ≤ S27x32.size a
  h_S3x32 : 0 < S3x32.numel
  shapeCasts_S3x32_S3x32 : S3x32.ShapeCasts S3x32
  slices_S128x9_o0_1_S128x1 : S128x9.Slices ![0, 1] S128x1
  inb_S27x32_S3x32_3_0 : ∀ a, (![3, 0] : Fin 2 → Nat) a + S3x32.size a ≤ S27x32.size a
  slices_S128x9_o0_2_S128x1 : S128x9.Slices ![0, 2] S128x1
  inb_S27x32_S3x32_6_0 : ∀ a, (![6, 0] : Fin 2 → Nat) a + S3x32.size a ≤ S27x32.size a
  slices_S128x9_o0_3_S128x1 : S128x9.Slices ![0, 3] S128x1
  inb_S27x32_S3x32_9_0 : ∀ a, (![9, 0] : Fin 2 → Nat) a + S3x32.size a ≤ S27x32.size a
  slices_S128x9_o0_4_S128x1 : S128x9.Slices ![0, 4] S128x1
  inb_S27x32_S3x32_12_0 : ∀ a, (![12, 0] : Fin 2 → Nat) a + S3x32.size a ≤ S27x32.size a
  slices_S128x9_o0_5_S128x1 : S128x9.Slices ![0, 5] S128x1
  inb_S27x32_S3x32_15_0 : ∀ a, (![15, 0] : Fin 2 → Nat) a + S3x32.size a ≤ S27x32.size a
  slices_S128x9_o0_6_S128x1 : S128x9.Slices ![0, 6] S128x1
  inb_S27x32_S3x32_18_0 : ∀ a, (![18, 0] : Fin 2 → Nat) a + S3x32.size a ≤ S27x32.size a
  slices_S128x9_o0_7_S128x1 : S128x9.Slices ![0, 7] S128x1
  inb_S27x32_S3x32_21_0 : ∀ a, (![21, 0] : Fin 2 → Nat) a + S3x32.size a ≤ S27x32.size a
  slices_S128x9_o0_8_S128x1 : S128x9.Slices ![0, 8] S128x1
  inb_S27x32_S3x32_24_0 : ∀ a, (![24, 0] : Fin 2 → Nat) a + S3x32.size a ≤ S27x32.size a
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S128x32 : S1x32.Broadcasts S128x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  shapeCasts_S128x32_S1x128x32 : S128x32.ShapeCasts S1x128x32
  packedbf16_S1x128x32_S1x128x32_0_0_0 : (Rect.unit (s := S1x128x32) ![0, 0, 0] S1x128x32.size inb_S1x128x32_S1x128x32_0_0_0).PackedRows (EltTy.packing .bf16)
  transposes_S64x288_S288x64_1_0 : S64x288.Transposes [1, 0] S288x64
  shapeCasts_S64_S1x64 : S64.ShapeCasts S1x64
  slices_S4x5120x9_S1x5120x9_1_0_0 : S4x5120x9.Slices ![1, 0, 0] S1x5120x9
  inb_S1x5120x32_S1x5120x32_0_0_0 : ∀ a, (![0, 0, 0] : Fin 3 → Nat) a + S1x5120x32.size a ≤ S1x5120x32.size a
  h_S1x5120x32 : 0 < S1x5120x32.numel
  shapeCasts_S1x5120x32_S5120x32 : S1x5120x32.ShapeCasts S5120x32
  inb_S288x64_S32x64_0_0 : ∀ a, (![0, 0] : Fin 2 → Nat) a + S32x64.size a ≤ S288x64.size a
  h_S32x64 : 0 < S32x64.numel
  shapeCasts_S32x64_S32x64 : S32x64.ShapeCasts S32x64
  inb_S288x64_S32x64_32_0 : ∀ a, (![32, 0] : Fin 2 → Nat) a + S32x64.size a ≤ S288x64.size a
  inb_S288x64_S32x64_64_0 : ∀ a, (![64, 0] : Fin 2 → Nat) a + S32x64.size a ≤ S288x64.size a
  inb_S288x64_S32x64_96_0 : ∀ a, (![96, 0] : Fin 2 → Nat) a + S32x64.size a ≤ S288x64.size a
  inb_S288x64_S32x64_128_0 : ∀ a, (![128, 0] : Fin 2 → Nat) a + S32x64.size a ≤ S288x64.size a
  inb_S288x64_S32x64_160_0 : ∀ a, (![160, 0] : Fin 2 → Nat) a + S32x64.size a ≤ S288x64.size a
  inb_S288x64_S32x64_192_0 : ∀ a, (![192, 0] : Fin 2 → Nat) a + S32x64.size a ≤ S288x64.size a
  inb_S288x64_S32x64_224_0 : ∀ a, (![224, 0] : Fin 2 → Nat) a + S32x64.size a ≤ S288x64.size a
  inb_S288x64_S32x64_256_0 : ∀ a, (![256, 0] : Fin 2 → Nat) a + S32x64.size a ≤ S288x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S128x64 : S1x64.Broadcasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  packedbf16_S1x128x64_S1x128x64_0_0_0 : (Rect.unit (s := S1x128x64) ![0, 0, 0] S1x128x64.size inb_S1x128x64_S1x128x64_0_0_0).PackedRows (EltTy.packing .bf16)
  transposes_S128x576_S576x128_1_0 : S128x576.Transposes [1, 0] S576x128
  shapeCasts_S128_S1x128 : S128.ShapeCasts S1x128
  slices_S4x5120x9_S1x5120x9_2_0_0 : S4x5120x9.Slices ![2, 0, 0] S1x5120x9
  inb_S1x5120x64_S1x5120x64_0_0_0 : ∀ a, (![0, 0, 0] : Fin 3 → Nat) a + S1x5120x64.size a ≤ S1x5120x64.size a
  h_S1x5120x64 : 0 < S1x5120x64.numel
  shapeCasts_S1x5120x64_S5120x64 : S1x5120x64.ShapeCasts S5120x64
  inb_S576x128_S64x128_0_0 : ∀ a, (![0, 0] : Fin 2 → Nat) a + S64x128.size a ≤ S576x128.size a
  h_S64x128 : 0 < S64x128.numel
  shapeCasts_S64x128_S64x128 : S64x128.ShapeCasts S64x128
  inb_S576x128_S64x128_64_0 : ∀ a, (![64, 0] : Fin 2 → Nat) a + S64x128.size a ≤ S576x128.size a
  inb_S576x128_S64x128_128_0 : ∀ a, (![128, 0] : Fin 2 → Nat) a + S64x128.size a ≤ S576x128.size a
  inb_S576x128_S64x128_192_0 : ∀ a, (![192, 0] : Fin 2 → Nat) a + S64x128.size a ≤ S576x128.size a
  inb_S576x128_S64x128_256_0 : ∀ a, (![256, 0] : Fin 2 → Nat) a + S64x128.size a ≤ S576x128.size a
  inb_S576x128_S64x128_320_0 : ∀ a, (![320, 0] : Fin 2 → Nat) a + S64x128.size a ≤ S576x128.size a
  inb_S576x128_S64x128_384_0 : ∀ a, (![384, 0] : Fin 2 → Nat) a + S64x128.size a ≤ S576x128.size a
  inb_S576x128_S64x128_448_0 : ∀ a, (![448, 0] : Fin 2 → Nat) a + S64x128.size a ≤ S576x128.size a
  inb_S576x128_S64x128_512_0 : ∀ a, (![512, 0] : Fin 2 → Nat) a + S64x128.size a ≤ S576x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  packedbf16_S1x128x128_S1x128x128_0_0_0 : (Rect.unit (s := S1x128x128) ![0, 0, 0] S1x128x128.size inb_S1x128x128_S1x128x128_0_0_0).PackedRows (EltTy.packing .bf16)
  transposes_S128x1152_S1152x128_1_0 : S128x1152.Transposes [1, 0] S1152x128
  slices_S4x5120x9_S1x5120x9_3_0_0 : S4x5120x9.Slices ![3, 0, 0] S1x5120x9
  inb_S1x5120x128_S1x5120x128_0_0_0 : ∀ a, (![0, 0, 0] : Fin 3 → Nat) a + S1x5120x128.size a ≤ S1x5120x128.size a
  h_S1x5120x128 : 0 < S1x5120x128.numel
  shapeCasts_S1x5120x128_S5120x128 : S1x5120x128.ShapeCasts S5120x128
  inb_S1152x128_S128x128_0_0 : ∀ a, (![0, 0] : Fin 2 → Nat) a + S128x128.size a ≤ S1152x128.size a
  h_S128x128 : 0 < S128x128.numel
  shapeCasts_S128x128_S128x128 : S128x128.ShapeCasts S128x128
  inb_S1152x128_S128x128_128_0 : ∀ a, (![128, 0] : Fin 2 → Nat) a + S128x128.size a ≤ S1152x128.size a
  inb_S1152x128_S128x128_256_0 : ∀ a, (![256, 0] : Fin 2 → Nat) a + S128x128.size a ≤ S1152x128.size a
  inb_S1152x128_S128x128_384_0 : ∀ a, (![384, 0] : Fin 2 → Nat) a + S128x128.size a ≤ S1152x128.size a
  inb_S1152x128_S128x128_512_0 : ∀ a, (![512, 0] : Fin 2 → Nat) a + S128x128.size a ≤ S1152x128.size a
  inb_S1152x128_S128x128_640_0 : ∀ a, (![640, 0] : Fin 2 → Nat) a + S128x128.size a ≤ S1152x128.size a
  inb_S1152x128_S128x128_768_0 : ∀ a, (![768, 0] : Fin 2 → Nat) a + S128x128.size a ≤ S1152x128.size a
  inb_S1152x128_S128x128_896_0 : ∀ a, (![896, 0] : Fin 2 → Nat) a + S128x128.size a ≤ S1152x128.size a
  inb_S1152x128_S128x128_1024_0 : ∀ a, (![1024, 0] : Fin 2 → Nat) a + S128x128.size a ≤ S1152x128.size a
  transposes_S256x128_S128x256_1_0 : S256x128.Transposes [1, 0] S128x256
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S128x256 : S1x256.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  slices_S32x5120x256_S32x5023x256_0_0_0 : S32x5120x256.Slices ![0, 0, 0] S32x5023x256
  dot_S128x5120_S5120x3_S128x3_1_0_0_1_n_n_wf : DotDims.WF S128x5120 S5120x3 S128x3 [1] [0] [0] [1] [] []
  dot_S128x3_S3x32_S128x32_1_0_0_1_n_n_wf : DotDims.WF S128x3 S3x32 S128x32 [1] [0] [0] [1] [] []
  dot_S128x5120_S5120x32_S128x32_1_0_0_1_n_n_wf : DotDims.WF S128x5120 S5120x32 S128x32 [1] [0] [0] [1] [] []
  dot_S128x32_S32x64_S128x64_1_0_0_1_n_n_wf : DotDims.WF S128x32 S32x64 S128x64 [1] [0] [0] [1] [] []
  dot_S128x5120_S5120x64_S128x64_1_0_0_1_n_n_wf : DotDims.WF S128x5120 S5120x64 S128x64 [1] [0] [0] [1] [] []
  dot_S128x64_S64x128_S128x128_1_0_0_1_n_n_wf : DotDims.WF S128x64 S64x128 S128x128 [1] [0] [0] [1] [] []
  dot_S128x5120_S5120x128_S128x128_1_0_0_1_n_n_wf : DotDims.WF S128x5120 S5120x128 S128x128 [1] [0] [0] [1] [] []
  dot_S128x128_S128x128_S128x128_1_0_0_1_n_n_wf : DotDims.WF S128x128 S128x128 S128x128 [1] [0] [0] [1] [] []
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5120x3.size a ≤ S32x5120x3.size a
  hwx0_0 : ∀ i : grid0.Coords, EltTy.bits .bf16 = 32 ∨ (Rect.block (s := S32x5120x3) S1x5120x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x9.size a ≤ S5120x9.size a
  hwx0_1 : ∀ i : grid0.Coords, EltTy.bits .i32 = 32 ∨ (Rect.block (s := S5120x9) S128x9.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S27x32.size a ≤ S27x32.size a
  hwx0_2 : ∀ i : grid0.Coords, EltTy.bits .bf16 = 32 ∨ (Rect.block (s := S27x32) S27x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32.size a ≤ S32x5120x32.size a
  hwx0_4 : ∀ i : grid0.Coords, EltTy.bits .bf16 = 32 ∨ (Rect.block (s := S32x5120x32) S1x128x32.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5120x32.size a ≤ S32x5120x32.size a
  hwx1_0 : ∀ i : grid1.Coords, EltTy.bits .bf16 = 32 ∨ (Rect.block (s := S32x5120x32) S1x5120x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x9.size a ≤ S5120x9.size a
  hwx1_1 : ∀ i : grid1.Coords, EltTy.bits .i32 = 32 ∨ (Rect.block (s := S5120x9) S128x9.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S288x64.size a ≤ S288x64.size a
  hwx1_2 : ∀ i : grid1.Coords, EltTy.bits .bf16 = 32 ∨ (Rect.block (s := S288x64) S288x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x64.size a ≤ S32x5120x64.size a
  hwx1_4 : ∀ i : grid1.Coords, EltTy.bits .bf16 = 32 ∨ (Rect.block (s := S32x5120x64) S1x128x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5120x64.size a ≤ S32x5120x64.size a
  hwx2_0 : ∀ i : grid2.Coords, EltTy.bits .bf16 = 32 ∨ (Rect.block (s := S32x5120x64) S1x5120x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x9.size a ≤ S5120x9.size a
  hwx2_1 : ∀ i : grid2.Coords, EltTy.bits .i32 = 32 ∨ (Rect.block (s := S5120x9) S128x9.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S576x128.size a ≤ S576x128.size a
  hwx2_2 : ∀ i : grid2.Coords, EltTy.bits .bf16 = 32 ∨ (Rect.block (s := S576x128) S576x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128x128.size a ≤ S32x5120x128.size a
  hwx2_4 : ∀ i : grid2.Coords, EltTy.bits .bf16 = 32 ∨ (Rect.block (s := S32x5120x128) S1x128x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x5120x128.size a ≤ S32x5120x128.size a
  hwx3_0 : ∀ i : grid3.Coords, EltTy.bits .bf16 = 32 ∨ (Rect.block (s := S32x5120x128) S1x5120x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x9.size a ≤ S5120x9.size a
  hwx3_1 : ∀ i : grid3.Coords, EltTy.bits .i32 = 32 ∨ (Rect.block (s := S5120x9) S128x9.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1152x128.size a ≤ S1152x128.size a
  hwx3_2 : ∀ i : grid3.Coords, EltTy.bits .bf16 = 32 ∨ (Rect.block (s := S1152x128) S1152x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x128x128.size a ≤ S32x5120x128.size a
  hwx3_4 : ∀ i : grid3.Coords, EltTy.bits .bf16 = 32 ∨ (Rect.block (s := S32x5120x128) S1x128x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x128.size a ≤ S32x5120x128.size a
  hwx4_0 : ∀ i : grid4.Coords, EltTy.bits .bf16 = 32 ∨ (Rect.block (s := S32x5120x128) S1x128x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .bf16 = 32 ∨ (Rect.block (s := S128x256) S128x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128x256.size a ≤ S32x5120x256.size a
  hwx4_3 : ∀ i : grid4.Coords, EltTy.bits .f32 = 32 ∨ (Rect.block (s := S32x5120x256) S1x128x256.size (cc4_transform_3 i) (hinb4_3 i)).WholeWords (EltTy.packing .f32)

variable [Facts₀]

def dot_S128x5120_S5120x3_S128x3_1_0_0_1_n_n : DotDims S128x5120 S5120x3 S128x3 where
  lhsContracting := [1]
  rhsContracting := [0]
  lhsNonContracting := [0]
  rhsNonContracting := [1]
  lhsBatch := []
  rhsBatch := []
  wf := dot_S128x5120_S5120x3_S128x3_1_0_0_1_n_n_wf
def dot_S128x3_S3x32_S128x32_1_0_0_1_n_n : DotDims S128x3 S3x32 S128x32 where
  lhsContracting := [1]
  rhsContracting := [0]
  lhsNonContracting := [0]
  rhsNonContracting := [1]
  lhsBatch := []
  rhsBatch := []
  wf := dot_S128x3_S3x32_S128x32_1_0_0_1_n_n_wf
def dot_S128x5120_S5120x32_S128x32_1_0_0_1_n_n : DotDims S128x5120 S5120x32 S128x32 where
  lhsContracting := [1]
  rhsContracting := [0]
  lhsNonContracting := [0]
  rhsNonContracting := [1]
  lhsBatch := []
  rhsBatch := []
  wf := dot_S128x5120_S5120x32_S128x32_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x5120_S5120x64_S128x64_1_0_0_1_n_n : DotDims S128x5120 S5120x64 S128x64 where
  lhsContracting := [1]
  rhsContracting := [0]
  lhsNonContracting := [0]
  rhsNonContracting := [1]
  lhsBatch := []
  rhsBatch := []
  wf := dot_S128x5120_S5120x64_S128x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x5120_S5120x128_S128x128_1_0_0_1_n_n : DotDims S128x5120 S5120x128 S128x128 where
  lhsContracting := [1]
  rhsContracting := [0]
  lhsNonContracting := [0]
  rhsNonContracting := [1]
  lhsBatch := []
  rhsBatch := []
  wf := dot_S128x5120_S5120x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_v2) S1x5120x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S27x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S1x5120x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S288x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S1x5120x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S128x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S576x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S1x5120x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S128x9.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1152x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x128x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v26) S1x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1x128x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S32x5023x3 : Shape := ⟨3, ![32, 5023, 3]⟩
abbrev S4x5023x9 : Shape := ⟨3, ![4, 5023, 9]⟩
abbrev S32x27 : Shape := ⟨2, ![32, 27]⟩
abbrev S32 : Shape := ⟨1, ![32]⟩
abbrev S64x288 : Shape := ⟨2, ![64, 288]⟩
abbrev S64 : Shape := ⟨1, ![64]⟩
abbrev S128x576 : Shape := ⟨2, ![128, 576]⟩
abbrev S128 : Shape := ⟨1, ![128]⟩
abbrev S128x1152 : Shape := ⟨2, ![128, 1152]⟩
abbrev S256x128 : Shape := ⟨2, ![256, 128]⟩
abbrev S256 : Shape := ⟨1, ![256]⟩
abbrev S1x5023x9 : Shape := ⟨3, ![1, 5023, 9]⟩
abbrev S5023x9 : Shape := ⟨2, ![5023, 9]⟩
abbrev S_ : Shape := ⟨0, ![]⟩
abbrev S5023x9x1 : Shape := ⟨3, ![5023, 9, 1]⟩
abbrev S32x5023x9x3 : Shape := ⟨4, ![32, 5023, 9, 3]⟩
abbrev S32x5023x27 : Shape := ⟨3, ![32, 5023, 27]⟩
abbrev S32x5023x32 : Shape := ⟨3, ![32, 5023, 32]⟩
abbrev S1x1x32 : Shape := ⟨3, ![1, 1, 32]⟩
abbrev S32x5023x9x32 : Shape := ⟨4, ![32, 5023, 9, 32]⟩
abbrev S32x5023x288 : Shape := ⟨3, ![32, 5023, 288]⟩
abbrev S32x5023x64 : Shape := ⟨3, ![32, 5023, 64]⟩
abbrev S1x1x64 : Shape := ⟨3, ![1, 1, 64]⟩
abbrev S32x5023x9x64 : Shape := ⟨4, ![32, 5023, 9, 64]⟩
abbrev S32x5023x576 : Shape := ⟨3, ![32, 5023, 576]⟩
abbrev S32x5023x128 : Shape := ⟨3, ![32, 5023, 128]⟩
abbrev S1x1x128 : Shape := ⟨3, ![1, 1, 128]⟩
abbrev S32x5023x9x128 : Shape := ⟨4, ![32, 5023, 9, 128]⟩
abbrev S32x5023x1152 : Shape := ⟨3, ![32, 5023, 1152]⟩
abbrev S32x5023x256 : Shape := ⟨3, ![32, 5023, 256]⟩
abbrev S1x1x256 : Shape := ⟨3, ![1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S32x5023x3, .f32⟩
  | .hbm, ⟨1, _⟩ => ⟨S4x5023x9, .i32⟩
  | .hbm, ⟨2, _⟩ => ⟨S32x27, .f32⟩
  | .hbm, ⟨3, _⟩ => ⟨S32, .f32⟩
  | .hbm, ⟨4, _⟩ => ⟨S64x288, .f32⟩
  | .hbm, ⟨5, _⟩ => ⟨S64, .f32⟩
  | .hbm, ⟨6, _⟩ => ⟨S128x576, .f32⟩
  | .hbm, ⟨7, _⟩ => ⟨S128, .f32⟩
  | .hbm, ⟨8, _⟩ => ⟨S128x1152, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S1x5023x9, .i32⟩
  | .hbm, ⟨13, _⟩ => ⟨S5023x9, .i32⟩
  | .hbm, ⟨14, _⟩ => ⟨S_, .i32⟩
  | .hbm, ⟨15, _⟩ => ⟨S5023x9, .i32⟩
  | .hbm, ⟨16, _⟩ => ⟨S5023x9, .i1⟩
  | .hbm, ⟨17, _⟩ => ⟨S_, .i32⟩
  | .hbm, ⟨18, _⟩ => ⟨S5023x9, .i32⟩
  | .hbm, ⟨19, _⟩ => ⟨S5023x9, .i32⟩
  | .hbm, ⟨20, _⟩ => ⟨S5023x9, .i32⟩
  | .hbm, ⟨21, _⟩ => ⟨S5023x9x1, .i32⟩
  | .hbm, ⟨22, _⟩ => ⟨S32x5023x9x3, .f32⟩
  | .hbm, ⟨23, _⟩ => ⟨S32x5023x27, .f32⟩
  | .hbm, ⟨24, _⟩ => ⟨S32x5023x32, .f32⟩
  | .hbm, ⟨25, _⟩ => ⟨S1x1x32, .f32⟩
  | .hbm, ⟨26, _⟩ => ⟨S32x5023x32, .f32⟩
  | .hbm, ⟨27, _⟩ => ⟨S32x5023x32, .f32⟩
  | .hbm, ⟨28, _⟩ => ⟨S1x5023x9, .i32⟩
  | .hbm, ⟨29, _⟩ => ⟨S5023x9, .i32⟩
  | .hbm, ⟨30, _⟩ => ⟨S_, .i32⟩
  | .hbm, ⟨31, _⟩ => ⟨S5023x9, .i32⟩
  | .hbm, ⟨32, _⟩ => ⟨S5023x9, .i1⟩
  | .hbm, ⟨33, _⟩ => ⟨S_, .i32⟩
  | .hbm, ⟨34, _⟩ => ⟨S5023x9, .i32⟩
  | .hbm, ⟨35, _⟩ => ⟨S5023x9, .i32⟩
  | .hbm, ⟨36, _⟩ => ⟨S5023x9, .i32⟩
  | .hbm, ⟨37, _⟩ => ⟨S5023x9x1, .i32⟩
  | .hbm, ⟨38, _⟩ => ⟨S32x5023x9x32, .f32⟩
  | .hbm, ⟨39, _⟩ => ⟨S32x5023x288, .f32⟩
  | .hbm, ⟨40, _⟩ => ⟨S32x5023x64, .f32⟩
  | .hbm, ⟨41, _⟩ => ⟨S1x1x64, .f32⟩
  | .hbm, ⟨42, _⟩ => ⟨S32x5023x64, .f32⟩
  | .hbm, ⟨43, _⟩ => ⟨S32x5023x64, .f32⟩
  | .hbm, ⟨44, _⟩ => ⟨S1x5023x9, .i32⟩
  | .hbm, ⟨45, _⟩ => ⟨S5023x9, .i32⟩
  | .hbm, ⟨46, _⟩ => ⟨S_, .i32⟩
  | .hbm, ⟨47, _⟩ => ⟨S5023x9, .i32⟩
  | .hbm, ⟨48, _⟩ => ⟨S5023x9, .i1⟩
  | .hbm, ⟨49, _⟩ => ⟨S_, .i32⟩
  | .hbm, ⟨50, _⟩ => ⟨S5023x9, .i32⟩
  | .hbm, ⟨51, _⟩ => ⟨S5023x9, .i32⟩
  | .hbm, ⟨52, _⟩ => ⟨S5023x9, .i32⟩
  | .hbm, ⟨53, _⟩ => ⟨S5023x9x1, .i32⟩
  | .hbm, ⟨54, _⟩ => ⟨S32x5023x9x64, .f32⟩
  | .hbm, ⟨55, _⟩ => ⟨S32x5023x576, .f32⟩
  | .hbm, ⟨56, _⟩ => ⟨S32x5023x128, .f32⟩
  | .hbm, ⟨57, _⟩ => ⟨S1x1x128, .f32⟩
  | .hbm, ⟨58, _⟩ => ⟨S32x5023x128, .f32⟩
  | .hbm, ⟨59, _⟩ => ⟨S32x5023x128, .f32⟩
  | .hbm, ⟨60, _⟩ => ⟨S1x5023x9, .i32⟩
  | .hbm, ⟨61, _⟩ => ⟨S5023x9, .i32⟩
  | .hbm, ⟨62, _⟩ => ⟨S_, .i32⟩
  | .hbm, ⟨63, _⟩ => ⟨S5023x9, .i32⟩
  | .hbm, ⟨64, _⟩ => ⟨S5023x9, .i1⟩
  | .hbm, ⟨65, _⟩ => ⟨S_, .i32⟩
  | .hbm, ⟨66, _⟩ => ⟨S5023x9, .i32⟩
  | .hbm, ⟨67, _⟩ => ⟨S5023x9, .i32⟩
  | .hbm, ⟨68, _⟩ => ⟨S5023x9, .i32⟩
  | .hbm, ⟨69, _⟩ => ⟨S5023x9x1, .i32⟩
  | .hbm, ⟨70, _⟩ => ⟨S32x5023x9x128, .f32⟩
  | .hbm, ⟨71, _⟩ => ⟨S32x5023x1152, .f32⟩
  | .hbm, ⟨72, _⟩ => ⟨S32x5023x128, .f32⟩
  | .hbm, ⟨73, _⟩ => ⟨S1x1x128, .f32⟩
  | .hbm, ⟨74, _⟩ => ⟨S32x5023x128, .f32⟩
  | .hbm, ⟨75, _⟩ => ⟨S32x5023x128, .f32⟩
  | .hbm, ⟨76, _⟩ => ⟨S32x5023x256, .f32⟩
  | .hbm, ⟨77, _⟩ => ⟨S1x1x256, .f32⟩
  | .hbm, ⟨78, _⟩ => ⟨S32x5023x256, .f32⟩
  | .hbm, ⟨79, _⟩ => ⟨S32x5023x256, .f32⟩
  | _, _ => ⟨S32x5023x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  slices_S4x5023x9_S1x5023x9_0_0_0 : S4x5023x9.Slices ![0, 0, 0] S1x5023x9
  shapeCasts_S1x5023x9_S5023x9 : S1x5023x9.ShapeCasts S5023x9
  bcast_S_S5023x9 : S_.BroadcastsInDim S5023x9 (![] : Fin 0 → Fin S5023x9.rank)
  bcast_S5023x9_S5023x9x1_0_1 : S5023x9.BroadcastsInDim S5023x9x1 (![0, 1] : Fin 2 → Fin S5023x9x1.rank)
  shapeCasts_S32x5023x9x3_S32x5023x27 : S32x5023x9x3.ShapeCasts S32x5023x27
  bcast_S32_S1x1x32_2 : S32.BroadcastsInDim S1x1x32 (![2] : Fin 1 → Fin S1x1x32.rank)
  bcast_S1x1x32_S32x5023x32_0_1_2 : S1x1x32.BroadcastsInDim S32x5023x32 (![0, 1, 2] : Fin 3 → Fin S32x5023x32.rank)
  slices_S4x5023x9_S1x5023x9_1_0_0 : S4x5023x9.Slices ![1, 0, 0] S1x5023x9
  shapeCasts_S32x5023x9x32_S32x5023x288 : S32x5023x9x32.ShapeCasts S32x5023x288
  bcast_S64_S1x1x64_2 : S64.BroadcastsInDim S1x1x64 (![2] : Fin 1 → Fin S1x1x64.rank)
  bcast_S1x1x64_S32x5023x64_0_1_2 : S1x1x64.BroadcastsInDim S32x5023x64 (![0, 1, 2] : Fin 3 → Fin S32x5023x64.rank)
  slices_S4x5023x9_S1x5023x9_2_0_0 : S4x5023x9.Slices ![2, 0, 0] S1x5023x9
  shapeCasts_S32x5023x9x64_S32x5023x576 : S32x5023x9x64.ShapeCasts S32x5023x576
  bcast_S128_S1x1x128_2 : S128.BroadcastsInDim S1x1x128 (![2] : Fin 1 → Fin S1x1x128.rank)
  bcast_S1x1x128_S32x5023x128_0_1_2 : S1x1x128.BroadcastsInDim S32x5023x128 (![0, 1, 2] : Fin 3 → Fin S32x5023x128.rank)
  slices_S4x5023x9_S1x5023x9_3_0_0 : S4x5023x9.Slices ![3, 0, 0] S1x5023x9
  shapeCasts_S32x5023x9x128_S32x5023x1152 : S32x5023x9x128.ShapeCasts S32x5023x1152
  bcast_S256_S1x1x256_2 : S256.BroadcastsInDim S1x1x256 (![2] : Fin 1 → Fin S1x1x256.rank)
  bcast_S1x1x256_S32x5023x256_0_1_2 : S1x1x256.BroadcastsInDim S32x5023x256 (![0, 1, 2] : Fin 3 → Fin S32x5023x256.rank)
  gather_S32x5023x3_S5023x9x1_S32x5023x9x3_03_1_n_n_1_2_3213_wf : GatherDims.WF S32x5023x3 S5023x9x1 S32x5023x9x3 [0, 3] [1] [] [1] [] 2 ![32, 1, 3]
  dot_S32x5023x27_S32x27_S32x5023x32_2_1_01_0_n_n_wf : DotDims.WF S32x5023x27 S32x27 S32x5023x32 [2] [1] [0, 1] [0] [] []
  gather_S32x5023x32_S5023x9x1_S32x5023x9x32_03_1_n_n_1_2_32132_wf : GatherDims.WF S32x5023x32 S5023x9x1 S32x5023x9x32 [0, 3] [1] [] [1] [] 2 ![32, 1, 32]
  dot_S32x5023x288_S64x288_S32x5023x64_2_1_01_0_n_n_wf : DotDims.WF S32x5023x288 S64x288 S32x5023x64 [2] [1] [0, 1] [0] [] []
  gather_S32x5023x64_S5023x9x1_S32x5023x9x64_03_1_n_n_1_2_32164_wf : GatherDims.WF S32x5023x64 S5023x9x1 S32x5023x9x64 [0, 3] [1] [] [1] [] 2 ![32, 1, 64]
  dot_S32x5023x576_S128x576_S32x5023x128_2_1_01_0_n_n_wf : DotDims.WF S32x5023x576 S128x576 S32x5023x128 [2] [1] [0, 1] [0] [] []
  gather_S32x5023x128_S5023x9x1_S32x5023x9x128_03_1_n_n_1_2_321128_wf : GatherDims.WF S32x5023x128 S5023x9x1 S32x5023x9x128 [0, 3] [1] [] [1] [] 2 ![32, 1, 128]
  dot_S32x5023x1152_S128x1152_S32x5023x128_2_1_01_0_n_n_wf : DotDims.WF S32x5023x1152 S128x1152 S32x5023x128 [2] [1] [0, 1] [0] [] []
  dot_S32x5023x128_S256x128_S32x5023x256_2_1_01_0_n_n_wf : DotDims.WF S32x5023x128 S256x128 S32x5023x256 [2] [1] [0, 1] [0] [] []

variable [Facts₀]

def gather_S32x5023x3_S5023x9x1_S32x5023x9x3_03_1_n_n_1_2_3213 : GatherDims S32x5023x3 S5023x9x1 S32x5023x9x3 where
  offsetDims := [0, 3]
  collapsedSliceDims := [1]
  operandBatchingDims := []
  startIndicesBatchingDims := []
  startIndexMap := [1]
  indexVectorDim := 2
  sliceSizes := ![32, 1, 3]
  wf := gather_S32x5023x3_S5023x9x1_S32x5023x9x3_03_1_n_n_1_2_3213_wf
def dot_S32x5023x27_S32x27_S32x5023x32_2_1_01_0_n_n : DotDims S32x5023x27 S32x27 S32x5023x32 where
  lhsContracting := [2]
  rhsContracting := [1]
  lhsNonContracting := [0, 1]
  rhsNonContracting := [0]
  lhsBatch := []
  rhsBatch := []
  wf := dot_S32x5023x27_S32x27_S32x5023x32_2_1_01_0_n_n_wf
def gather_S32x5023x32_S5023x9x1_S32x5023x9x32_03_1_n_n_1_2_32132 : GatherDims S32x5023x32 S5023x9x1 S32x5023x9x32 where
  offsetDims := [0, 3]
  collapsedSliceDims := [1]
  operandBatchingDims := []
  startIndicesBatchingDims := []
  startIndexMap := [1]
  indexVectorDim := 2
  sliceSizes := ![32, 1, 32]
  wf := gather_S32x5023x32_S5023x9x1_S32x5023x9x32_03_1_n_n_1_2_32132_wf
def dot_S32x5023x288_S64x288_S32x5023x64_2_1_01_0_n_n : DotDims S32x5023x288 S64x288 S32x5023x64 where
  lhsContracting := [2]
  rhsContracting := [1]
  lhsNonContracting := [0, 1]
  rhsNonContracting := [0]
  lhsBatch := []
  rhsBatch := []
  wf := dot_S32x5023x288_S64x288_S32x5023x64_2_1_01_0_n_n_wf
def gather_S32x5023x64_S5023x9x1_S32x5023x9x64_03_1_n_n_1_2_32164 : GatherDims S32x5023x64 S5023x9x1 S32x5023x9x64 where
  offsetDims := [0, 3]
  collapsedSliceDims := [1]
  operandBatchingDims := []
  startIndicesBatchingDims := []
  startIndexMap := [1]
  indexVectorDim := 2
  sliceSizes := ![32, 1, 64]
  wf := gather_S32x5023x64_S5023x9x1_S32x5023x9x64_03_1_n_n_1_2_32164_wf
def dot_S32x5023x576_S128x576_S32x5023x128_2_1_01_0_n_n : DotDims S32x5023x576 S128x576 S32x5023x128 where
  lhsContracting := [2]
  rhsContracting := [1]
  lhsNonContracting := [0, 1]
  rhsNonContracting := [0]
  lhsBatch := []
  rhsBatch := []
  wf := dot_S32x5023x576_S128x576_S32x5023x128_2_1_01_0_n_n_wf
def gather_S32x5023x128_S5023x9x1_S32x5023x9x128_03_1_n_n_1_2_321128 : GatherDims S32x5023x128 S5023x9x1 S32x5023x9x128 where
  offsetDims := [0, 3]
  collapsedSliceDims := [1]
  operandBatchingDims := []
  startIndicesBatchingDims := []
  startIndexMap := [1]
  indexVectorDim := 2
  sliceSizes := ![32, 1, 128]
  wf := gather_S32x5023x128_S5023x9x1_S32x5023x9x128_03_1_n_n_1_2_321128_wf
def dot_S32x5023x1152_S128x1152_S32x5023x128_2_1_01_0_n_n : DotDims S32x5023x1152 S128x1152 S32x5023x128 where
  lhsContracting := [2]
  rhsContracting := [1]
  lhsNonContracting := [0, 1]
  rhsNonContracting := [0]
  lhsBatch := []
  rhsBatch := []
  wf := dot_S32x5023x1152_S128x1152_S32x5023x128_2_1_01_0_n_n_wf
def dot_S32x5023x128_S256x128_S32x5023x256_2_1_01_0_n_n : DotDims S32x5023x128 S256x128 S32x5023x256 where
  lhsContracting := [2]
  rhsContracting := [1]
  lhsNonContracting := [0, 1]
  rhsNonContracting := [0]
  lhsBatch := []
  rhsBatch := []
  wf := dot_S32x5023x128_S256x128_S32x5023x256_2_1_01_0_n_n_wf

class Facts : Prop extends Facts₀ where

variable [Facts]
-- ==== Proof.Spec.lean ====
/-
  The mathematics of one "spiral" layer, on plain functions of finite indices, apart from any program.

  A layer takes a table of feature rows `h` and, for each output row, nine looked-up row numbers; it gathers the nine
  rows, lays their features side by side and applies one affine map.  Two spellings of it meet here.

  * The selecting spelling never indexes the table by a looked-up number.  For tap `l` it forms, for each feature `c`,
    the sum over ALL rows `j` of `sel w j * h j c`, where `sel w j` is one when row `j` is the looked-up row `w` and
    zero otherwise, multiplies the gathered features by the tap's slice of the weights, and adds the nine taps from
    left to right starting at zero, then the bias.
  * The indexing spelling reads row `pos l` of the table directly and contracts the `9 * C` gathered features with
    the weight row in one sum.

  When every looked-up number is a row of the table, a selecting sum has exactly one term that is not zero, and
  `0 * x = 0` for every extended real `x`, so the sum is the looked-up entry; what is left is a regrouping of one finite
  sum, which needs only that addition of extended reals is commutative and associative.
-/
import Idealize.ShloMosaic.PureOps.Ideal
import Idealize.ShloMosaic.Lib.ValueIdx
import Mathlib.Algebra.BigOperators.Fin

noncomputable section

namespace Cert.Spiral

open Idealize.ShloMosaic

/-- The selection weight of row number `j` for the looked-up word `w`: the comparison bit of "row `j` is `w`", widened
    to a word and read as a signed integer: one where they are equal, zero where not. -/
def sel (w : BitVec 32) (j : ℕ) : EReal :=
  ((((IntOp.cmpi .eq (BitVec.ofNat 32 j) w).setWidth 32).toInt : ℝ) : EReal)

/-- Feature `c` of the row the word `w` selects, as the sum over every row of the table weighted by `sel`. -/
def picked {R C : ℕ} (h : Fin R → Fin C → EReal) (w : BitVec 32) (c : Fin C) : EReal :=
  ∑ j : Fin R, sel w j.val * h j c

/-- One tap: the selected row's features against the tap's weights. -/
def tap {R C : ℕ} (h : Fin R → Fin C → EReal) (w : BitVec 32) (wt : Fin C → EReal) : EReal :=
  ∑ c : Fin C, picked h w c * wt c

/-- The selecting spelling of one output entry: nine taps added from left to right from zero, then the bias. -/
def selVal {R C : ℕ} (h : Fin R → Fin C → EReal) (idx : Fin 9 → BitVec 32) (wt : Fin 9 → Fin C → EReal) (b : EReal) : EReal :=
  (∑ l : Fin 9, tap h (idx l) (wt l)) + b

/-- The indexing spelling of one output entry: the `K = 9 * C` gathered features (feature `k` is feature `k % C` of
    the row tap `k / C` looks up) against one weight row, then the bias. -/
def idxVal {N C K : ℕ} (hK : K = 9 * C) (g : Fin N → Fin C → EReal) (pos : Fin 9 → Fin N) (W : Fin K → EReal) (b : EReal) : EReal :=
  (∑ k : Fin K, g (pos ⟨k.val / C, by
        have hk := k.isLt
        rcases Nat.eq_zero_or_pos C with h0 | h0
        · subst h0; omega
        · exact (Nat.div_lt_iff_lt_mul h0).2 (by omega)⟩)
      ⟨k.val % C, by
        have hk := k.isLt
        rcases Nat.eq_zero_or_pos C with h0 | h0
        · subst h0; omega
        · exact Nat.mod_lt _ h0⟩ * W k) + b

end Cert.Spiral

end
-- ==== Proof.KSpec.lean ====
/-
  The four spiral layers as the kernel program computes them, each as ONE function of whole arrays, entry by entry:
  the selecting spelling of Spec.lean over the padded tables of 5120 rows.
-/
import proofs.«419524_j12970801234173_1_alg».proof.KernelIdeal
import proofs.«419524_j12970801234173_1_alg».proof.Proof.Spec
import Idealize.ShloMosaic.Lib.ValueIdx

noncomputable section

namespace Cert.KernelIdeal.KSpec

open Cert.KernelIdeal Idealize.ShloMosaic Idealize.ShloMosaic.ValueIdx

/-- Layer 0 as the program computes it over the padded arrays (5120 rows): 3 features in, 32 out; tap `l`'s weights are
    rows `l * 3 + c` of the transposed weight matrix. -/
def layer0 (h : S32x5120x3.Idx → EReal) (idx : S5120x9.Idx → BitVec 32) (w : S27x32.Idx → EReal) (b : S1x32.Idx → EReal) :
    S32x5120x32.Idx → EReal :=
  fun i => Spiral.selVal (fun (j : Fin 5120) (c : Fin 3) => h (ix3 (i 0) j c)) (fun (l : Fin 9) => idx (ix2 (i 1) l))
    (fun (l : Fin 9) (c : Fin 3) => w (ix2 (⟨l.val * 3 + c.val, by have := l.isLt; have := c.isLt; omega⟩ : Fin 27) (i 2))) (b (ix2 (0 : Fin 1) (i 2)))

/-- Layer 1 as the program computes it over the padded arrays (5120 rows): 32 features in, 64 out; tap `l`'s weights are
    rows `l * 32 + c` of the transposed weight matrix. -/
def layer1 (h : S32x5120x32.Idx → EReal) (idx : S5120x9.Idx → BitVec 32) (w : S288x64.Idx → EReal) (b : S1x64.Idx → EReal) :
    S32x5120x64.Idx → EReal :=
  fun i => Spiral.selVal (fun (j : Fin 5120) (c : Fin 32) => h (ix3 (i 0) j c)) (fun (l : Fin 9) => idx (ix2 (i 1) l))
    (fun (l : Fin 9) (c : Fin 32) => w (ix2 (⟨l.val * 32 + c.val, by have := l.isLt; have := c.isLt; omega⟩ : Fin 288) (i 2))) (b (ix2 (0 : Fin 1) (i 2)))

/-- Layer 2 as the program computes it over the padded arrays (5120 rows): 64 features in, 128 out; tap `l`'s weights are
    rows `l * 64 + c` of the transposed weight matrix. -/
def layer2 (h : S32x5120x64.Idx → EReal) (idx : S5120x9.Idx → BitVec 32) (w : S576x128.Idx → EReal) (b : S1x128.Idx → EReal) :
    S32x5120x128.Idx → EReal :=
  fun i => Spiral.selVal (fun (j : Fin 5120) (c : Fin 64) => h (ix3 (i 0) j c)) (fun (l : Fin 9) => idx (ix2 (i 1) l))
    (fun (l : Fin 9) (c : Fin 64) => w (ix2 (⟨l.val * 64 + c.val, by have := l.isLt; have := c.isLt; omega⟩ : Fin 576) (i 2))) (b (ix2 (0 : Fin 1) (i 2)))

/-- Layer 3 as the program computes it over the padded arrays (5120 rows): 128 features in, 128 out; tap `l`'s weights are
    rows `l * 128 + c` of the transposed weight matrix. -/
def layer3 (h : S32x5120x128.Idx → EReal) (idx : S5120x9.Idx → BitVec 32) (w : S1152x128.Idx → EReal) (b : S1x128.Idx → EReal) :
    S32x5120x128.Idx → EReal :=
  fun i => Spiral.selVal (fun (j : Fin 5120) (c : Fin 128) => h (ix3 (i 0) j c)) (fun (l : Fin 9) => idx (ix2 (i 1) l))
    (fun (l : Fin 9) (c : Fin 128) => w (ix2 (⟨l.val * 128 + c.val, by have := l.isLt; have := c.isLt; omega⟩ : Fin 1152) (i 2))) (b (ix2 (0 : Fin 1) (i 2)))

end Cert.KernelIdeal.KSpec

end
-- ==== Proof.KPrep.lean ====
/-
  What the kernel program's host operations hand to its five calls, as functions of the program's arguments: the
  vertex table padded with 97 zero rows and narrowed, the index table padded with 97 zero rows and cut into its four
  layers, each weight matrix transposed and narrowed, each bias vector as a one-row matrix; and the last cut that drops
  the padded rows again.  Each is read at an entry: inside the first 5023 rows the padded tables are the arguments'.
-/
import proofs.«419524_j12970801234173_1_alg».proof.Proof.Gen.KernelIdeal
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.KPrep

open Cert.KernelIdeal Cert.KernelIdeal.Gen Idealize.ShloMosaic Idealize.ShloMosaic.ValueIdx

/-- The vertex table with 97 rows of zeros appended to every batch entry, narrowed. -/
def xpad (x0 : FVec Ideal S32x5023x3 .f32) : FVec Ideal S32x5120x3 .bf16 :=
  truncf .bf16 (pad S32x5120x3 ![0, 0, 0] ![0, 97, 0] ![0, 0, 0] x0 (sitofp (F := Ideal) .f32 (constantI S_ 32 0#32))
    pads_S32x5023x3_S32x5120x3_000_0970_000 h_S_) bitsLt_bf16_f32

/-- The index table with 97 rows of zeros appended to every layer's table. -/
def ipad (x1 : IVec S4x5023x9 32) : IVec S4x5120x9 32 :=
  pad S4x5120x9 ![0, 0, 0] ![0, 97, 0] ![0, 0, 0] x1 (id (constantI S_ 32 0#32)) pads_S4x5023x9_S4x5120x9_000_0970_000 h_S_

/-- Layer 0's padded index table. -/
def itab0 (x1 : IVec S4x5023x9 32) : IVec S5120x9 32 :=
  shapeCast S5120x9 (extractStridedSlice S1x5120x9 ![0, 0, 0] (ipad x1) slices_S4x5120x9_S1x5120x9_0_0_0) shapeCasts_S1x5120x9_S5120x9

/-- Layer 1's padded index table. -/
def itab1 (x1 : IVec S4x5023x9 32) : IVec S5120x9 32 :=
  shapeCast S5120x9 (extractStridedSlice S1x5120x9 ![1, 0, 0] (ipad x1) slices_S4x5120x9_S1x5120x9_1_0_0) shapeCasts_S1x5120x9_S5120x9

/-- Layer 2's padded index table. -/
def itab2 (x1 : IVec S4x5023x9 32) : IVec S5120x9 32 :=
  shapeCast S5120x9 (extractStridedSlice S1x5120x9 ![2, 0, 0] (ipad x1) slices_S4x5120x9_S1x5120x9_2_0_0) shapeCasts_S1x5120x9_S5120x9

/-- Layer 3's padded index table. -/
def itab3 (x1 : IVec S4x5023x9 32) : IVec S5120x9 32 :=
  shapeCast S5120x9 (extractStridedSlice S1x5120x9 ![3, 0, 0] (ipad x1) slices_S4x5120x9_S1x5120x9_3_0_0) shapeCasts_S1x5120x9_S5120x9

/-- Layer 0's weights, transposed and narrowed. -/
def wt0 (w : FVec Ideal S32x27 .f32) : FVec Ideal S27x32 .bf16 :=
  truncf .bf16 (transpose S27x32 [1, 0] w transposes_S32x27_S27x32_1_0) bitsLt_bf16_f32

/-- Layer 0's bias as a one-row matrix. -/
def bias0 (b : FVec Ideal S32 .f32) : FVec Ideal S1x32 .f32 := shapeCast S1x32 b shapeCasts_S32_S1x32

/-- Layer 1's weights, transposed and narrowed. -/
def wt1 (w : FVec Ideal S64x288 .f32) : FVec Ideal S288x64 .bf16 :=
  truncf .bf16 (transpose S288x64 [1, 0] w transposes_S64x288_S288x64_1_0) bitsLt_bf16_f32

/-- Layer 1's bias as a one-row matrix. -/
def bias1 (b : FVec Ideal S64 .f32) : FVec Ideal S1x64 .f32 := shapeCast S1x64 b shapeCasts_S64_S1x64

/-- Layer 2's weights, transposed and narrowed. -/
def wt2 (w : FVec Ideal S128x576 .f32) : FVec Ideal S576x128 .bf16 :=
  truncf .bf16 (transpose S576x128 [1, 0] w transposes_S128x576_S576x128_1_0) bitsLt_bf16_f32

/-- Layer 2's bias as a one-row matrix. -/
def bias2 (b : FVec Ideal S128 .f32) : FVec Ideal S1x128 .f32 := shapeCast S1x128 b shapeCasts_S128_S1x128

/-- Layer 3's weights, transposed and narrowed. -/
def wt3 (w : FVec Ideal S128x1152 .f32) : FVec Ideal S1152x128 .bf16 :=
  truncf .bf16 (transpose S1152x128 [1, 0] w transposes_S128x1152_S1152x128_1_0) bitsLt_bf16_f32

/-- Layer 3's bias as a one-row matrix. -/
def bias3 (b : FVec Ideal S128 .f32) : FVec Ideal S1x128 .f32 := shapeCast S1x128 b shapeCasts_S128_S1x128

/-- The last stage's weights, transposed and narrowed. -/
def wtl (w : FVec Ideal S256x128 .f32) : FVec Ideal S128x256 .bf16 :=
  truncf .bf16 (transpose S128x256 [1, 0] w transposes_S256x128_S128x256_1_0) bitsLt_bf16_f32

/-- The last stage's bias as a one-row matrix. -/
def biasl (b : FVec Ideal S256 .f32) : FVec Ideal S1x256 .f32 := shapeCast S1x256 b shapeCasts_S256_S1x256

/-- The last cut: the first 5023 rows of every batch entry. -/
def cut (y : FVec Ideal S32x5120x256 .f32) : FVec Ideal S32x5023x256 .f32 :=
  extractStridedSlice S32x5023x256 ![0, 0, 0] y slices_S32x5120x256_S32x5023x256_0_0_0

/-! ## Read at an entry -/

/-- Inside the first 5023 rows the padded vertex table is the vertex table. -/
theorem xpad_apply (x0 : FVec Ideal S32x5023x3 .f32) (a : Fin 32) (n : Fin 5023) (c : Fin 3) :
    xpad x0 (ix3 a (⟨n.val, by have := n.isLt; omega⟩ : Fin 5120) c) = x0 (ix3 a n c) := by
  unfold xpad
  refine (truncf_apply (ψ := .bf16) _ bitsLt_bf16_f32 _).trans ?_
  exact pad_apply_of_inside _ _ _ x0 _ _ _ _ (ix3 a n c) (fun ax => by
    match ax with
    | ⟨0, _⟩ => show a.val = 0 + a.val * (0 + 1); omega
    | ⟨1, _⟩ => show n.val = 0 + n.val * (0 + 1); omega
    | ⟨2, _⟩ => show c.val = 0 + c.val * (0 + 1); omega)

/-- Inside the first 5023 rows layer 0's padded index table is row 0 of the index table. -/
theorem itab0_apply (x1 : IVec S4x5023x9 32) (n : Fin 5023) (l : Fin 9) :
    itab0 x1 (ix2 (⟨n.val, by have := n.isLt; omega⟩ : Fin 5120) l) = x1 (ix3 (0 : Fin 4) n l) := by
  unfold itab0
  refine (shapeCast_1ab_ab_apply _ _ _ _).trans ?_
  refine (extractStridedSlice_apply _ _ _ _ (ix3 (0 : Fin 4) (⟨n.val, by have := n.isLt; omega⟩ : Fin 5120) l) (fun ax => by
    match ax with
    | ⟨0, _⟩ => rfl
    | ⟨1, _⟩ => exact (Nat.zero_add _).symm
    | ⟨2, _⟩ => exact (Nat.zero_add _).symm)).trans ?_
  unfold ipad
  exact pad_apply_of_inside _ _ _ x1 _ _ _ _ (ix3 (0 : Fin 4) n l) (fun ax => by
    match ax with
    | ⟨0, _⟩ => rfl
    | ⟨1, _⟩ => show n.val = 0 + n.val * (0 + 1); omega
    | ⟨2, _⟩ => show l.val = 0 + l.val * (0 + 1); omega)

/-- The transposed weights of layer 0 at (f, o) are the weights at (o, f). -/
theorem wt0_apply (w : FVec Ideal S32x27 .f32) (f : Fin 27) (o : Fin 32) : wt0 w (ix2 f o) = w (ix2 o f) := by
  unfold wt0
  refine (truncf_apply (ψ := .bf16) _ bitsLt_bf16_f32 _).trans ?_
  exact transpose_ix2_apply w _ f o

/-- The one-row bias of layer 0 at (0, o) is the bias at o. -/
theorem bias0_apply (b : FVec Ideal S32 .f32) (o : Fin 32) : bias0 b (ix2 (0 : Fin 1) o) = b (ix1 o) := by
  unfold bias0
  exact shapeCast_a_1a_apply b _ 0 o

/-- Inside the first 5023 rows layer 1's padded index table is row 1 of the index table. -/
theorem itab1_apply (x1 : IVec S4x5023x9 32) (n : Fin 5023) (l : Fin 9) :
    itab1 x1 (ix2 (⟨n.val, by have := n.isLt; omega⟩ : Fin 5120) l) = x1 (ix3 (1 : Fin 4) n l) := by
  unfold itab1
  refine (shapeCast_1ab_ab_apply _ _ _ _).trans ?_
  refine (extractStridedSlice_apply _ _ _ _ (ix3 (1 : Fin 4) (⟨n.val, by have := n.isLt; omega⟩ : Fin 5120) l) (fun ax => by
    match ax with
    | ⟨0, _⟩ => rfl
    | ⟨1, _⟩ => exact (Nat.zero_add _).symm
    | ⟨2, _⟩ => exact (Nat.zero_add _).symm)).trans ?_
  unfold ipad
  exact pad_apply_of_inside _ _ _ x1 _ _ _ _ (ix3 (1 : Fin 4) n l) (fun ax => by
    match ax with
    | ⟨0, _⟩ => rfl
    | ⟨1, _⟩ => show n.val = 0 + n.val * (0 + 1); omega
    | ⟨2, _⟩ => show l.val = 0 + l.val * (0 + 1); omega)

/-- The transposed weights of layer 1 at (f, o) are the weights at (o, f). -/
theorem wt1_apply (w : FVec Ideal S64x288 .f32) (f : Fin 288) (o : Fin 64) : wt1 w (ix2 f o) = w (ix2 o f) := by
  unfold wt1
  refine (truncf_apply (ψ := .bf16) _ bitsLt_bf16_f32 _).trans ?_
  exact transpose_ix2_apply w _ f o

/-- The one-row bias of layer 1 at (0, o) is the bias at o. -/
theorem bias1_apply (b : FVec Ideal S64 .f32) (o : Fin 64) : bias1 b (ix2 (0 : Fin 1) o) = b (ix1 o) := by
  unfold bias1
  exact shapeCast_a_1a_apply b _ 0 o

/-- Inside the first 5023 rows layer 2's padded index table is row 2 of the index table. -/
theorem itab2_apply (x1 : IVec S4x5023x9 32) (n : Fin 5023) (l : Fin 9) :
    itab2 x1 (ix2 (⟨n.val, by have := n.isLt; omega⟩ : Fin 5120) l) = x1 (ix3 (2 : Fin 4) n l) := by
  unfold itab2
  refine (shapeCast_1ab_ab_apply _ _ _ _).trans ?_
  refine (extractStridedSlice_apply _ _ _ _ (ix3 (2 : Fin 4) (⟨n.val, by have := n.isLt; omega⟩ : Fin 5120) l) (fun ax => by
    match ax with
    | ⟨0, _⟩ => rfl
    | ⟨1, _⟩ => exact (Nat.zero_add _).symm
    | ⟨2, _⟩ => exact (Nat.zero_add _).symm)).trans ?_
  unfold ipad
  exact pad_apply_of_inside _ _ _ x1 _ _ _ _ (ix3 (2 : Fin 4) n l) (fun ax => by
    match ax with
    | ⟨0, _⟩ => rfl
    | ⟨1, _⟩ => show n.val = 0 + n.val * (0 + 1); omega
    | ⟨2, _⟩ => show l.val = 0 + l.val * (0 + 1); omega)

/-- The transposed weights of layer 2 at (f, o) are the weights at (o, f). -/
theorem wt2_apply (w : FVec Ideal S128x576 .f32) (f : Fin 576) (o : Fin 128) : wt2 w (ix2 f o) = w (ix2 o f) := by
  unfold wt2
  refine (truncf_apply (ψ := .bf16) _ bitsLt_bf16_f32 _).trans ?_
  exact transpose_ix2_apply w _ f o

/-- The one-row bias of layer 2 at (0, o) is the bias at o. -/
theorem bias2_apply (b : FVec Ideal S128 .f32) (o : Fin 128) : bias2 b (ix2 (0 : Fin 1) o) = b (ix1 o) := by
  unfold bias2
  exact shapeCast_a_1a_apply b _ 0 o

/-- Inside the first 5023 rows layer 3's padded index table is row 3 of the index table. -/
theorem itab3_apply (x1 : IVec S4x5023x9 32) (n : Fin 5023) (l : Fin 9) :
    itab3 x1 (ix2 (⟨n.val, by have := n.isLt; omega⟩ : Fin 5120) l) = x1 (ix3 (3 : Fin 4) n l) := by
  unfold itab3
  refine (shapeCast_1ab_ab_apply _ _ _ _).trans ?_
  refine (extractStridedSlice_apply _ _ _ _ (ix3 (3 : Fin 4) (⟨n.val, by have := n.isLt; omega⟩ : Fin 5120) l) (fun ax => by
    match ax with
    | ⟨0, _⟩ => rfl
    | ⟨1, _⟩ => exact (Nat.zero_add _).symm
    | ⟨2, _⟩ => exact (Nat.zero_add _).symm)).trans ?_
  unfold ipad
  exact pad_apply_of_inside _ _ _ x1 _ _ _ _ (ix3 (3 : Fin 4) n l) (fun ax => by
    match ax with
    | ⟨0, _⟩ => rfl
    | ⟨1, _⟩ => show n.val = 0 + n.val * (0 + 1); omega
    | ⟨2, _⟩ => show l.val = 0 + l.val * (0 + 1); omega)

/-- The transposed weights of layer 3 at (f, o) are the weights at (o, f). -/
theorem wt3_apply (w : FVec Ideal S128x1152 .f32) (f : Fin 1152) (o : Fin 128) : wt3 w (ix2 f o) = w (ix2 o f) := by
  unfold wt3
  refine (truncf_apply (ψ := .bf16) _ bitsLt_bf16_f32 _).trans ?_
  exact transpose_ix2_apply w _ f o

/-- The one-row bias of layer 3 at (0, o) is the bias at o. -/
theorem bias3_apply (b : FVec Ideal S128 .f32) (o : Fin 128) : bias3 b (ix2 (0 : Fin 1) o) = b (ix1 o) := by
  unfold bias3
  exact shapeCast_a_1a_apply b _ 0 o

theorem wtl_apply (w : FVec Ideal S256x128 .f32) (f : Fin 128) (o : Fin 256) : wtl w (ix2 f o) = w (ix2 o f) := by
  unfold wtl
  refine (truncf_apply (ψ := .bf16) _ bitsLt_bf16_f32 _).trans ?_
  exact transpose_ix2_apply w _ f o

theorem biasl_apply (b : FVec Ideal S256 .f32) (o : Fin 256) : biasl b (ix2 (0 : Fin 1) o) = b (ix1 o) := by
  unfold biasl
  exact shapeCast_a_1a_apply b _ 0 o

/-- The cut keeps the entries of the first 5023 rows. -/
theorem cut_apply (y : FVec Ideal S32x5120x256 .f32) (a : Fin 32) (n : Fin 5023) (o : Fin 256) :
    cut y (ix3 a n o) = y (ix3 a (⟨n.val, by have := n.isLt; omega⟩ : Fin 5120) o) := by
  unfold cut
  exact slice3_axis1_apply 0 y _ a n o _ (Nat.zero_add _).symm

end Cert.KernelIdeal.KPrep

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.LibMatmul.lean ====
/-
  A plain matrix product `[M, K] · [K, N]` into a zero accumulator, read at an entry over the extended reals:
  entry `(p, q)` is the sum over `k` of `a (p, k) * b (k, q)`.
-/
import Idealize.ShloMosaic.PureOps.Ideal.Laws
import Idealize.ShloMosaic.Lib.ValueIdx

noncomputable section

namespace Cert.Lib

open Idealize.ShloMosaic Idealize.ShloMosaic.ValueIdx

/-- A product whose dimension record is the plain one (left operand contracted on its second axis, right on its first,
    no batch axes), into the zero accumulator, read at `(p, q)`. -/
theorem matmul_plain_apply {M K N : ℕ} {φ₁ φ₂ : FTy}
    (d : DotDims (⟨2, ![M, K]⟩ : Shape) ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (a : FVec Ideal (⟨2, ![M, K]⟩ : Shape) φ₁) (b : FVec Ideal (⟨2, ![K, N]⟩ : Shape) φ₂)
    (p : Fin M) (q : Fin N) :
    FloatOps.matmul d prec a b (constant (F := Ideal) (⟨2, ![M, N]⟩ : Shape) .f32 0x00000000#32) (ix2 p q)
      = ∑ k : Fin K, a (ix2 p k) * b (ix2 k q) := by
  have hr : d.contr.rank = 1 := by rw [d.rank_contr, hlc]; rfl
  have hs : d.contr.size ⟨0, by omega⟩ = K := by
    have h := d.size_contr 0 (by rw [hlc]; exact Nat.one_pos)
    refine h.trans ?_
    simp [hlc]
  -- the free axis of the left operand reads the row coordinate
  have l0 : ∀ kk : d.contr.Idx, (d.lhsIdx (ix2 p q) kk 0).val = p.val := fun kk => by
    unfold DotDims.lhsIdx
    rw [dif_neg (show ¬(0 : Fin (⟨2, ![M, K]⟩ : Shape).rank) ∈ d.lhsBatch by rw [hlb]; simp),
      dif_pos (show (0 : Fin (⟨2, ![M, K]⟩ : Shape).rank) ∈ d.lhsNonContracting by rw [hln]; simp)]
    simp only [Fin.val_cast]
    have key : ∀ (n : Nat) (hn : n < 2), n = 0 → ((ix2 p q) ⟨n, hn⟩).val = p.val :=
      fun n hn h => by subst h; rfl
    exact key _ _ (by simp [hlb, hln])
  -- the free axis of the right operand reads the column coordinate
  have r1 : ∀ kk : d.contr.Idx, (d.rhsIdx (ix2 p q) kk 1).val = q.val := fun kk => by
    unfold DotDims.rhsIdx
    rw [dif_neg (show ¬(1 : Fin (⟨2, ![K, N]⟩ : Shape).rank) ∈ d.rhsBatch by rw [hrb]; simp),
      dif_pos (show (1 : Fin (⟨2, ![K, N]⟩ : Shape).rank) ∈ d.rhsNonContracting by rw [hrn]; simp)]
    simp only [Fin.val_cast]
    have key : ∀ (n : Nat) (hn : n < 2), n = 1 → ((ix2 p q) ⟨n, hn⟩).val = q.val :=
      fun n hn h => by subst h; rfl
    exact key _ _ (by simp [hlb, hln, hrn])
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun c => Fin.ext (by
    match c with
    | ⟨0, _⟩ => exact l0 _
    | ⟨1, _⟩ => exact (d.lhsIdx_val_of_single hlc _ _).trans hk)
  have er : d.rhsIdx (ix2 p q) ((contrEquiv1 d K hr hs).symm k) = ix2 k q := funext fun c => Fin.ext (by
    match c with
    | ⟨0, _⟩ => exact (d.rhsIdx_val_of_single hrc _ _).trans hk
    | ⟨1, _⟩ => exact r1 _)
  rw [el, er]

end Cert.Lib

end
-- ==== Proof.Tap.lean ====
/-
  One tap of a spiral layer as the kernel forms it, read at an entry.  The selection matrix of the tap compares every
  row number of the table with the looked-up word of the output row; its product with the table gathers the selected
  row's features, and the product of those with the tap's weights is the tap's contribution.  Also: a sum over nine
  taps written out from left to right from zero, as the kernel's accumulator adds them.
-/
import proofs.«419524_j12970801234173_1_alg».proof.Proof.Gen.KernelIdeal
import proofs.«419524_j12970801234173_1_alg».proof.Proof.Spec
import proofs.«419524_j12970801234173_1_alg».proof.Proof.LibKeepdims
import proofs.«419524_j12970801234173_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tap

open Cert.KernelIdeal Cert.KernelIdeal.Gen Idealize.ShloMosaic Idealize.ShloMosaic.ValueIdx

/-- A dimension record is the plain one: left operand contracted on its second axis, right on its first, no batch axes. -/
def Plain {n0 n1 n2 n3 n4 n5 : ℕ} (d : DotDims (⟨2, ![n0, n1]⟩ : Shape) ⟨2, ![n2, n3]⟩ ⟨2, ![n4, n5]⟩) : Prop :=
  d.lhsContracting = [1] ∧ d.rhsContracting = [0] ∧ d.lhsNonContracting = [0] ∧ d.rhsNonContracting = [1]
    ∧ d.lhsBatch = [] ∧ d.rhsBatch = []

/-- The selection matrix of one tap at (row p, table row j): the comparison of the row number with the looked-up word
    of row p, widened and converted. -/
theorem onehot_apply (idx : IVec S128x9 32) (o : ℕ) (ho : o < 9) (hs : S128x9.Slices ![0, o] S128x1)
    (p : Fin 128) (j : Fin 5120) :
    ((truncf .bf16 (sitofp (F := Ideal) .f32 (extui 32 (cmpi .eq (iota .tc S128x5120 32 [1] iota_S128x5120_d1_w32)
        (broadcastTo S128x5120 (shapeCast S128x1 (shapeCast S128 (extractStridedSlice S128x1 ![0, o] idx hs)
          shapeCasts_S128x1_S128) shapeCasts_S128_S128x1) broadcasts_S128x1_S128x5120)) natLt_1_32)) bitsLt_bf16_f32) :
        FVec Ideal S128x5120 .bf16) (ix2 p j)
      = Spiral.sel (idx (ix2 p ⟨o, ho⟩)) j.val := by
  rw [truncf_apply, sitofp_apply, extui_apply]
  show FloatOps.sitofp (F := Ideal) .f32 (BitVec.setWidth 32 (IntOp.cmpi .eq
      (iota .tc S128x5120 32 [1] iota_S128x5120_d1_w32 (ix2 p j))
      (broadcastTo S128x5120 (shapeCast S128x1 (shapeCast S128 (extractStridedSlice S128x1 ![0, o] idx hs)
          shapeCasts_S128x1_S128) shapeCasts_S128_S128x1) broadcasts_S128x1_S128x5120 (ix2 p j)))) = _
  rw [iota_single_apply, Cert.Lib.keepdims_apply,
    shapeCast_apply (extractStridedSlice S128x1 ![0, o] idx hs) shapeCasts_S128x1_S128 (ix1 p) (ix2 p (0 : Fin 1))
      (by rw [Shape.rowMajor_val_two, Shape.rowMajor_val_one]; show p.val * 1 + 0 = p.val; omega),
    slice2_axis1_apply o idx hs p (0 : Fin 1) ⟨o, ho⟩ (by show o = o + 0; omega)]
  rfl

/-- One tap at (row p, output feature q), for a table of `C` features and `O` output features: the selection matrix
    times the table gathers the looked-up row, and that times the tap's weights is the tap. -/
theorem tap_apply {C O : ℕ}
    (dA : DotDims S128x5120 (⟨2, ![5120, C]⟩ : Shape) ⟨2, ![128, C]⟩) (hA : Plain dA)
    (dB : DotDims (⟨2, ![128, C]⟩ : Shape) ⟨2, ![C, O]⟩ ⟨2, ![128, O]⟩) (hB : Plain dB)
    (idx : IVec S128x9 32) (h : FVec Ideal (⟨2, ![5120, C]⟩ : Shape) .bf16) (w : FVec Ideal (⟨2, ![C, O]⟩ : Shape) .bf16)
    (o : ℕ) (ho : o < 9) (hs : S128x9.Slices ![0, o] S128x1) (hb : FTy.bits .bf16 < FTy.bits .f32) (p : Fin 128) (q : Fin O) :
    (matmul dB none
      (truncf .bf16 (matmul dA none
        (truncf .bf16 (sitofp (F := Ideal) .f32 (extui 32 (cmpi .eq (iota .tc S128x5120 32 [1] iota_S128x5120_d1_w32)
        (broadcastTo S128x5120 (shapeCast S128x1 (shapeCast S128 (extractStridedSlice S128x1 ![0, o] idx hs)
          shapeCasts_S128x1_S128) shapeCasts_S128_S128x1) broadcasts_S128x1_S128x5120)) natLt_1_32)) bitsLt_bf16_f32)
        h (constant (⟨2, ![128, C]⟩ : Shape) .f32 0x00000000#32)) hb)
      w (constant (⟨2, ![128, O]⟩ : Shape) .f32 0x00000000#32) : FVec Ideal (⟨2, ![128, O]⟩ : Shape) .f32) (ix2 p q)
    = Spiral.tap (fun j c => h (ix2 j c)) (idx (ix2 p ⟨o, ho⟩)) (fun c => w (ix2 c q)) := by
  obtain ⟨a1, a2, a3, a4, a5, a6⟩ := hA
  obtain ⟨b1, b2, b3, b4, b5, b6⟩ := hB
  refine (Cert.Lib.matmul_plain_apply dB b1 b2 b3 b4 b5 b6 none _ w p q).trans ?_
  unfold Spiral.tap
  refine Finset.sum_congr rfl fun c _ => ?_
  congr 1
  rw [truncf_apply]
  refine (Cert.Lib.matmul_plain_apply dA a1 a2 a3 a4 a5 a6 none _ h p c).trans ?_
  unfold Spiral.picked
  refine Finset.sum_congr rfl fun j _ => ?_
  congr 1
  exact onehot_apply idx o ho hs p j

/-- Nine terms added from left to right from zero are their sum. -/
theorem sum_nine (f : Fin 9 → EReal) :
    ∑ l, f l = ((((((((0 + f 0) + f 1) + f 2) + f 3) + f 4) + f 5) + f 6) + f 7) + f 8 := by
  simp only [Fin.sum_univ_succ, Fin.sum_univ_zero]
  change f 0 + (f 1 + (f 2 + (f 3 + (f 4 + (f 5 + (f 6 + (f 7 + (f 8 + 0)))))))) = _
  simp only [add_zero, zero_add, add_assoc]

end Cert.KernelIdeal.Tap

end
-- ==== Proof.Layer0.lean ====
/-
  Spiral layer 0 of the kernel program (3 features in, 32 out).  Each grid point (batch entry, block of 128 output
  rows) holds the batch entry's whole padded table, the block's 128 × 9 looked-up words, all the weights and the bias;
  for each of the nine taps it selects the looked-up rows by a comparison matrix, multiplies by the tap's slice of the
  weights and accumulates, then adds the bias.  The blocks tile the output array, so the array ends holding the
  selecting spelling of the layer (Spec.lean) of the arrays the call found.
-/
import proofs.«419524_j12970801234173_1_alg».proof.Proof.Gen.KernelIdeal.Frame
import proofs.«419524_j12970801234173_1_alg».proof.Proof.Tap
import proofs.«419524_j12970801234173_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)

private theorem zero3 : (![0, 0, 0] : Fin 3 → ℕ) = fun _ => 0 := funext fun a => by fin_cases a <;> rfl
private theorem zero2 : (![0, 0] : Fin 2 → ℕ) = fun _ => 0 := funext fun a => by fin_cases a <;> rfl

/-- A three-row rectangle of the weights from row `off`, read at (c, q), is the weights at (off + c, q). -/
private theorem ld_w (x2 : Vec Ideal S27x32 .bf16) (off : ℕ)
    (inb : ∀ a, (![off, 0] : Fin 2 → ℕ) a + S3x32.size a ≤ S27x32.size a) (c : Fin 3) (q : Fin 32) (h : off + c.val < 27) :
    View.ld x2 (Rect.unit (s := S27x32) ![off, 0] S3x32.size inb) (ix2 c q) = x2 (ix2 (⟨off + c.val, h⟩ : Fin 27) q) := by
  show x2 _ = x2 _
  congr 1
  funext a
  match a with
  | ⟨0, _⟩ => exact Fin.ext (by show off + 1 * c.val = off + c.val; omega)
  | ⟨1, _⟩ => exact Fin.ext (by show 0 + 1 * q.val = q.val; omega)

/-- Tap `o` as the body forms it from the point's blocks, at (p, q): the tap of the selecting spelling over the table
    block, the word (p, o) and rows `o * 3 + c` of the weights. -/
private theorem tapK (x0 : Vec Ideal S1x5120x3 .bf16) (x1 : Vec Ideal S128x9 .i32) (x2 : Vec Ideal S27x32 .bf16)
    (o : ℕ) (ho : o < 9) (hs : S128x9.Slices ![0, o] S128x1) (off : ℕ) (hoff : off = o * 3)
    (inb : ∀ a, (![off, 0] : Fin 2 → ℕ) a + S3x32.size a ≤ S27x32.size a) (p : Fin 128) (q : Fin 32) :
    (matmul dot_S128x3_S3x32_S128x32_1_0_0_1_n_n none
      (truncf .bf16 (matmul dot_S128x5120_S5120x3_S128x3_1_0_0_1_n_n none
        (truncf .bf16 (sitofp (F := Ideal) .f32 (extui 32 (cmpi .eq (iota .tc S128x5120 32 [1] iota_S128x5120_d1_w32)
        (broadcastTo S128x5120 (shapeCast S128x1 (shapeCast S128 (extractStridedSlice S128x1 ![0, o]
          (shapeCast S128x9 x1 shapeCasts_S128x9_S128x9) hs)
          shapeCasts_S128x1_S128) shapeCasts_S128_S128x1) broadcasts_S128x1_S128x5120)) natLt_1_32)) bitsLt_bf16_f32)
        (shapeCast S5120x3 x0 shapeCasts_S1x5120x3_S5120x3 : FVec Ideal S5120x3 .bf16)
        (constant S128x3 .f32 0x00000000#32)) bitsLt_bf16_f32)
      (shapeCast S3x32 (View.ld x2 (Rect.unit (s := S27x32) ![off, 0] S3x32.size inb)) shapeCasts_S3x32_S3x32 :
        FVec Ideal S3x32 .bf16)
      (constant S128x32 .f32 0x00000000#32) : FVec Ideal S128x32 .f32) (ix2 p q)
    = Spiral.tap (fun (j : Fin 5120) (c : Fin 3) => x0 (ix3 (0 : Fin 1) j c)) (x1 (ix2 p ⟨o, ho⟩))
        (fun (c : Fin 3) => x2 (ix2 (⟨o * 3 + c.val, by have := c.isLt; omega⟩ : Fin 27) q)) := by
  subst hoff
  refine (Tap.tap_apply _ ⟨rfl, rfl, rfl, rfl, rfl, rfl⟩ _ ⟨rfl, rfl, rfl, rfl, rfl, rfl⟩
    (shapeCast S128x9 x1 shapeCasts_S128x9_S128x9) (shapeCast S5120x3 x0 shapeCasts_S1x5120x3_S5120x3)
    (shapeCast S3x32 (View.ld x2 (Rect.unit (s := S27x32) ![o * 3, 0] S3x32.size inb)) shapeCasts_S3x32_S3x32)
    o ho hs bitsLt_bf16_f32 p q).trans ?_
  have h1 : (fun (j : Fin 5120) (c : Fin 3) => (shapeCast S5120x3 x0 shapeCasts_S1x5120x3_S5120x3) (ix2 j c))
      = fun (j : Fin 5120) (c : Fin 3) => x0 (ix3 (0 : Fin 1) j c) :=
    funext fun j => funext fun c => shapeCast_1ab_ab_apply x0 _ j c
  have h2 : shapeCast S128x9 x1 shapeCasts_S128x9_S128x9 = x1 := shapeCast_self x1 _
  have h3 : (fun (c : Fin 3) => (shapeCast S3x32 (View.ld x2 (Rect.unit (s := S27x32) ![o * 3, 0] S3x32.size inb))
        shapeCasts_S3x32_S3x32) (ix2 c q))
      = fun (c : Fin 3) => x2 (ix2 (⟨o * 3 + c.val, by have := c.isLt; omega⟩ : Fin 27) q) :=
    funext fun c => (congrFun (shapeCast_self (s := S3x32) (View.ld x2 (Rect.unit (s := S27x32) ![o * 3, 0] S3x32.size inb))
      shapeCasts_S3x32_S3x32) (ix2 c q)).trans (ld_w x2 (o * 3) inb c q _)
  rw [h1, h2, h3]

/-- What one grid point leaves in its output block, at (row p, feature q) of the block: the selecting spelling of the
    layer over the point's table block `x0`, its looked-up words `x1`, the weights `x2` and the bias `x3`. -/
theorem out_apply (x0 : Vec Ideal S1x5120x3 .bf16) (x1 : Vec Ideal S128x9 .i32) (x2 : Vec Ideal S27x32 .bf16)
    (x3 : Vec Ideal S1x32 .f32) (p : Fin 128) (q : Fin 32) :
    out0_4 x0 x1 x2 x3 (ix3 (0 : Fin 1) p q)
      = Spiral.selVal (fun (j : Fin 5120) (c : Fin 3) => x0 (ix3 (0 : Fin 1) j c)) (fun (l : Fin 9) => x1 (ix2 p l))
          (fun (l : Fin 9) (c : Fin 3) => x2 (ix2 (⟨l.val * 3 + c.val, by have := l.isLt; have := c.isLt; omega⟩ : Fin 27) q))
          (x3 (ix2 (0 : Fin 1) q)) := by
  unfold out0_4
  rw [View.canon_unit_zero zero3]
  simp only [View.ld_unit_zero (S := S128x9) zero2, View.ld_unit_zero (S := S1x5120x3) zero3, View.ld_unit_zero (S := S1x32) zero2]
  unfold k0_pay1
  rw [shapeCast_ab_1ab_apply, truncf_apply, addf_apply, broadcastTo_1b_ab_apply, shapeCast_a_1a_apply]
  unfold k0_pay10
  rw [shapeCast_1a_a_apply]
  unfold Spiral.selVal
  rw [Tap.sum_nine]
  congr 1
  unfold k0_pay9 k0_pay6 k0_pay4 k0_pay5 k0_pay8 k0_pay7 k0_pay3 k0_pay2
  simp only [addf_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_
  · simp only [broadcast_apply, Ideal.ofBits_def, Ideal.ofBits_zero_f32]
  · exact tapK x0 x1 x2 0 (by omega) _ 0 rfl _ p q
  · exact tapK x0 x1 x2 1 (by omega) _ 3 rfl _ p q
  · exact tapK x0 x1 x2 2 (by omega) _ 6 rfl _ p q
  · exact tapK x0 x1 x2 3 (by omega) _ 9 rfl _ p q
  · exact tapK x0 x1 x2 4 (by omega) _ 12 rfl _ p q
  · exact tapK x0 x1 x2 5 (by omega) _ 15 rfl _ p q
  · exact tapK x0 x1 x2 6 (by omega) _ 18 rfl _ p q
  · exact tapK x0 x1 x2 7 (by omega) _ 21 rfl _ p q
  · exact tapK x0 x1 x2 8 (by omega) _ 24 rfl _ p q

variable (V : (c : Dev nD) → (b : Ref sig .tc) → Buf (Elt Ideal) ((c : Thread nD τ).loc b))

/-- Where each window's block sits at point `t`: batch entry `t / 40`, row block `t % 40`. -/
private theorem index_facts : ∀ t : Fin cfg0.N,
    (win0_4.index t (0 : Fin 3) = t.val / 40 ∧ win0_4.index t (1 : Fin 3) = t.val % 40 ∧ win0_4.index t (2 : Fin 3) = 0)
    ∧ (win0_0.index t (0 : Fin 3) = t.val / 40 ∧ win0_0.index t (1 : Fin 3) = 0 ∧ win0_0.index t (2 : Fin 3) = 0)
    ∧ (win0_1.index t (0 : Fin 2) = t.val % 40 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The table block of point `t` is batch entry `t / 40` of the table. -/
private theorem blk0_apply (c : Dev nD) (t : Fin cfg0.N) (j : Fin 5120) (k : Fin 3) (B : Fin 32) (hB : B.val = t.val / 40) :
    iblk0 (F := Ideal) V c 0 t (ix3 (0 : Fin 1) j k) = V c main_v2 (ix3 B j k) := by
  obtain ⟨-, ⟨f0, f1, f2⟩, -⟩ := index_facts t
  show V c main_v2 (((cfg0.win 0).blk t).view.emb (ix3 (0 : Fin 1) j k)) = _
  refine congrArg (V c main_v2) (funext fun a => Fin.ext ?_)
  match a with
  | ⟨0, _⟩ => show win0_0.index t (0 : Fin 3) * 1 + 1 * 0 = B.val; rw [f0, hB]; omega
  | ⟨1, _⟩ => show win0_0.index t (1 : Fin 3) * 5120 + 1 * j.val = j.val; rw [f1]; omega
  | ⟨2, _⟩ => show win0_0.index t (2 : Fin 3) * 3 + 1 * k.val = k.val; rw [f2]; omega

/-- The words block of point `t` is rows `(t % 40) * 128 + p` of the looked-up words. -/
private theorem blk1_apply (c : Dev nD) (t : Fin cfg0.N) (p : Fin 128) (l : Fin 9) (r : Fin 5120)
    (hr : r.val = t.val % 40 * 128 + p.val) :
    iblk0 (F := Ideal) V c 1 t (ix2 p l) = V c main_v7 (ix2 r l) := by
  obtain ⟨-, -, ⟨f0, f1⟩, -⟩ := index_facts t
  show V c main_v7 (((cfg0.win 1).blk t).view.emb (ix2 p l)) = _
  refine congrArg (V c main_v7) (funext fun a => Fin.ext ?_)
  match a with
  | ⟨0, _⟩ => show win0_1.index t (0 : Fin 2) * 128 + 1 * p.val = r.val; rw [f0, hr]; omega
  | ⟨1, _⟩ => show win0_1.index t (1 : Fin 2) * 9 + 1 * l.val = l.val; rw [f1]; omega

/-- The weights block of every point is the whole weight matrix. -/
private theorem blk2_apply (c : Dev nD) (t : Fin cfg0.N) (f : Fin 27) (q : Fin 32) :
    iblk0 (F := Ideal) V c 2 t (ix2 f q) = V c main_v4 (ix2 f q) := by
  obtain ⟨-, -, -, ⟨f0, f1⟩, -⟩ := index_facts t
  show V c main_v4 (((cfg0.win 2).blk t).view.emb (ix2 f q)) = _
  refine congrArg (V c main_v4) (funext fun a => Fin.ext ?_)
  match a with
  | ⟨0, _⟩ => show win0_2.index t (0 : Fin 2) * 27 + 1 * f.val = f.val; rw [f0]; omega
  | ⟨1, _⟩ => show win0_2.index t (1 : Fin 2) * 32 + 1 * q.val = q.val; rw [f1]; omega

/-- The bias block of every point is the whole bias row. -/
private theorem blk3_apply (c : Dev nD) (t : Fin cfg0.N) (q : Fin 32) :
    iblk0 (F := Ideal) V c 3 t (ix2 (0 : Fin 1) q) = V c main_v5 (ix2 (0 : Fin 1) q) := by
  obtain ⟨-, -, -, -, ⟨f0, f1⟩⟩ := index_facts t
  show V c main_v5 (((cfg0.win 3).blk t).view.emb (ix2 (0 : Fin 1) q)) = _
  refine congrArg (V c main_v5) (funext fun a => Fin.ext ?_)
  match a with
  | ⟨0, _⟩ => show win0_3.index t (0 : Fin 2) * 1 + 1 * 0 = 0; rw [f0]
  | ⟨1, _⟩ => show win0_3.index t (1 : Fin 2) * 32 + 1 * q.val = q.val; rw [f1]; omega

/-- Entry (0, p, q) of point `t`'s output block is entry (t / 40, (t % 40) * 128 + p, q) of the output array. -/
private theorem out_emb (t : Fin cfg0.N) (p : Fin 128) (q : Fin 32) (B : Fin 32) (r : Fin 5120)
    (hB : B.val = t.val / 40) (hr : r.val = t.val % 40 * 128 + p.val) :
    ((cfg0.win 4).blk t).view.emb (ix3 (0 : Fin 1) p q) = ix3 B r q := by
  obtain ⟨⟨f0, f1, f2⟩, -⟩ := index_facts t
  refine funext fun a => Fin.ext ?_
  match a with
  | ⟨0, _⟩ => show win0_4.index t (0 : Fin 3) * 1 + 1 * 0 = B.val; rw [f0, hB]; omega
  | ⟨1, _⟩ => show win0_4.index t (1 : Fin 3) * 128 + 1 * p.val = r.val; rw [f1, hr]; omega
  | ⟨2, _⟩ => show win0_4.index t (2 : Fin 3) * 32 + 1 * q.val = q.val; rw [f2]; omega

/-- The selecting spelling depends on its four arguments entry by entry. -/
private theorem selVal_congr {R C : ℕ} {h h' : Fin R → Fin C → EReal} {idx idx' : Fin 9 → BitVec 32}
    {wt wt' : Fin 9 → Fin C → EReal} {b b' : EReal}
    (hh : ∀ j c, h j c = h' j c) (hi : ∀ l, idx l = idx' l) (hw : ∀ l c, wt l c = wt' l c) (hb : b = b') :
    Spiral.selVal h idx wt b = Spiral.selVal h' idx' wt' b' := by
  have e1 : h = h' := funext fun j => funext fun c => hh j c
  have e2 : idx = idx' := funext hi
  have e3 : wt = wt' := funext fun l => funext fun c => hw l c
  rw [e1, e2, e3, hb]

/-- After the call's grid its output array is the layer of the four arrays the call found. -/
theorem arr (c : Dev nD) :
    (dat0 (F := Ideal) V c).arrAt 4 cfg0.N = KSpec.layer0 (V c main_v2) (V c main_v7) (V c main_v4) (V c main_v5) := by
  have hN : cfg0.grid.N = 1280 := rfl
  refine Dat.arrAt_eq_of_cover (dat := dat0 V c) 4
    (KSpec.layer0 (V c main_v2) (V c main_v7) (V c main_v4) (V c main_v5)) (fun t _ => ?_) (fun i => ?_)
  · -- what point t writes back is its block of the layer
    show (cfg0.win 4).cut (grid0.coords t) ((dat0 V c).after 4 t) = _
    rw [after0_4]
    funext y
    obtain ⟨u, p, q, rfl⟩ : ∃ (u : Fin 1) (p : Fin 128) (q : Fin 32), y = ix3 u p q := ⟨y 0, y 1, y 2, eq_ix3 y⟩
    obtain rfl : u = 0 := Subsingleton.elim _ _
    have ht : t.val < 1280 := t.isLt
    have hB : t.val / 40 < 32 := by omega
    have hr : t.val % 40 * 128 + p.val < 5120 := by have := p.isLt; omega
    rw [View.read_apply, out_emb t p q ⟨t.val / 40, hB⟩ ⟨t.val % 40 * 128 + p.val, hr⟩ rfl rfl]
    show out0_4 (iblk0 V c 0 t) (iblk0 V c 1 t) (iblk0 V c 2 t) (iblk0 V c 3 t) (ix3 (0 : Fin 1) p q) = _
    rw [out_apply]
    exact selVal_congr (fun j k => blk0_apply V c t j k _ rfl) (fun l => blk1_apply V c t p l _ rfl)
      (fun l k => blk2_apply V c t _ q) (blk3_apply V c t q)
  · -- every entry of the array is in the block of the point of its batch entry and row block
    obtain ⟨b, r, q, rfl⟩ : ∃ (b : Fin 32) (r : Fin 5120) (q : Fin 32), i = ix3 b r q :=
      ⟨i (0 : Fin 3), i (1 : Fin 3), i (2 : Fin 3), eq_ix3 i⟩
    have hb := b.isLt
    have hr := r.isLt
    have hq := q.isLt
    have htlt : b.val * 40 + r.val / 128 < cfg0.N := by show _ < cfg0.grid.N; omega
    refine ⟨⟨b.val * 40 + r.val / 128, htlt⟩, flush0_4 _, ?_⟩
    obtain ⟨⟨g0, g1, g2⟩, -⟩ := index_facts ⟨b.val * 40 + r.val / 128, htlt⟩
    show ix3 b r q ∈ ((View.whole main_v8).slice (win0_4.rect ⟨b.val * 40 + r.val / 128, htlt⟩)).set
    rw [View.set_slice_whole, Rect.mem_set_unit]
    intro a
    match a with
    | ⟨0, _⟩ =>
      show win0_4.index ⟨b.val * 40 + r.val / 128, htlt⟩ (0 : Fin 3) * 1 ≤ b.val
        ∧ b.val < win0_4.index ⟨b.val * 40 + r.val / 128, htlt⟩ (0 : Fin 3) * 1 + 1
      rw [g0]; show (b.val * 40 + r.val / 128) / 40 * 1 ≤ b.val ∧ b.val < (b.val * 40 + r.val / 128) / 40 * 1 + 1
      omega
    | ⟨1, _⟩ =>
      show win0_4.index ⟨b.val * 40 + r.val / 128, htlt⟩ (1 : Fin 3) * 128 ≤ r.val
        ∧ r.val < win0_4.index ⟨b.val * 40 + r.val / 128, htlt⟩ (1 : Fin 3) * 128 + 128
      rw [g1]; show (b.val * 40 + r.val / 128) % 40 * 128 ≤ r.val ∧ r.val < (b.val * 40 + r.val / 128) % 40 * 128 + 128
      omega
    | ⟨2, _⟩ =>
      show win0_4.index ⟨b.val * 40 + r.val / 128, htlt⟩ (2 : Fin 3) * 32 ≤ q.val
        ∧ q.val < win0_4.index ⟨b.val * 40 + r.val / 128, htlt⟩ (2 : Fin 3) * 32 + 32
      rw [g2]; omega

end Cert.KernelIdeal.Layer0

end
-- ==== Proof.Layer1.lean ====
/-
  Spiral layer 1 of the kernel program (32 features in, 64 out).  Each grid point (batch entry, block of 128 output
  rows) holds the batch entry's whole padded table, the block's 128 × 9 looked-up words, all the weights and the bias;
  for each of the nine taps it selects the looked-up rows by a comparison matrix, multiplies by the tap's slice of the
  weights and accumulates, then adds the bias.  The blocks tile the output array, so the array ends holding the
  selecting spelling of the layer (Spec.lean) of the arrays the call found.
-/
import proofs.«419524_j12970801234173_1_alg».proof.Proof.Gen.KernelIdeal.Frame
import proofs.«419524_j12970801234173_1_alg».proof.Proof.Tap
import proofs.«419524_j12970801234173_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A load of the weights through a 32 × 64 rectangle at row offset `off` reads row `off + c`. -/
private theorem ld_w (x2 : Vec Ideal S288x64 .bf16) (off : ℕ)
    (inb : ∀ a, (![off, 0] : Fin 2 → ℕ) a + S32x64.size a ≤ S288x64.size a) (c : Fin 32) (q : Fin 64) (k : Fin 288)
    (hk : k.val = off + c.val) :
    View.ld x2 (Rect.unit (s := S288x64) ![off, 0] S32x64.size inb) (ix2 c q) = x2 (ix2 k q) := by
  show x2 ((Rect.unit (s := S288x64) ![off, 0] S32x64.size inb).emb (ix2 c q)) = x2 (ix2 k q)
  congr 1
  funext a
  match a with
  | ⟨0, _⟩ => exact Fin.ext (show off + 1 * c.val = k.val by omega)
  | ⟨1, _⟩ => exact Fin.ext (show 0 + 1 * q.val = q.val by omega)

/-- One tap of the kernel over the point's blocks, at an entry. -/
private theorem tap1 (x0 : Vec Ideal S1x5120x32 .bf16) (x1 : Vec Ideal S128x9 .i32) (W : Vec Ideal S32x64 .bf16)
    (o : ℕ) (ho : o < 9) (hs : S128x9.Slices ![0, o] S128x1) (p : Fin 128) (q : Fin 64) :
    (matmul dot_S128x32_S32x64_S128x64_1_0_0_1_n_n none
      (truncf .bf16 (matmul dot_S128x5120_S5120x32_S128x32_1_0_0_1_n_n none
        (truncf .bf16 (sitofp (F := Ideal) .f32 (extui 32 (cmpi .eq (iota .tc S128x5120 32 [1] iota_S128x5120_d1_w32)
        (broadcastTo S128x5120 (shapeCast S128x1 (shapeCast S128 (extractStridedSlice S128x1 ![0, o]
          (shapeCast S128x9 x1 shapeCasts_S128x9_S128x9) hs)
          shapeCasts_S128x1_S128) shapeCasts_S128_S128x1) broadcasts_S128x1_S128x5120)) natLt_1_32)) bitsLt_bf16_f32)
        (shapeCast S5120x32 x0 shapeCasts_S1x5120x32_S5120x32 : FVec Ideal S5120x32 .bf16) (constant S128x32 .f32 0x00000000#32)) bitsLt_bf16_f32)
      (shapeCast S32x64 W shapeCasts_S32x64_S32x64 : FVec Ideal S32x64 .bf16) (constant S128x64 .f32 0x00000000#32) : FVec Ideal S128x64 .f32) (ix2 p q)
    = Spiral.tap (fun j c => x0 (ix3 (0 : Fin 1) j c)) (x1 (ix2 p ⟨o, ho⟩)) (fun c => W (ix2 c q)) := by
  refine (Tap.tap_apply _ ⟨rfl, rfl, rfl, rfl, rfl, rfl⟩ _ ⟨rfl, rfl, rfl, rfl, rfl, rfl⟩ _ _ _ o ho hs _ p q).trans ?_
  rw [shapeCast_self, shapeCast_self]
  congr 1
  funext j c
  exact shapeCast_1ab_ab_apply x0 _ j c

/-- What one grid point leaves in its output block, at (row p, feature q) of the block: the selecting spelling of the
    layer over the point's table block `x0`, its looked-up words `x1`, the weights `x2` and the bias `x3`. -/
theorem out_apply (x0 : Vec Ideal S1x5120x32 .bf16) (x1 : Vec Ideal S128x9 .i32) (x2 : Vec Ideal S288x64 .bf16)
    (x3 : Vec Ideal S1x64 .f32) (p : Fin 128) (q : Fin 64) :
    out1_4 x0 x1 x2 x3 (ix3 (0 : Fin 1) p q)
      = Spiral.selVal (fun (j : Fin 5120) (c : Fin 32) => x0 (ix3 (0 : Fin 1) j c)) (fun (l : Fin 9) => x1 (ix2 p l))
          (fun (l : Fin 9) (c : Fin 32) => x2 (ix2 (⟨l.val * 32 + c.val, by have := l.isLt; have := c.isLt; omega⟩ : Fin 288) q))
          (x3 (ix2 (0 : Fin 1) q)) := by
  have zero3 : (![0,0,0] : Fin 3 → ℕ) = fun _ => 0 := funext fun a => by fin_cases a <;> rfl
  have zero2 : (![0,0] : Fin 2 → ℕ) = fun _ => 0 := funext fun a => by fin_cases a <;> rfl
  unfold out1_4
  rw [View.canon_unit_zero zero3]
  simp only [View.ld_unit_zero (S := S128x9) zero2, View.ld_unit_zero (S := S1x5120x32) zero3, View.ld_unit_zero (S := S1x64) zero2]
  unfold k1_pay1 k1_pay10
  rw [shapeCast_ab_1ab_apply, truncf_apply, addf_apply, broadcastTo_1b_ab_apply, shapeCast_a_1a_apply, shapeCast_1a_a_apply]
  unfold Spiral.selVal
  rw [Tap.sum_nine]
  congr 1
  unfold k1_pay9 k1_pay6 k1_pay4 k1_pay5 k1_pay8 k1_pay7 k1_pay2 k1_pay3
  simp only [addf_apply]
  rw [tap1 x0 x1 _ 0 (by omega), tap1 x0 x1 _ 1 (by omega), tap1 x0 x1 _ 2 (by omega), tap1 x0 x1 _ 3 (by omega),
    tap1 x0 x1 _ 4 (by omega), tap1 x0 x1 _ 5 (by omega), tap1 x0 x1 _ 6 (by omega), tap1 x0 x1 _ 7 (by omega),
    tap1 x0 x1 _ 8 (by omega)]
  rw [broadcast_apply, Ideal.ofBits_def, Ideal.ofBits_zero_f32]
  have ht : ∀ (l : Fin 9) (o : ℕ) (ho : o < 9) (off : ℕ)
      (inb : ∀ a, (![off, 0] : Fin 2 → ℕ) a + S32x64.size a ≤ S288x64.size a) (hlo : o = l.val) (hl : off = l.val * 32),
      Spiral.tap (fun (j : Fin 5120) (c : Fin 32) => x0 (ix3 (0 : Fin 1) j c)) (x1 (ix2 p ⟨o, ho⟩))
          (fun c : Fin 32 => View.ld x2 (Rect.unit (s := S288x64) ![off, 0] S32x64.size inb) (ix2 c q))
        = Spiral.tap (fun (j : Fin 5120) (c : Fin 32) => x0 (ix3 (0 : Fin 1) j c)) (x1 (ix2 p l))
          (fun c : Fin 32 => x2 (ix2 (⟨l.val * 32 + c.val, by have := l.isLt; have := c.isLt; omega⟩ : Fin 288) q)) := by
    intro l o ho off inb hlo hl
    subst hlo
    congr 1
    funext c
    exact ld_w x2 off inb c q _ (by show l.val * 32 + c.val = off + c.val; omega)
  rw [ht 0 0 _ 0 _ rfl rfl, ht 1 1 _ 32 _ rfl rfl, ht 2 2 _ 64 _ rfl rfl, ht 3 3 _ 96 _ rfl rfl, ht 4 4 _ 128 _ rfl rfl,
    ht 5 5 _ 160 _ rfl rfl, ht 6 6 _ 192 _ rfl rfl, ht 7 7 _ 224 _ rfl rfl, ht 8 8 _ 256 _ rfl rfl]

/-- The printed index maps at every point of the grid: point `t` is batch entry `t / 40` and row block `t % 40`; the
    table window follows the batch entry, the words window the row block, the weights and the bias are whole. -/
private theorem idx_facts : ∀ t : Fin cfg1.N,
    win1_4.index t (0 : Fin 3) = t.val / 40 ∧ win1_4.index t (1 : Fin 3) = t.val % 40 ∧ win1_4.index t (2 : Fin 3) = 0
    ∧ win1_0.index t (0 : Fin 3) = t.val / 40 ∧ win1_0.index t (1 : Fin 3) = 0 ∧ win1_0.index t (2 : Fin 3) = 0
    ∧ win1_1.index t (0 : Fin 2) = t.val % 40 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- The table block of point `t` is the batch entry's table. -/
private theorem blk0 (c : Dev nD) (t : Fin cfg1.N) (j : Fin 5120) (k : Fin 32) (B : Fin 32) (hB : B.val = t.val / 40) :
    iblk1 V c 0 t (ix3 (0 : Fin 1) j k) = V c main_v8 (ix3 B j k) := by
  obtain ⟨_, _, _, f0, f1, f2, _⟩ := idx_facts t
  show V c main_v8 (((cfg1.win 0).blk t).view.emb (ix3 (0 : Fin 1) j k)) = _
  refine congrArg (V c main_v8) (funext fun a => Fin.ext ?_)
  match a with
  | ⟨0, _⟩ => show win1_0.index t (0 : Fin 3) * 1 + 1 * (0 : Fin 1).val = B.val; rw [f0, hB]; simp
  | ⟨1, _⟩ => show win1_0.index t (1 : Fin 3) * 5120 + 1 * j.val = j.val; rw [f1]; omega
  | ⟨2, _⟩ => show win1_0.index t (2 : Fin 3) * 32 + 1 * k.val = k.val; rw [f2]; omega

/-- The words block of point `t` is rows `(t % 40) * 128 + p` of the looked-up words. -/
private theorem blk1 (c : Dev nD) (t : Fin cfg1.N) (p : Fin 128) (l : Fin 9) (r : Fin 5120)
    (hr : r.val = t.val % 40 * 128 + p.val) :
    iblk1 V c 1 t (ix2 p l) = V c main_v13 (ix2 r l) := by
  obtain ⟨_, _, _, _, _, _, f0, f1, _⟩ := idx_facts t
  show V c main_v13 (((cfg1.win 1).blk t).view.emb (ix2 p l)) = _
  refine congrArg (V c main_v13) (funext fun a => Fin.ext ?_)
  match a with
  | ⟨0, _⟩ => show win1_1.index t (0 : Fin 2) * 128 + 1 * p.val = r.val; rw [f0, hr]; omega
  | ⟨1, _⟩ => show win1_1.index t (1 : Fin 2) * 9 + 1 * l.val = l.val; rw [f1]; omega

/-- The weights block is the whole weight array. -/
private theorem blk2 (c : Dev nD) (t : Fin cfg1.N) (k : Fin 288) (q : Fin 64) :
    iblk1 V c 2 t (ix2 k q) = V c main_v10 (ix2 k q) := by
  obtain ⟨_, _, _, _, _, _, _, _, f0, f1, _⟩ := idx_facts t
  show V c main_v10 (((cfg1.win 2).blk t).view.emb (ix2 k q)) = _
  refine congrArg (V c main_v10) (funext fun a => Fin.ext ?_)
  match a with
  | ⟨0, _⟩ => show win1_2.index t (0 : Fin 2) * 288 + 1 * k.val = k.val; rw [f0]; omega
  | ⟨1, _⟩ => show win1_2.index t (1 : Fin 2) * 64 + 1 * q.val = q.val; rw [f1]; omega

/-- The bias block is the whole bias array. -/
private theorem blk3 (c : Dev nD) (t : Fin cfg1.N) (q : Fin 64) :
    iblk1 V c 3 t (ix2 (0 : Fin 1) q) = V c main_v11 (ix2 (0 : Fin 1) q) := by
  obtain ⟨_, _, _, _, _, _, _, _, _, _, f0, f1⟩ := idx_facts t
  show V c main_v11 (((cfg1.win 3).blk t).view.emb (ix2 (0 : Fin 1) q)) = _
  refine congrArg (V c main_v11) (funext fun a => Fin.ext ?_)
  match a with
  | ⟨0, _⟩ => show win1_3.index t (0 : Fin 2) * 1 + 1 * (0 : Fin 1).val = (0 : Fin 1).val; rw [f0]; simp
  | ⟨1, _⟩ => show win1_3.index t (1 : Fin 2) * 64 + 1 * q.val = q.val; rw [f1]; omega

/-- Entry `(0, p, q)` of point `t`'s output block sits at batch entry `t / 40`, row `(t % 40) * 128 + p`. -/
private theorem out_emb (t : Fin cfg1.N) (p : Fin 128) (q : Fin 64) (B : Fin 32) (r : Fin 5120)
    (hB : B.val = t.val / 40) (hr : r.val = t.val % 40 * 128 + p.val) :
    ((cfg1.win 4).blk t).view.emb (ix3 (0 : Fin 1) p q) = ix3 B r q := by
  obtain ⟨f0, f1, f2, _⟩ := idx_facts t
  refine funext fun a => Fin.ext ?_
  match a with
  | ⟨0, _⟩ => show win1_4.index t (0 : Fin 3) * 1 + 1 * (0 : Fin 1).val = B.val; rw [f0, hB]; simp
  | ⟨1, _⟩ => show win1_4.index t (1 : Fin 3) * 128 + 1 * p.val = r.val; rw [f1, hr]; omega
  | ⟨2, _⟩ => show win1_4.index t (2 : Fin 3) * 64 + 1 * q.val = q.val; rw [f2]; omega

/-- What point `t` writes back is its block of the layer of the arrays the call found. -/
private theorem flushed_eq (c : Dev nD) (t : Fin cfg1.N) :
    (dat1 (F := Ideal) V c).flushed 4 t
      = ((cfg1.win 4).blk t).view.read (Elt Ideal)
          (KSpec.layer1 (V c main_v8) (V c main_v13) (V c main_v10) (V c main_v11)) := by
  show (cfg1.win 4).cut (grid1.coords t) ((dat1 V c).after 4 t) = _
  rw [after1_4]
  funext y
  obtain ⟨u, p, q, rfl⟩ : ∃ (u : Fin 1) (p : Fin 128) (q : Fin 64), y = ix3 u p q := ⟨y 0, y 1, y 2, eq_ix3 y⟩
  obtain rfl : u = 0 := Subsingleton.elim _ _
  have hN : cfg1.N = 1280 := rfl
  have hB : t.val / 40 < 32 := by have := t.isLt; omega
  have hr : t.val % 40 * 128 + p.val < 5120 := by have := p.isLt; omega
  rw [View.read_apply, out_emb t p q ⟨t.val / 40, hB⟩ ⟨t.val % 40 * 128 + p.val, hr⟩ rfl rfl]
  show out1_4 (iblk1 V c 0 t) (iblk1 V c 1 t) (iblk1 V c 2 t) (iblk1 V c 3 t) (ix3 (0 : Fin 1) p q) = _
  rw [out_apply]
  show Spiral.selVal _ _ _ _ = Spiral.selVal _ _ _ _
  congr 1
  · funext j k; exact blk0 V c t j k _ rfl
  · funext l; exact blk1 V c t p l _ rfl
  · funext l k; exact blk2 V c t _ q
  · exact blk3 V c t q

/-- An index of the output array is in point `t`'s block iff each coordinate is in the block's range on its axis. -/
private theorem mem_blk (t : Fin cfg1.N) (i : S32x5120x64.Idx) :
    i ∈ ((cfg1.win 4).blk t).view.set ↔ ∀ a : Fin 3, win1_4.index t a * S1x128x64.size a ≤ (i a).val
      ∧ (i a).val < win1_4.index t a * S1x128x64.size a + S1x128x64.size a := by
  show i ∈ ((View.whole main_v14).slice (win1_4.rect t)).set ↔ _
  rw [View.set_slice_whole, Rect.mem_set_unit]
  exact Iff.rfl

/-- The blocks tile the output array: entry `(b, n, q)` is in the block of point `b * 40 + n / 128`. -/
private theorem cover (i : S32x5120x64.Idx) :
    ∃ t : Fin cfg1.N, (cfg1.win 4).flush t = true ∧ i ∈ ((cfg1.win 4).blk t).view.set := by
  have hN : cfg1.N = 1280 := rfl
  have h0 : (i 0).val < 32 := (i 0).isLt
  have h1 : (i 1).val < 5120 := (i 1).isLt
  have h2 : (i 2).val < 64 := (i 2).isLt
  have ht : (i 0).val * 40 + (i 1).val / 128 < cfg1.N := by omega
  refine ⟨⟨(i 0).val * 40 + (i 1).val / 128, ht⟩, flush1_4 _, ?_⟩
  rw [mem_blk]
  obtain ⟨f0, f1, f2, _⟩ := idx_facts ⟨(i 0).val * 40 + (i 1).val / 128, ht⟩
  intro a
  match a with
  | ⟨0, _⟩ =>
    show win1_4.index _ (0 : Fin 3) * 1 ≤ (i 0).val ∧ (i 0).val < win1_4.index _ (0 : Fin 3) * 1 + 1
    rw [f0]
    show ((i 0).val * 40 + (i 1).val / 128) / 40 * 1 ≤ (i 0).val ∧ (i 0).val < ((i 0).val * 40 + (i 1).val / 128) / 40 * 1 + 1
    omega
  | ⟨1, _⟩ =>
    show win1_4.index _ (1 : Fin 3) * 128 ≤ (i 1).val ∧ (i 1).val < win1_4.index _ (1 : Fin 3) * 128 + 128
    rw [f1]
    show ((i 0).val * 40 + (i 1).val / 128) % 40 * 128 ≤ (i 1).val ∧ (i 1).val < ((i 0).val * 40 + (i 1).val / 128) % 40 * 128 + 128
    omega
  | ⟨2, _⟩ =>
    show win1_4.index _ (2 : Fin 3) * 64 ≤ (i 2).val ∧ (i 2).val < win1_4.index _ (2 : Fin 3) * 64 + 64
    rw [f2]
    omega

/-- After the call's grid its output array is the layer of the four arrays the call found. -/
theorem arr (c : Dev nD) :
    (dat1 (F := Ideal) V c).arrAt 4 cfg1.N = KSpec.layer1 (V c main_v8) (V c main_v13) (V c main_v10) (V c main_v11) :=
  (dat1 (F := Ideal) V c).arrAt_eq_of_cover 4 _ (fun t _ => flushed_eq V c t) cover

end Cert.KernelIdeal.Layer1

end
-- ==== Proof.Layer2.lean ====
/-
  Spiral layer 2 of the kernel program (64 features in, 128 out).  Each grid point (batch entry, block of 128 output
  rows) holds the batch entry's whole padded table, the block's 128 × 9 looked-up words, all the weights and the bias;
  for each of the nine taps it selects the looked-up rows by a comparison matrix, multiplies by the tap's slice of the
  weights and accumulates, then adds the bias.  The blocks tile the output array, so the array ends holding the
  selecting spelling of the layer (Spec.lean) of the arrays the call found.
-/
import proofs.«419524_j12970801234173_1_alg».proof.Proof.Gen.KernelIdeal.Frame
import proofs.«419524_j12970801234173_1_alg».proof.Proof.Tap
import proofs.«419524_j12970801234173_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

private theorem zero3 : (![0, 0, 0] : Fin 3 → ℕ) = fun _ => 0 := funext fun a => by fin_cases a <;> rfl
private theorem zero2 : (![0, 0] : Fin 2 → ℕ) = fun _ => 0 := funext fun a => by fin_cases a <;> rfl

/-- The 64 weight rows from row `off` on, read at (row c, column q): row `off + c` of the weights. -/
private theorem wld (x2 : Vec Ideal S576x128 .bf16) (off : ℕ)
    (inb : ∀ a, (![off, 0] : Fin 2 → ℕ) a + S64x128.size a ≤ S576x128.size a)
    (c : Fin 64) (q : Fin 128) (k : Fin 576) (hk : k.val = off + c.val) :
    View.ld x2 (Rect.unit (s := S576x128) ![off, 0] S64x128.size inb) (ix2 c q) = x2 (ix2 k q) := by
  show x2 _ = x2 _
  congr 1
  funext a
  match a with
  | ⟨0, _⟩ => exact Fin.ext (by show off + 1 * c.val = k.val; omega)
  | ⟨1, _⟩ => exact Fin.ext (by show 0 + 1 * q.val = q.val; omega)

/-- Tap `o` as the kernel forms it from the point's blocks, at (row p, feature q): the tap of the selecting spelling
    over the table block, the looked-up word `(p, o)` and weight rows `off + c`. -/
private theorem tapk (x0 : Vec Ideal S1x5120x64 .bf16) (x1 : Vec Ideal S128x9 .i32) (x2 : Vec Ideal S576x128 .bf16)
    (o : ℕ) (ho : o < 9) (hs : S128x9.Slices ![0, o] S128x1) (off : ℕ) (hoff : off + 64 ≤ 576)
    (inb : ∀ a, (![off, 0] : Fin 2 → ℕ) a + S64x128.size a ≤ S576x128.size a)
    (h1 : S128x9.ShapeCasts S128x9) (h0 : S1x5120x64.ShapeCasts S5120x64) (h2 : S64x128.ShapeCasts S64x128)
    (p : Fin 128) (q : Fin 128) :
    (matmul dot_S128x64_S64x128_S128x128_1_0_0_1_n_n none
      (truncf .bf16 (matmul dot_S128x5120_S5120x64_S128x64_1_0_0_1_n_n none
        (truncf .bf16 (sitofp (F := Ideal) .f32 (extui 32 (cmpi .eq (iota .tc S128x5120 32 [1] iota_S128x5120_d1_w32)
        (broadcastTo S128x5120 (shapeCast S128x1 (shapeCast S128 (extractStridedSlice S128x1 ![0, o]
          (shapeCast S128x9 x1 h1 : IVec S128x9 32) hs)
          shapeCasts_S128x1_S128) shapeCasts_S128_S128x1) broadcasts_S128x1_S128x5120)) natLt_1_32)) bitsLt_bf16_f32)
        (shapeCast S5120x64 x0 h0 : FVec Ideal S5120x64 .bf16) (constant S128x64 .f32 0x00000000#32) : FVec Ideal S128x64 .f32)
        bitsLt_bf16_f32)
      (shapeCast S64x128 (View.ld x2 (Rect.unit (s := S576x128) ![off, 0] S64x128.size inb)) h2 : FVec Ideal S64x128 .bf16)
      (constant S128x128 .f32 0x00000000#32) : FVec Ideal S128x128 .f32) (ix2 p q)
    = Spiral.tap (fun (j : Fin 5120) (c : Fin 64) => x0 (ix3 (0 : Fin 1) j c)) (x1 (ix2 p ⟨o, ho⟩))
        (fun (c : Fin 64) => x2 (ix2 (⟨off + c.val, by have := c.isLt; omega⟩ : Fin 576) q)) := by
  refine (Tap.tap_apply _ ⟨rfl, rfl, rfl, rfl, rfl, rfl⟩ _ ⟨rfl, rfl, rfl, rfl, rfl, rfl⟩ _ _ _ o ho hs _ p q).trans ?_
  have ea : (fun (j : Fin 5120) (c : Fin 64) => (shapeCast S5120x64 x0 h0 : FVec Ideal S5120x64 .bf16) (ix2 j c))
      = fun j c => x0 (ix3 (0 : Fin 1) j c) := by
    funext j c; exact shapeCast_1ab_ab_apply x0 h0 j c
  have eb : (shapeCast S128x9 x1 h1 : IVec S128x9 32) (ix2 p ⟨o, ho⟩) = x1 (ix2 p ⟨o, ho⟩) :=
    congrFun (shapeCast_self x1 h1) _
  have ec : (fun c : Fin 64 => (shapeCast S64x128 (View.ld x2 (Rect.unit (s := S576x128) ![off, 0] S64x128.size inb)) h2 :
        FVec Ideal S64x128 .bf16) (ix2 c q))
      = fun c => x2 (ix2 (⟨off + c.val, by have := c.isLt; omega⟩ : Fin 576) q) := by
    funext c
    exact (congrFun (shapeCast_self (s := S64x128) _ h2) _).trans (wld x2 off inb c q _ rfl)
  rw [ea, eb, ec]

/-- What one grid point leaves in its output block, at (row p, feature q) of the block: the selecting spelling of the
    layer over the point's table block `x0`, its looked-up words `x1`, the weights `x2` and the bias `x3`. -/
theorem out_apply (x0 : Vec Ideal S1x5120x64 .bf16) (x1 : Vec Ideal S128x9 .i32) (x2 : Vec Ideal S576x128 .bf16)
    (x3 : Vec Ideal S1x128 .f32) (p : Fin 128) (q : Fin 128) :
    out2_4 x0 x1 x2 x3 (ix3 (0 : Fin 1) p q)
      = Spiral.selVal (fun (j : Fin 5120) (c : Fin 64) => x0 (ix3 (0 : Fin 1) j c)) (fun (l : Fin 9) => x1 (ix2 p l))
          (fun (l : Fin 9) (c : Fin 64) => x2 (ix2 (⟨l.val * 64 + c.val, by have := l.isLt; have := c.isLt; omega⟩ : Fin 576) q))
          (x3 (ix2 (0 : Fin 1) q)) := by
  unfold out2_4
  rw [View.canon_unit_zero zero3]
  simp only [View.ld_unit_zero (S := S128x9) zero2, View.ld_unit_zero (S := S1x5120x64) zero3,
    View.ld_unit_zero (S := S1x128) zero2]
  unfold k2_pay1 k2_pay10
  rw [shapeCast_ab_1ab_apply, truncf_apply, addf_apply, broadcastTo_1b_ab_apply, shapeCast_a_1a_apply, shapeCast_1a_a_apply]
  unfold Spiral.selVal
  refine congrArg₂ (· + ·) ?_ rfl
  rw [Tap.sum_nine]
  unfold k2_pay9 k2_pay6 k2_pay4 k2_pay5 k2_pay8 k2_pay7 k2_pay2 k2_pay3
  simp only [addf_apply, broadcast_apply]
  rw [Ideal.ofBits_def, Ideal.ofBits_zero_f32,
    tapk x0 x1 x2 0 (by omega) _ 0 (by omega),
    tapk x0 x1 x2 1 (by omega) _ 64 (by omega),
    tapk x0 x1 x2 2 (by omega) _ 128 (by omega),
    tapk x0 x1 x2 3 (by omega) _ 192 (by omega),
    tapk x0 x1 x2 4 (by omega) _ 256 (by omega),
    tapk x0 x1 x2 5 (by omega) _ 320 (by omega),
    tapk x0 x1 x2 6 (by omega) _ 384 (by omega),
    tapk x0 x1 x2 7 (by omega) _ 448 (by omega),
    tapk x0 x1 x2 8 (by omega) _ 512 (by omega)]
  rfl

variable (V : (c : Dev nD) → (b : Ref sig .tc) → Buf (Elt Ideal) ((c : Thread nD τ).loc b))

/-- The block indices of the five windows at grid point `t`: the point is (batch entry `t / 40`, row block `t % 40`). -/
private theorem idxs : ∀ t : Fin cfg2.N,
    win2_4.index t (0 : Fin 3) = t.val / 40 ∧ win2_4.index t (1 : Fin 3) = t.val % 40 ∧ win2_4.index t (2 : Fin 3) = 0
    ∧ win2_0.index t (0 : Fin 3) = t.val / 40 ∧ win2_0.index t (1 : Fin 3) = 0 ∧ win2_0.index t (2 : Fin 3) = 0
    ∧ win2_1.index t (0 : Fin 2) = t.val % 40 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N,
    win2_4.index t (0 : Fin 3) = t.val / 40 ∧ win2_4.index t (1 : Fin 3) = t.val % 40 ∧ win2_4.index t (2 : Fin 3) = 0
    ∧ win2_0.index t (0 : Fin 3) = t.val / 40 ∧ win2_0.index t (1 : Fin 3) = 0 ∧ win2_0.index t (2 : Fin 3) = 0
    ∧ win2_1.index t (0 : Fin 2) = t.val % 40 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0)

/-- The table block of point `t` is batch entry `t / 40` of the table. -/
private theorem blk0 (c : Dev nD) (t : Fin cfg2.N) (j : Fin 5120) (k : Fin 64) (B : Fin 32) (hB : B.val = t.val / 40) :
    iblk2 V c 0 t (ix3 (0 : Fin 1) j k) = V c main_v14 (ix3 B j k) := by
  obtain ⟨-, -, -, f0, f1, f2, -⟩ := idxs t
  show V c main_v14 (((cfg2.win 0).blk t).view.emb (ix3 (0 : Fin 1) j k)) = _
  refine congrArg (V c main_v14) (funext fun a => Fin.ext ?_)
  match a with
  | ⟨0, _⟩ => show win2_0.index t (0 : Fin 3) * 1 + 1 * (0 : Fin 1).val = B.val; rw [f0, hB]; simp
  | ⟨1, _⟩ => show win2_0.index t (1 : Fin 3) * 5120 + 1 * j.val = j.val; rw [f1]; omega
  | ⟨2, _⟩ => show win2_0.index t (2 : Fin 3) * 64 + 1 * k.val = k.val; rw [f2]; omega

/-- The words block of point `t` is rows `(t % 40) * 128 + p` of the looked-up words. -/
private theorem blk1 (c : Dev nD) (t : Fin cfg2.N) (p : Fin 128) (l : Fin 9) (r : Fin 5120) (hr : r.val = t.val % 40 * 128 + p.val) :
    iblk2 V c 1 t (ix2 p l) = V c main_v19 (ix2 r l) := by
  obtain ⟨-, -, -, -, -, -, f0, f1, -⟩ := idxs t
  show V c main_v19 (((cfg2.win 1).blk t).view.emb (ix2 p l)) = _
  refine congrArg (V c main_v19) (funext fun a => Fin.ext ?_)
  match a with
  | ⟨0, _⟩ => show win2_1.index t (0 : Fin 2) * 128 + 1 * p.val = r.val; rw [f0, hr]; omega
  | ⟨1, _⟩ => show win2_1.index t (1 : Fin 2) * 9 + 1 * l.val = l.val; rw [f1]; omega

/-- The weights block of every point is the whole weight array. -/
private theorem blk2 (c : Dev nD) (t : Fin cfg2.N) (a : Fin 576) (b : Fin 128) :
    iblk2 V c 2 t (ix2 a b) = V c main_v16 (ix2 a b) := by
  obtain ⟨-, -, -, -, -, -, -, -, f0, f1, -⟩ := idxs t
  show V c main_v16 (((cfg2.win 2).blk t).view.emb (ix2 a b)) = _
  refine congrArg (V c main_v16) (funext fun d => Fin.ext ?_)
  match d with
  | ⟨0, _⟩ => show win2_2.index t (0 : Fin 2) * 576 + 1 * a.val = a.val; rw [f0]; omega
  | ⟨1, _⟩ => show win2_2.index t (1 : Fin 2) * 128 + 1 * b.val = b.val; rw [f1]; omega

/-- The bias block of every point is the whole bias array. -/
private theorem blk3 (c : Dev nD) (t : Fin cfg2.N) (b : Fin 128) :
    iblk2 V c 3 t (ix2 (0 : Fin 1) b) = V c main_v17 (ix2 (0 : Fin 1) b) := by
  obtain ⟨-, -, -, -, -, -, -, -, -, -, f0, f1⟩ := idxs t
  show V c main_v17 (((cfg2.win 3).blk t).view.emb (ix2 (0 : Fin 1) b)) = _
  refine congrArg (V c main_v17) (funext fun d => Fin.ext ?_)
  match d with
  | ⟨0, _⟩ => show win2_3.index t (0 : Fin 2) * 1 + 1 * (0 : Fin 1).val = (0 : Fin 1).val; rw [f0]; simp
  | ⟨1, _⟩ => show win2_3.index t (1 : Fin 2) * 128 + 1 * b.val = b.val; rw [f1]; omega

/-- Entry `(0, p, q)` of point `t`'s output block is entry `(t / 40, (t % 40) * 128 + p, q)` of the output array. -/
private theorem out_emb (t : Fin cfg2.N) (p q : Fin 128) (B : Fin 32) (r : Fin 5120) (hB : B.val = t.val / 40)
    (hr : r.val = t.val % 40 * 128 + p.val) :
    ((cfg2.win 4).blk t).view.emb (ix3 (0 : Fin 1) p q) = ix3 B r q := by
  obtain ⟨f0, f1, f2, -⟩ := idxs t
  funext a
  refine Fin.ext ?_
  match a with
  | ⟨0, _⟩ => show win2_4.index t (0 : Fin 3) * 1 + 1 * (0 : Fin 1).val = B.val; rw [f0, hB]; simp
  | ⟨1, _⟩ => show win2_4.index t (1 : Fin 3) * 128 + 1 * p.val = r.val; rw [f1, hr]; omega
  | ⟨2, _⟩ => show win2_4.index t (2 : Fin 3) * 128 + 1 * q.val = q.val; rw [f2]; omega

/-- What point `t` writes back is its block of the layer of the four arrays. -/
private theorem flushed_eq (c : Dev nD) (t : Fin cfg2.N) :
    (dat2 (F := Ideal) V c).flushed 4 t
      = (win2_4.blk t).view.read (Elt Ideal) (KSpec.layer2 (V c main_v14) (V c main_v19) (V c main_v16) (V c main_v17)) := by
  have hN : cfg2.N = 1280 := rfl
  have ht := t.isLt
  show (cfg2.win 4).cut (grid2.coords t) ((dat2 V c).after 4 t) = _
  rw [after2_4]
  funext y
  obtain ⟨u, p, q, rfl⟩ : ∃ (u : Fin 1) (p : Fin 128) (q : Fin 128), y = ix3 u p q := ⟨y 0, y 1, y 2, eq_ix3 y⟩
  obtain rfl : u = 0 := Subsingleton.elim _ _
  have hp := p.isLt
  rw [View.read_apply, out_emb t p q ⟨t.val / 40, by omega⟩ ⟨t.val % 40 * 128 + p.val, by omega⟩ rfl rfl]
  show out2_4 (iblk2 V c 0 t) (iblk2 V c 1 t) (iblk2 V c 2 t) (iblk2 V c 3 t) (ix3 (0 : Fin 1) p q) = _
  rw [out_apply]
  show Spiral.selVal _ _ _ _ = Spiral.selVal _ _ _ _
  congr 1
  · funext j k
    exact blk0 V c t j k _ rfl
  · funext l
    exact blk1 V c t p l _ rfl
  · funext l k
    exact blk2 V c t _ q
  · exact blk3 V c t q

/-- An entry of the output array is in point `t`'s block when, axis by axis, it is within the block's extent from the
    block's first entry. -/
private theorem mem_blk (t : Fin cfg2.N) (i : S32x5120x128.Idx) :
    i ∈ ((cfg2.win 4).blk t).view.set ↔ ∀ a : Fin 3, win2_4.index t a * win2_4.size a ≤ (i a).val
      ∧ (i a).val < win2_4.index t a * win2_4.size a + win2_4.xsize (grid2.coords t) a := by
  show i ∈ ((View.whole main_v20).slice (win2_4.rect t)).set ↔ _
  rw [View.set_slice_whole, Rect.mem_set_unit]
  exact Iff.rfl

/-- The output blocks tile the output array: entry `(b, n, q)` is in the block of point `b * 40 + n / 128`. -/
private theorem cover (i : S32x5120x128.Idx) :
    ∃ t : Fin cfg2.N, (cfg2.win 4).flush t = true ∧ i ∈ ((cfg2.win 4).blk t).view.set := by
  have hN : cfg2.N = 1280 := rfl
  have h0 : (i 0).val < 32 := (i 0).isLt
  have h1 : (i 1).val < 5120 := (i 1).isLt
  have h2 : (i 2).val < 128 := (i 2).isLt
  have hlt : (i 0).val * 40 + (i 1).val / 128 < cfg2.N := by omega
  refine ⟨⟨(i 0).val * 40 + (i 1).val / 128, hlt⟩, flush2_4 _, ?_⟩
  rw [mem_blk]
  obtain ⟨f0, f1, f2, -⟩ := idxs ⟨(i 0).val * 40 + (i 1).val / 128, hlt⟩
  intro a
  match a with
  | ⟨0, _⟩ =>
    show win2_4.index ⟨(i 0).val * 40 + (i 1).val / 128, hlt⟩ (0 : Fin 3) * 1 ≤ (i 0).val
      ∧ (i 0).val < win2_4.index ⟨(i 0).val * 40 + (i 1).val / 128, hlt⟩ (0 : Fin 3) * 1 + 1
    rw [f0]; dsimp only; omega
  | ⟨1, _⟩ =>
    show win2_4.index ⟨(i 0).val * 40 + (i 1).val / 128, hlt⟩ (1 : Fin 3) * 128 ≤ (i 1).val
      ∧ (i 1).val < win2_4.index ⟨(i 0).val * 40 + (i 1).val / 128, hlt⟩ (1 : Fin 3) * 128 + 128
    rw [f1]; dsimp only; omega
  | ⟨2, _⟩ =>
    show win2_4.index ⟨(i 0).val * 40 + (i 1).val / 128, hlt⟩ (2 : Fin 3) * 128 ≤ (i 2).val
      ∧ (i 2).val < win2_4.index ⟨(i 0).val * 40 + (i 1).val / 128, hlt⟩ (2 : Fin 3) * 128 + 128
    rw [f2]; omega

/-- After the call's grid its output array is the layer of the four arrays the call found. -/
theorem arr (c : Dev nD) :
    (dat2 (F := Ideal) V c).arrAt 4 cfg2.N = KSpec.layer2 (V c main_v14) (V c main_v19) (V c main_v16) (V c main_v17) := by
  exact (dat2 (F := Ideal) V c).arrAt_eq_of_cover 4 _ (fun t _ => flushed_eq V c t) cover

end Cert.KernelIdeal.Layer2

end
-- ==== Proof.Layer3.lean ====
/-
  Spiral layer 3 of the kernel program (128 features in, 128 out).  Each grid point (batch entry, block of 128 output
  rows) holds the batch entry's whole padded table, the block's 128 × 9 looked-up words, all the weights and the bias;
  for each of the nine taps it selects the looked-up rows by a comparison matrix, multiplies by the tap's slice of the
  weights and accumulates, then adds the bias.  The blocks tile the output array, so the array ends holding the
  selecting spelling of the layer (Spec.lean) of the arrays the call found.
-/
import proofs.«419524_j12970801234173_1_alg».proof.Proof.Gen.KernelIdeal.Frame
import proofs.«419524_j12970801234173_1_alg».proof.Proof.Tap
import proofs.«419524_j12970801234173_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The zero offset of a rank-3 access, as a constant function. -/
private theorem zero3 : (![0, 0, 0] : Fin 3 → Nat) = fun _ => 0 := funext fun a => by fin_cases a <;> rfl

/-- The zero offset of a rank-2 access, as a constant function. -/
private theorem zero2 : (![0, 0] : Fin 2 → Nat) = fun _ => 0 := funext fun a => by fin_cases a <;> rfl

/-- A block of 128 rows of the weights read at (c, q) is row `off + c` of the weights. -/
private theorem ld_rows (x2 : Vec Ideal S1152x128 .bf16) (off : ℕ)
    (inb : ∀ a, (![off, 0] : Fin 2 → ℕ) a + S128x128.size a ≤ S1152x128.size a) (c q : Fin 128) :
    View.ld x2 (Rect.unit (s := S1152x128) ![off, 0] S128x128.size inb) (ix2 c q)
      = x2 (ix2 (⟨off + c.val, by have h : off + 128 ≤ 1152 := inb 0; have := c.isLt; omega⟩ : Fin 1152) q) := by
  show x2 _ = x2 _
  congr 1
  funext a
  apply Fin.ext
  match a with
  | ⟨0, _⟩ => show off + 1 * c.val = off + c.val; omega
  | ⟨1, _⟩ => show 0 + 1 * q.val = q.val; omega

/-- Adding one tap respects equal accumulators, equal words and pointwise equal weights. -/
private theorem add_tap_congr {a a' : EReal} {h : Fin 5120 → Fin 128 → EReal} {w w' : BitVec 32}
    {wt wt' : Fin 128 → EReal} (ha : a = a') (hw : w = w') (hwt : ∀ c, wt c = wt' c) :
    a + Spiral.tap h w wt = a' + Spiral.tap h w' wt' := by
  obtain rfl : wt = wt' := funext hwt
  rw [ha, hw]

/-- What one grid point leaves in its output block, at (row p, feature q) of the block: the selecting spelling of the
    layer over the point's table block `x0`, its looked-up words `x1`, the weights `x2` and the bias `x3`. -/
theorem out_apply (x0 : Vec Ideal S1x5120x128 .bf16) (x1 : Vec Ideal S128x9 .i32) (x2 : Vec Ideal S1152x128 .bf16)
    (x3 : Vec Ideal S1x128 .f32) (p : Fin 128) (q : Fin 128) :
    out3_4 x0 x1 x2 x3 (ix3 (0 : Fin 1) p q)
      = Spiral.selVal (fun (j : Fin 5120) (c : Fin 128) => x0 (ix3 (0 : Fin 1) j c)) (fun (l : Fin 9) => x1 (ix2 p l))
          (fun (l : Fin 9) (c : Fin 128) => x2 (ix2 (⟨l.val * 128 + c.val, by have := l.isLt; have := c.isLt; omega⟩ : Fin 1152) q))
          (x3 (ix2 (0 : Fin 1) q)) := by
  unfold out3_4
  rw [View.canon_unit_zero zero3]
  simp only [View.ld_unit_zero (S := S128x9) zero2, View.ld_unit_zero (S := S1x5120x128) zero3,
    View.ld_unit_zero (S := S1x128) zero2]
  unfold k3_pay1 k3_pay10
  rw [shapeCast_ab_1ab_apply, truncf_apply, addf_apply, broadcastTo_1b_ab_apply, shapeCast_a_1a_apply, shapeCast_1a_a_apply]
  unfold Spiral.selVal
  rw [Tap.sum_nine]
  refine congrArg (· + x3 (ix2 (0 : Fin 1) q)) ?_
  unfold k3_pay9 k3_pay8 k3_pay7 k3_pay6 k3_pay5 k3_pay4 k3_pay3 k3_pay2
  simp only [addf_apply]
  rw [
    Tap.tap_apply _ ⟨rfl, rfl, rfl, rfl, rfl, rfl⟩ _ ⟨rfl, rfl, rfl, rfl, rfl, rfl⟩ _ _ _ 0 (by omega) _ _ p q,
    Tap.tap_apply _ ⟨rfl, rfl, rfl, rfl, rfl, rfl⟩ _ ⟨rfl, rfl, rfl, rfl, rfl, rfl⟩ _ _ _ 1 (by omega) _ _ p q,
    Tap.tap_apply _ ⟨rfl, rfl, rfl, rfl, rfl, rfl⟩ _ ⟨rfl, rfl, rfl, rfl, rfl, rfl⟩ _ _ _ 2 (by omega) _ _ p q,
    Tap.tap_apply _ ⟨rfl, rfl, rfl, rfl, rfl, rfl⟩ _ ⟨rfl, rfl, rfl, rfl, rfl, rfl⟩ _ _ _ 3 (by omega) _ _ p q,
    Tap.tap_apply _ ⟨rfl, rfl, rfl, rfl, rfl, rfl⟩ _ ⟨rfl, rfl, rfl, rfl, rfl, rfl⟩ _ _ _ 4 (by omega) _ _ p q,
    Tap.tap_apply _ ⟨rfl, rfl, rfl, rfl, rfl, rfl⟩ _ ⟨rfl, rfl, rfl, rfl, rfl, rfl⟩ _ _ _ 5 (by omega) _ _ p q,
    Tap.tap_apply _ ⟨rfl, rfl, rfl, rfl, rfl, rfl⟩ _ ⟨rfl, rfl, rfl, rfl, rfl, rfl⟩ _ _ _ 6 (by omega) _ _ p q,
    Tap.tap_apply _ ⟨rfl, rfl, rfl, rfl, rfl, rfl⟩ _ ⟨rfl, rfl, rfl, rfl, rfl, rfl⟩ _ _ _ 7 (by omega) _ _ p q,
    Tap.tap_apply _ ⟨rfl, rfl, rfl, rfl, rfl, rfl⟩ _ ⟨rfl, rfl, rfl, rfl, rfl, rfl⟩ _ _ _ 8 (by omega) _ _ p q]
  simp only [shapeCast_self, shapeCast_1ab_ab_apply, broadcast_apply, Ideal.ofBits_def, Ideal.ofBits_zero_f32]
  exact add_tap_congr (add_tap_congr (add_tap_congr (add_tap_congr (add_tap_congr (add_tap_congr (add_tap_congr
    (add_tap_congr (add_tap_congr rfl rfl fun c => ld_rows x2 0 _ c q) rfl fun c => ld_rows x2 128 _ c q)
    rfl fun c => ld_rows x2 256 _ c q) rfl fun c => ld_rows x2 384 _ c q) rfl fun c => ld_rows x2 512 _ c q)
    rfl fun c => ld_rows x2 640 _ c q) rfl fun c => ld_rows x2 768 _ c q) rfl fun c => ld_rows x2 896 _ c q)
    rfl fun c => ld_rows x2 1024 _ c q

variable (V : (c : Dev nD) → (b : Ref sig .tc) → Buf (Elt Ideal) ((c : Thread nD τ).loc b))

/-- The selecting spelling depends only on the values of its four arguments. -/
private theorem selVal_congr {R C : ℕ} {h h' : Fin R → Fin C → EReal} {idx idx' : Fin 9 → BitVec 32}
    {wt wt' : Fin 9 → Fin C → EReal} {b b' : EReal} (hh : ∀ j c, h j c = h' j c) (hi : ∀ l, idx l = idx' l)
    (hw : ∀ l c, wt l c = wt' l c) (hb : b = b') : Spiral.selVal h idx wt b = Spiral.selVal h' idx' wt' b' := by
  obtain rfl : h = h' := funext fun j => funext (hh j)
  obtain rfl : idx = idx' := funext hi
  obtain rfl : wt = wt' := funext fun l => funext (hw l)
  rw [hb]

/-- The index maps over the grid: point `t` is batch entry `t / 40`, row block `t % 40`; the table window follows the
    batch entry, the looked-up words follow the row block, the weights and the bias stay at their one block. -/
private theorem index_facts : ∀ t : Fin cfg3.N,
    win3_4.index t (0 : Fin 3) = t.val / 40 ∧ win3_4.index t (1 : Fin 3) = t.val % 40 ∧ win3_4.index t (2 : Fin 3) = 0
    ∧ win3_0.index t (0 : Fin 3) = t.val / 40 ∧ win3_0.index t (1 : Fin 3) = 0 ∧ win3_0.index t (2 : Fin 3) = 0
    ∧ win3_1.index t (0 : Fin 2) = t.val % 40 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The table window's block at point `t` is the whole table of batch entry `t / 40`. -/
private theorem table_block (c : Dev nD) (t : Fin cfg3.N) (j : Fin 5120) (k : Fin 128) (B : Fin 32)
    (hB : B.val = t.val / 40) :
    iblk3 V c 0 t (ix3 (0 : Fin 1) j k) = V c main_v20 (ix3 B j k) := by
  obtain ⟨-, -, -, f0, f1, f2, -⟩ := index_facts t
  show V c main_v20 (((cfg3.win 0).blk t).view.emb (ix3 (0 : Fin 1) j k)) = V c main_v20 (ix3 B j k)
  refine congrArg (V c main_v20) (funext fun a => Fin.ext ?_)
  match a with
  | ⟨0, _⟩ => show win3_0.index t (0 : Fin 3) * 1 + 1 * (0 : Fin 1).val = B.val; rw [f0, hB]; simp
  | ⟨1, _⟩ => show win3_0.index t (1 : Fin 3) * 5120 + 1 * j.val = j.val; rw [f1]; omega
  | ⟨2, _⟩ => show win3_0.index t (2 : Fin 3) * 128 + 1 * k.val = k.val; rw [f2]; omega

/-- The words window's block at point `t` holds the nine words of rows `128 (t % 40) + p`. -/
private theorem words_block (c : Dev nD) (t : Fin cfg3.N) (p : Fin 128) (l : Fin 9) (r : Fin 5120)
    (hr : r.val = t.val % 40 * 128 + p.val) :
    iblk3 V c 1 t (ix2 p l) = V c main_v25 (ix2 r l) := by
  obtain ⟨-, -, -, -, -, -, g0, g1, -⟩ := index_facts t
  show V c main_v25 (((cfg3.win 1).blk t).view.emb (ix2 p l)) = V c main_v25 (ix2 r l)
  refine congrArg (V c main_v25) (funext fun a => Fin.ext ?_)
  match a with
  | ⟨0, _⟩ => show win3_1.index t (0 : Fin 2) * 128 + 1 * p.val = r.val; rw [g0, hr]; omega
  | ⟨1, _⟩ => show win3_1.index t (1 : Fin 2) * 9 + 1 * l.val = l.val; rw [g1]; omega

/-- The weights window's block at every point is the whole weight matrix. -/
private theorem weights_block (c : Dev nD) (t : Fin cfg3.N) (r : Fin 1152) (q : Fin 128) :
    iblk3 V c 2 t (ix2 r q) = V c main_v22 (ix2 r q) := by
  obtain ⟨-, -, -, -, -, -, -, -, w0, w1, -⟩ := index_facts t
  show V c main_v22 (((cfg3.win 2).blk t).view.emb (ix2 r q)) = V c main_v22 (ix2 r q)
  refine congrArg (V c main_v22) (funext fun a => Fin.ext ?_)
  match a with
  | ⟨0, _⟩ => show win3_2.index t (0 : Fin 2) * 1152 + 1 * r.val = r.val; rw [w0]; omega
  | ⟨1, _⟩ => show win3_2.index t (1 : Fin 2) * 128 + 1 * q.val = q.val; rw [w1]; omega

/-- The bias window's block at every point is the whole bias row. -/
private theorem bias_block (c : Dev nD) (t : Fin cfg3.N) (q : Fin 128) :
    iblk3 V c 3 t (ix2 (0 : Fin 1) q) = V c main_v23 (ix2 (0 : Fin 1) q) := by
  obtain ⟨-, -, -, -, -, -, -, -, -, -, b0, b1⟩ := index_facts t
  show V c main_v23 (((cfg3.win 3).blk t).view.emb (ix2 (0 : Fin 1) q)) = V c main_v23 (ix2 (0 : Fin 1) q)
  refine congrArg (V c main_v23) (funext fun a => Fin.ext ?_)
  match a with
  | ⟨0, _⟩ => show win3_3.index t (0 : Fin 2) * 1 + 1 * (0 : Fin 1).val = (0 : Fin 1).val; rw [b0]; simp
  | ⟨1, _⟩ => show win3_3.index t (1 : Fin 2) * 128 + 1 * q.val = q.val; rw [b1]; omega

/-- Where the output window's block at point `t` lies in the array. -/
private theorem out_emb (t : Fin cfg3.N) (p q : Fin 128) (B : Fin 32) (r : Fin 5120)
    (hB : B.val = t.val / 40) (hr : r.val = t.val % 40 * 128 + p.val) :
    ((cfg3.win 4).blk t).view.emb (ix3 (0 : Fin 1) p q) = (ix3 B r q : S32x5120x128.Idx) := by
  obtain ⟨e0, e1, e2, -⟩ := index_facts t
  refine funext fun a => Fin.ext ?_
  match a with
  | ⟨0, _⟩ => show win3_4.index t (0 : Fin 3) * 1 + 1 * (0 : Fin 1).val = B.val; rw [e0, hB]; simp
  | ⟨1, _⟩ => show win3_4.index t (1 : Fin 3) * 128 + 1 * p.val = r.val; rw [e1, hr]; omega
  | ⟨2, _⟩ => show win3_4.index t (2 : Fin 3) * 128 + 1 * q.val = q.val; rw [e2]; omega

/-- What point `t` writes back is block `t` of the layer of the four arrays. -/
private theorem flushed_eq (c : Dev nD) (t : Fin cfg3.N) :
    (dat3 (F := Ideal) V c).flushed 4 t
      = ((cfg3.win 4).blk t).view.read (Elt Ideal)
          (KSpec.layer3 (V c main_v20) (V c main_v25) (V c main_v22) (V c main_v23)) := by
  show (cfg3.win 4).cut (grid3.coords t) ((dat3 V c).after 4 t) = _
  rw [after3_4]
  have hN : cfg3.N = 1280 := rfl
  have ht : t.val < 1280 := t.isLt
  funext y
  obtain ⟨u, p, q, rfl⟩ : ∃ (u : Fin 1) (p : Fin 128) (q : Fin 128), y = ix3 u p q := ⟨y 0, y 1, y 2, eq_ix3 y⟩
  obtain rfl : u = 0 := Subsingleton.elim _ _
  rw [View.read_apply, out_emb t p q ⟨t.val / 40, by omega⟩ ⟨t.val % 40 * 128 + p.val, by omega⟩ rfl rfl]
  show out3_4 (iblk3 V c 0 t) (iblk3 V c 1 t) (iblk3 V c 2 t) (iblk3 V c 3 t) (ix3 (0 : Fin 1) p q) = _
  rw [out_apply]
  exact selVal_congr (fun j k => table_block V c t j k _ rfl) (fun l => words_block V c t p l _ rfl)
    (fun l k => weights_block V c t _ q) (bias_block V c t q)

/-- An index of the array is in point `t`'s block iff each coordinate is in the block's range on its axis. -/
private theorem mem_block (t : Fin cfg3.N) (i : S32x5120x128.Idx) :
    i ∈ ((cfg3.win 4).blk t).view.set ↔ ∀ a : Fin 3, win3_4.index t a * S1x128x128.size a ≤ (i a).val
      ∧ (i a).val < win3_4.index t a * S1x128x128.size a + S1x128x128.size a := by
  show i ∈ ((View.whole main_v26).slice (win3_4.rect t)).set ↔ _
  rw [View.set_slice_whole, Rect.mem_set_unit]
  exact Iff.rfl

/-- Every index of the array lies in the block of the point of its batch entry and its row block. -/
private theorem cover (i : S32x5120x128.Idx) :
    ∃ t : Fin cfg3.N, (cfg3.win 4).flush t = true ∧ i ∈ ((cfg3.win 4).blk t).view.set := by
  have h0 : (i 0).val < 32 := (i 0).isLt
  have h1 : (i 1).val < 5120 := (i 1).isLt
  have h2 : (i 2).val < 128 := (i 2).isLt
  have hN : cfg3.N = 1280 := rfl
  obtain ⟨t, ht⟩ : ∃ t : Fin cfg3.N, t.val = (i 0).val * 40 + (i 1).val / 128 :=
    ⟨⟨(i 0).val * 40 + (i 1).val / 128, by omega⟩, rfl⟩
  obtain ⟨e0, e1, e2, -⟩ := index_facts t
  refine ⟨t, flush3_4 t, ?_⟩
  rw [mem_block]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 128 ≤ (i 1).val ∧ (i 1).val < win3_4.index t (1 : Fin 3) * 128 + 128; omega
  | ⟨2, _⟩ => show win3_4.index t (2 : Fin 3) * 128 ≤ (i 2).val ∧ (i 2).val < win3_4.index t (2 : Fin 3) * 128 + 128; omega

/-- After the call's grid its output array is the layer of the four arrays the call found. -/
theorem arr (c : Dev nD) :
    (dat3 (F := Ideal) V c).arrAt 4 cfg3.N = KSpec.layer3 (V c main_v20) (V c main_v25) (V c main_v22) (V c main_v23) :=
  (dat3 (F := Ideal) V c).arrAt_eq_of_cover 4 (KSpec.layer3 (V c main_v20) (V c main_v25) (V c main_v22) (V c main_v23))
    (fun t _ => flushed_eq V c t) cover

end Cert.KernelIdeal.Layer3

end
-- ==== Proof.Layer4.lean ====
/-
  The last pallas_call: each grid point multiplies its block of 128 feature rows by the whole weight matrix and adds
  the bias row, and the blocks tile the output array, so the array ends holding one affine map of the feature rows.
-/
import proofs.«419524_j12970801234173_1_alg».proof.Proof.Gen.KernelIdeal.Frame
import proofs.«419524_j12970801234173_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer4

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The affine map of the feature rows the last call computes, entry by entry. -/
def linear (h : S32x5120x128.Idx → EReal) (w : S128x256.Idx → EReal) (b : S1x256.Idx → EReal) : S32x5120x256.Idx → EReal :=
  fun i => (∑ k : Fin 128, h (ix3 (i 0) (i 1) k) * w (ix2 k (i 2))) + b (ix2 (0 : Fin 1) (i 2))

/-- The zero offset of a rank-3 access, as a constant function. -/
private theorem zero3 : (![0, 0, 0] : Fin 3 → Nat) = fun _ => 0 := funext fun a => by fin_cases a <;> rfl

/-- The zero offset of a rank-2 access, as a constant function. -/
private theorem zero2 : (![0, 0] : Fin 2 → Nat) = fun _ => 0 := funext fun a => by fin_cases a <;> rfl

/-- What one grid point leaves in its output block, entry by entry: row `p` of the feature block against column `q` of
    the weight, plus entry `q` of the bias row. -/
private theorem block_apply (x0 : Vec Ideal S1x128x128 .bf16) (x1 : Vec Ideal S128x256 .bf16) (x2 : Vec Ideal S1x256 .f32)
    (p : Fin 128) (q : Fin 256) :
    out4_3 x0 x1 x2 (ix3 (0 : Fin 1) p q)
      = (∑ k : Fin 128, x0 (ix3 (0 : Fin 1) p k) * x1 (ix2 k q)) + x2 (ix2 (0 : Fin 1) q) := by
  unfold out4_3
  rw [View.canon_unit_zero zero3]
  simp only [View.ld_unit_zero (S := S1x128x128) zero3, View.ld_unit_zero (S := S128x256) zero2,
    View.ld_unit_zero (S := S1x256) zero2]
  unfold k4_pay1
  rw [shapeCast_ab_1ab_apply, addf_apply, broadcastTo_1b_ab_apply, shapeCast_a_1a_apply, shapeCast_1a_a_apply, shapeCast_self]
  unfold Idealize.ShloMosaic.matmul
  rw [Cert.Lib.matmul_plain_apply dot_S128x128_S128x256_S128x256_1_0_0_1_n_n rfl rfl rfl rfl rfl rfl]
  simp only [shapeCast_1ab_ab_apply]

variable (V : (c : Dev nD) → (b : Ref sig .tc) → Buf (Elt Ideal) ((c : Thread nD τ).loc b))

/-- The index maps over the grid: point `t` is batch `t / 40`, row block `t % 40`; the feature window moves with the
    output window, the weight and the bias stay at their one block. -/
private theorem index_facts : ∀ t : Fin cfg4.N,
    win4_3.index t (0 : Fin 3) = t.val / 40 ∧ win4_3.index t (1 : Fin 3) = t.val % 40 ∧ win4_3.index t (2 : Fin 3) = 0
    ∧ win4_0.index t (0 : Fin 3) = t.val / 40 ∧ win4_0.index t (1 : Fin 3) = t.val % 40 ∧ win4_0.index t (2 : Fin 3) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The feature window's block at point `t` holds rows `128 (t % 40) + p` of batch `t / 40`. -/
private theorem feature_block (c : Dev nD) (t : Fin cfg4.N) (p k : Fin 128) (B : Fin 32) (r : Fin 5120)
    (hB : B.val = t.val / 40) (hr : r.val = t.val % 40 * 128 + p.val) :
    iblk4 V c 0 t (ix3 (0 : Fin 1) p k) = V c main_v26 (ix3 B r k) := by
  obtain ⟨-, -, -, f0, f1, f2, -⟩ := index_facts t
  show V c main_v26 (((cfg4.win 0).blk t).view.emb (ix3 (0 : Fin 1) p k)) = V c main_v26 (ix3 B r k)
  refine congrArg (V c main_v26) (funext fun a => Fin.ext ?_)
  match a with
  | ⟨0, _⟩ => show win4_0.index t (0 : Fin 3) * 1 + 1 * (0 : Fin 1).val = B.val; rw [f0, hB]; simp
  | ⟨1, _⟩ => show win4_0.index t (1 : Fin 3) * 128 + 1 * p.val = r.val; rw [f1, hr]; omega
  | ⟨2, _⟩ => show win4_0.index t (2 : Fin 3) * 128 + 1 * k.val = k.val; rw [f2]; omega

/-- The weight window's block at every point is the whole weight. -/
private theorem weight_block (c : Dev nD) (t : Fin cfg4.N) (k : Fin 128) (q : Fin 256) :
    iblk4 V c 1 t (ix2 k q) = V c main_v28 (ix2 k q) := by
  obtain ⟨-, -, -, -, -, -, g0, g1, -⟩ := index_facts t
  show V c main_v28 (((cfg4.win 1).blk t).view.emb (ix2 k q)) = V c main_v28 (ix2 k q)
  refine congrArg (V c main_v28) (funext fun a => Fin.ext ?_)
  match a with
  | ⟨0, _⟩ => show win4_1.index t (0 : Fin 2) * 128 + 1 * k.val = k.val; rw [g0]; omega
  | ⟨1, _⟩ => show win4_1.index t (1 : Fin 2) * 256 + 1 * q.val = q.val; rw [g1]; omega

/-- The bias window's block at every point is the whole bias row. -/
private theorem bias_block (c : Dev nD) (t : Fin cfg4.N) (q : Fin 256) :
    iblk4 V c 2 t (ix2 (0 : Fin 1) q) = V c main_v29 (ix2 (0 : Fin 1) q) := by
  obtain ⟨-, -, -, -, -, -, -, -, b0, b1⟩ := index_facts t
  show V c main_v29 (((cfg4.win 2).blk t).view.emb (ix2 (0 : Fin 1) q)) = V c main_v29 (ix2 (0 : Fin 1) q)
  refine congrArg (V c main_v29) (funext fun a => Fin.ext ?_)
  match a with
  | ⟨0, _⟩ => show win4_2.index t (0 : Fin 2) * 1 + 1 * (0 : Fin 1).val = (0 : Fin 1).val; rw [b0]; simp
  | ⟨1, _⟩ => show win4_2.index t (1 : Fin 2) * 256 + 1 * q.val = q.val; rw [b1]; omega

/-- Where the output window's block at point `t` lies in the array. -/
private theorem out_emb (t : Fin cfg4.N) (p : Fin 128) (q : Fin 256) (B : Fin 32) (r : Fin 5120)
    (hB : B.val = t.val / 40) (hr : r.val = t.val % 40 * 128 + p.val) :
    ((cfg4.win 3).blk t).view.emb (ix3 (0 : Fin 1) p q) = (ix3 B r q : S32x5120x256.Idx) := by
  obtain ⟨e0, e1, e2, -⟩ := index_facts t
  refine funext fun a => Fin.ext ?_
  match a with
  | ⟨0, _⟩ => show win4_3.index t (0 : Fin 3) * 1 + 1 * (0 : Fin 1).val = B.val; rw [e0, hB]; simp
  | ⟨1, _⟩ => show win4_3.index t (1 : Fin 3) * 128 + 1 * p.val = r.val; rw [e1, hr]; omega
  | ⟨2, _⟩ => show win4_3.index t (2 : Fin 3) * 256 + 1 * q.val = q.val; rw [e2]; omega

/-- What point `t` writes back is block `t` of the affine map of the three arrays. -/
private theorem flushed_eq (c : Dev nD) (t : Fin cfg4.N) :
    (dat4 (F := Ideal) V c).flushed 3 t
      = ((cfg4.win 3).blk t).view.read (Elt Ideal) (linear (V c main_v26) (V c main_v28) (V c main_v29)) := by
  show (cfg4.win 3).cut (grid4.coords t) ((dat4 V c).after 3 t) = _
  rw [after4_3]
  have hN : cfg4.N = 1280 := rfl
  have ht : t.val < 1280 := t.isLt
  funext y
  obtain ⟨u, p, q, rfl⟩ : ∃ (u : Fin 1) (p : Fin 128) (q : Fin 256), y = ix3 u p q := ⟨y 0, y 1, y 2, eq_ix3 y⟩
  obtain rfl : u = 0 := Subsingleton.elim _ _
  rw [View.read_apply, out_emb t p q ⟨t.val / 40, by omega⟩ ⟨t.val % 40 * 128 + p.val, by omega⟩ rfl rfl]
  show out4_3 (iblk4 V c 0 t) (iblk4 V c 1 t) (iblk4 V c 2 t) (ix3 (0 : Fin 1) p q) = _
  rw [block_apply]
  exact congrArg₂ (· + ·)
    (Finset.sum_congr rfl fun k _ => congrArg₂ (· * ·) (feature_block V c t p k _ _ rfl rfl) (weight_block V c t k q))
    (bias_block V c t q)

/-- An index of the array is in point `t`'s block iff each coordinate is in the block's range on its axis. -/
private theorem mem_block (t : Fin cfg4.N) (i : S32x5120x256.Idx) :
    i ∈ ((cfg4.win 3).blk t).view.set ↔ ∀ a : Fin 3, win4_3.index t a * S1x128x256.size a ≤ (i a).val
      ∧ (i a).val < win4_3.index t a * S1x128x256.size a + S1x128x256.size a := by
  show i ∈ ((View.whole main_v30).slice (win4_3.rect t)).set ↔ _
  rw [View.set_slice_whole, Rect.mem_set_unit]
  exact Iff.rfl

/-- Every index of the array lies in the block of the point of its batch and its row block. -/
private theorem cover (i : S32x5120x256.Idx) :
    ∃ t : Fin cfg4.N, (cfg4.win 3).flush t = true ∧ i ∈ ((cfg4.win 3).blk t).view.set := by
  have h0 : (i 0).val < 32 := (i 0).isLt
  have h1 : (i 1).val < 5120 := (i 1).isLt
  have h2 : (i 2).val < 256 := (i 2).isLt
  have hN : cfg4.N = 1280 := rfl
  obtain ⟨t, ht⟩ : ∃ t : Fin cfg4.N, t.val = (i 0).val * 40 + (i 1).val / 128 := ⟨⟨(i 0).val * 40 + (i 1).val / 128, by omega⟩, rfl⟩
  obtain ⟨e0, e1, e2, -⟩ := index_facts t
  refine ⟨t, flush4_3 t, ?_⟩
  rw [mem_block]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 128 ≤ (i 1).val ∧ (i 1).val < win4_3.index t (1 : Fin 3) * 128 + 128; omega
  | ⟨2, _⟩ => show win4_3.index t (2 : Fin 3) * 256 ≤ (i 2).val ∧ (i 2).val < win4_3.index t (2 : Fin 3) * 256 + 256; omega

/-- After the last call's grid, its output array is `linear` of its three input arrays as the call found them. -/
theorem arr (c : Dev nD) :
    (dat4 (F := Ideal) V c).arrAt 3 cfg4.N = linear (V c main_v26) (V c main_v28) (V c main_v29) :=
  (dat4 (F := Ideal) V c).arrAt_eq_of_cover 3 (linear (V c main_v26) (V c main_v28) (V c main_v29))
    (fun t _ => flushed_eq V c t) cover

end Cert.KernelIdeal.Layer4

end
-- ==== Proof.HostFold.lean ====
/-
  The kernel program's result array, read back through the whole program: the contents of its buffer at the last
  boundary are the last cut of the last call's affine map of the four spiral layers, each layer applied to the layer
  before it, over the padded and transposed operands the host operations prepare from the program's arguments.
-/
import proofs.«419524_j12970801234173_1_alg».proof.Proof.Gen.KernelIdeal.Frame
import proofs.«419524_j12970801234173_1_alg».proof.Proof.KSpec
import proofs.«419524_j12970801234173_1_alg».proof.Proof.KPrep
import proofs.«419524_j12970801234173_1_alg».proof.Proof.Layer0
import proofs.«419524_j12970801234173_1_alg».proof.Proof.Layer1
import proofs.«419524_j12970801234173_1_alg».proof.Proof.Layer2
import proofs.«419524_j12970801234173_1_alg».proof.Proof.Layer3
import proofs.«419524_j12970801234173_1_alg».proof.Proof.Layer4
import Idealize.ShloMosaic.Lib.StableHlo.Run

set_option maxRecDepth 16384

noncomputable section

namespace Cert.KernelIdeal.HostFold

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- Argument `k` of the program as launched on core `c`. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)
abbrev X6 (c : Dev nD) := m ((c : Thread nD τ).loc main_arg6)
abbrev X7 (c : Dev nD) := m ((c : Thread nD τ).loc main_arg7)
abbrev X8 (c : Dev nD) := m ((c : Thread nD τ).loc main_arg8)
abbrev X9 (c : Dev nD) := m ((c : Thread nD τ).loc main_arg9)
abbrev X10 (c : Dev nD) := m ((c : Thread nD τ).loc main_arg10)
abbrev X11 (c : Dev nD) := m ((c : Thread nD τ).loc main_arg11)

/-! ## Before the first call -/

theorem main_v2_at5 (c : Dev nD) : W5 m ρ c (Proc.devRef .tc main_v2) = KPrep.xpad (X0 m c) := by
  dsimp only [W15, W13, W11, W9, W7, W5, W4, W3, W2, W1, hostOps0, hostOps0_1, hostOps0_2, hostOps0_3, hostOps0_4, hostOps1, hostOps2, hostOps3, hostOps4, hostOps5]
  after_results
  rfl

theorem v1_at5 (c : Dev nD) : W5 m ρ c (Proc.devRef .tc main_v1) = KPrep.ipad (X1 m c) := by
  dsimp only [W15, W13, W11, W9, W7, W5, W4, W3, W2, W1, hostOps0, hostOps0_1, hostOps0_2, hostOps0_3, hostOps0_4, hostOps1, hostOps2, hostOps3, hostOps4, hostOps5]
  after_results
  rfl

theorem main_v7_at5 (c : Dev nD) : W5 m ρ c (Proc.devRef .tc main_v7) = KPrep.itab0 (X1 m c) := by
  dsimp only [W15, W13, W11, W9, W7, W5, W4, W3, W2, W1, hostOps0, hostOps0_1, hostOps0_2, hostOps0_3, hostOps0_4, hostOps1, hostOps2, hostOps3, hostOps4, hostOps5]
  after_results
  rfl

theorem main_v4_at5 (c : Dev nD) : W5 m ρ c (Proc.devRef .tc main_v4) = KPrep.wt0 (X2 m c) := by
  dsimp only [W15, W13, W11, W9, W7, W5, W4, W3, W2, W1, hostOps0, hostOps0_1, hostOps0_2, hostOps0_3, hostOps0_4, hostOps1, hostOps2, hostOps3, hostOps4, hostOps5]
  after_results
  rfl

theorem main_v5_at5 (c : Dev nD) : W5 m ρ c (Proc.devRef .tc main_v5) = KPrep.bias0 (X3 m c) := by
  dsimp only [W15, W13, W11, W9, W7, W5, W4, W3, W2, W1, hostOps0, hostOps0_1, hostOps0_2, hostOps0_3, hostOps0_4, hostOps1, hostOps2, hostOps3, hostOps4, hostOps5]
  after_results
  rfl

theorem arg4_at5 (c : Dev nD) : W5 m ρ c (Proc.devRef .tc main_arg4) = X4 m c := by
  dsimp only [W15, W13, W11, W9, W7, W5, W4, W3, W2, W1, hostOps0, hostOps0_1, hostOps0_2, hostOps0_3, hostOps0_4, hostOps1, hostOps2, hostOps3, hostOps4, hostOps5]
  after_results

theorem arg5_at5 (c : Dev nD) : W5 m ρ c (Proc.devRef .tc main_arg5) = X5 m c := by
  dsimp only [W15, W13, W11, W9, W7, W5, W4, W3, W2, W1, hostOps0, hostOps0_1, hostOps0_2, hostOps0_3, hostOps0_4, hostOps1, hostOps2, hostOps3, hostOps4, hostOps5]
  after_results

theorem arg6_at5 (c : Dev nD) : W5 m ρ c (Proc.devRef .tc main_arg6) = X6 m c := by
  dsimp only [W15, W13, W11, W9, W7, W5, W4, W3, W2, W1, hostOps0, hostOps0_1, hostOps0_2, hostOps0_3, hostOps0_4, hostOps1, hostOps2, hostOps3, hostOps4, hostOps5]
  after_results

theorem arg7_at5 (c : Dev nD) : W5 m ρ c (Proc.devRef .tc main_arg7) = X7 m c := by
  dsimp only [W15, W13, W11, W9, W7, W5, W4, W3, W2, W1, hostOps0, hostOps0_1, hostOps0_2, hostOps0_3, hostOps0_4, hostOps1, hostOps2, hostOps3, hostOps4, hostOps5]
  after_results

theorem arg8_at5 (c : Dev nD) : W5 m ρ c (Proc.devRef .tc main_arg8) = X8 m c := by
  dsimp only [W15, W13, W11, W9, W7, W5, W4, W3, W2, W1, hostOps0, hostOps0_1, hostOps0_2, hostOps0_3, hostOps0_4, hostOps1, hostOps2, hostOps3, hostOps4, hostOps5]
  after_results

theorem arg9_at5 (c : Dev nD) : W5 m ρ c (Proc.devRef .tc main_arg9) = X9 m c := by
  dsimp only [W15, W13, W11, W9, W7, W5, W4, W3, W2, W1, hostOps0, hostOps0_1, hostOps0_2, hostOps0_3, hostOps0_4, hostOps1, hostOps2, hostOps3, hostOps4, hostOps5]
  after_results

theorem arg10_at5 (c : Dev nD) : W5 m ρ c (Proc.devRef .tc main_arg10) = X10 m c := by
  dsimp only [W15, W13, W11, W9, W7, W5, W4, W3, W2, W1, hostOps0, hostOps0_1, hostOps0_2, hostOps0_3, hostOps0_4, hostOps1, hostOps2, hostOps3, hostOps4, hostOps5]
  after_results

theorem arg11_at5 (c : Dev nD) : W5 m ρ c (Proc.devRef .tc main_arg11) = X11 m c := by
  dsimp only [W15, W13, W11, W9, W7, W5, W4, W3, W2, W1, hostOps0, hostOps0_1, hostOps0_2, hostOps0_3, hostOps0_4, hostOps1, hostOps2, hostOps3, hostOps4, hostOps5]
  after_results

/-! ## Call 0 and the host operations after it -/

theorem main_v8_at6 (c : Dev nD) : W6 m ρ c (Proc.devRef .tc main_v8) = KSpec.layer0 (KPrep.xpad (X0 m c)) (KPrep.itab0 (X1 m c)) (KPrep.wt0 (X2 m c)) (KPrep.bias0 (X3 m c)) := by
  refine (W6_arr m ρ c 4).trans ?_
  rw [Layer0.arr (V5 m ρ) c]
  show KSpec.layer0 (W5 m ρ c (Proc.devRef .tc main_v2)) (W5 m ρ c (Proc.devRef .tc main_v7))
    (W5 m ρ c (Proc.devRef .tc main_v4)) (W5 m ρ c (Proc.devRef .tc main_v5)) = _
  rw [main_v2_at5, main_v7_at5, main_v4_at5, main_v5_at5]

theorem v1_at6 (c : Dev nD) : W6 m ρ c (Proc.devRef .tc main_v1) = KPrep.ipad (X1 m c) :=
  (W6_of_ne m ρ c main_v1 (by decide)).trans (v1_at5 m ρ c)

theorem arg4_at6 (c : Dev nD) : W6 m ρ c (Proc.devRef .tc main_arg4) = X4 m c :=
  (W6_of_ne m ρ c main_arg4 (by decide)).trans (arg4_at5 m ρ c)

theorem arg5_at6 (c : Dev nD) : W6 m ρ c (Proc.devRef .tc main_arg5) = X5 m c :=
  (W6_of_ne m ρ c main_arg5 (by decide)).trans (arg5_at5 m ρ c)

theorem arg6_at6 (c : Dev nD) : W6 m ρ c (Proc.devRef .tc main_arg6) = X6 m c :=
  (W6_of_ne m ρ c main_arg6 (by decide)).trans (arg6_at5 m ρ c)

theorem arg7_at6 (c : Dev nD) : W6 m ρ c (Proc.devRef .tc main_arg7) = X7 m c :=
  (W6_of_ne m ρ c main_arg7 (by decide)).trans (arg7_at5 m ρ c)

theorem arg8_at6 (c : Dev nD) : W6 m ρ c (Proc.devRef .tc main_arg8) = X8 m c :=
  (W6_of_ne m ρ c main_arg8 (by decide)).trans (arg8_at5 m ρ c)

theorem arg9_at6 (c : Dev nD) : W6 m ρ c (Proc.devRef .tc main_arg9) = X9 m c :=
  (W6_of_ne m ρ c main_arg9 (by decide)).trans (arg9_at5 m ρ c)

theorem arg10_at6 (c : Dev nD) : W6 m ρ c (Proc.devRef .tc main_arg10) = X10 m c :=
  (W6_of_ne m ρ c main_arg10 (by decide)).trans (arg10_at5 m ρ c)

theorem arg11_at6 (c : Dev nD) : W6 m ρ c (Proc.devRef .tc main_arg11) = X11 m c :=
  (W6_of_ne m ρ c main_arg11 (by decide)).trans (arg11_at5 m ρ c)

theorem main_v8_at7 (c : Dev nD) : W7 m ρ c (Proc.devRef .tc main_v8) = KSpec.layer0 (KPrep.xpad (X0 m c)) (KPrep.itab0 (X1 m c)) (KPrep.wt0 (X2 m c)) (KPrep.bias0 (X3 m c)) := by
  dsimp only [W15, W13, W11, W9, W7, W5, W4, W3, W2, W1, hostOps0, hostOps0_1, hostOps0_2, hostOps0_3, hostOps0_4, hostOps1, hostOps2, hostOps3, hostOps4, hostOps5]
  after_results
  exact main_v8_at6 m ρ c

theorem v1_at7 (c : Dev nD) : W7 m ρ c (Proc.devRef .tc main_v1) = KPrep.ipad (X1 m c) := by
  dsimp only [W15, W13, W11, W9, W7, W5, W4, W3, W2, W1, hostOps0, hostOps0_1, hostOps0_2, hostOps0_3, hostOps0_4, hostOps1, hostOps2, hostOps3, hostOps4, hostOps5]
  after_results
  exact v1_at6 m ρ c

theorem main_v13_at7 (c : Dev nD) : W7 m ρ c (Proc.devRef .tc main_v13) = KPrep.itab1 (X1 m c) := by
  dsimp only [W15, W13, W11, W9, W7, W5, W4, W3, W2, W1, hostOps0, hostOps0_1, hostOps0_2, hostOps0_3, hostOps0_4, hostOps1, hostOps2, hostOps3, hostOps4, hostOps5]
  after_results
  rw [v1_at6]
  rfl

theorem main_v10_at7 (c : Dev nD) : W7 m ρ c (Proc.devRef .tc main_v10) = KPrep.wt1 (X4 m c) := by
  dsimp only [W15, W13, W11, W9, W7, W5, W4, W3, W2, W1, hostOps0, hostOps0_1, hostOps0_2, hostOps0_3, hostOps0_4, hostOps1, hostOps2, hostOps3, hostOps4, hostOps5]
  after_results
  rw [arg4_at6]
  rfl

theorem main_v11_at7 (c : Dev nD) : W7 m ρ c (Proc.devRef .tc main_v11) = KPrep.bias1 (X5 m c) := by
  dsimp only [W15, W13, W11, W9, W7, W5, W4, W3, W2, W1, hostOps0, hostOps0_1, hostOps0_2, hostOps0_3, hostOps0_4, hostOps1, hostOps2, hostOps3, hostOps4, hostOps5]
  after_results
  rw [arg5_at6]
  rfl

theorem arg6_at7 (c : Dev nD) : W7 m ρ c (Proc.devRef .tc main_arg6) = X6 m c := by
  dsimp only [W15, W13, W11, W9, W7, W5, W4, W3, W2, W1, hostOps0, hostOps0_1, hostOps0_2, hostOps0_3, hostOps0_4, hostOps1, hostOps2, hostOps3, hostOps4, hostOps5]
  after_results
  exact arg6_at6 m ρ c

theorem arg7_at7 (c : Dev nD) : W7 m ρ c (Proc.devRef .tc main_arg7) = X7 m c := by
  dsimp only [W15, W13, W11, W9, W7, W5, W4, W3, W2, W1, hostOps0, hostOps0_1, hostOps0_2, hostOps0_3, hostOps0_4, hostOps1, hostOps2, hostOps3, hostOps4, hostOps5]
  after_results
  exact arg7_at6 m ρ c

theorem arg8_at7 (c : Dev nD) : W7 m ρ c (Proc.devRef .tc main_arg8) = X8 m c := by
  dsimp only [W15, W13, W11, W9, W7, W5, W4, W3, W2, W1, hostOps0, hostOps0_1, hostOps0_2, hostOps0_3, hostOps0_4, hostOps1, hostOps2, hostOps3, hostOps4, hostOps5]
  after_results
  exact arg8_at6 m ρ c

theorem arg9_at7 (c : Dev nD) : W7 m ρ c (Proc.devRef .tc main_arg9) = X9 m c := by
  dsimp only [W15, W13, W11, W9, W7, W5, W4, W3, W2, W1, hostOps0, hostOps0_1, hostOps0_2, hostOps0_3, hostOps0_4, hostOps1, hostOps2, hostOps3, hostOps4, hostOps5]
  after_results
  exact arg9_at6 m ρ c

theorem arg10_at7 (c : Dev nD) : W7 m ρ c (Proc.devRef .tc main_arg10) = X10 m c := by
  dsimp only [W15, W13, W11, W9, W7, W5, W4, W3, W2, W1, hostOps0, hostOps0_1, hostOps0_2, hostOps0_3, hostOps0_4, hostOps1, hostOps2, hostOps3, hostOps4, hostOps5]
  after_results
  exact arg10_at6 m ρ c

theorem arg11_at7 (c : Dev nD) : W7 m ρ c (Proc.devRef .tc main_arg11) = X11 m c := by
  dsimp only [W15, W13, W11, W9, W7, W5, W4, W3, W2, W1, hostOps0, hostOps0_1, hostOps0_2, hostOps0_3, hostOps0_4, hostOps1, hostOps2, hostOps3, hostOps4, hostOps5]
  after_results
  exact arg11_at6 m ρ c

/-! ## Call 1 and the host operations after it -/

theorem main_v14_at8 (c : Dev nD) : W8 m ρ c (Proc.devRef .tc main_v14) = KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c)) := by
  refine (W8_arr m ρ c 4).trans ?_
  rw [Layer1.arr (V7 m ρ) c]
  show KSpec.layer1 (W7 m ρ c (Proc.devRef .tc main_v8)) (W7 m ρ c (Proc.devRef .tc main_v13))
    (W7 m ρ c (Proc.devRef .tc main_v10)) (W7 m ρ c (Proc.devRef .tc main_v11)) = _
  rw [main_v8_at7, main_v13_at7, main_v10_at7, main_v11_at7]

theorem v1_at8 (c : Dev nD) : W8 m ρ c (Proc.devRef .tc main_v1) = KPrep.ipad (X1 m c) :=
  (W8_of_ne m ρ c main_v1 (by decide)).trans (v1_at7 m ρ c)

theorem arg6_at8 (c : Dev nD) : W8 m ρ c (Proc.devRef .tc main_arg6) = X6 m c :=
  (W8_of_ne m ρ c main_arg6 (by decide)).trans (arg6_at7 m ρ c)

theorem arg7_at8 (c : Dev nD) : W8 m ρ c (Proc.devRef .tc main_arg7) = X7 m c :=
  (W8_of_ne m ρ c main_arg7 (by decide)).trans (arg7_at7 m ρ c)

theorem arg8_at8 (c : Dev nD) : W8 m ρ c (Proc.devRef .tc main_arg8) = X8 m c :=
  (W8_of_ne m ρ c main_arg8 (by decide)).trans (arg8_at7 m ρ c)

theorem arg9_at8 (c : Dev nD) : W8 m ρ c (Proc.devRef .tc main_arg9) = X9 m c :=
  (W8_of_ne m ρ c main_arg9 (by decide)).trans (arg9_at7 m ρ c)

theorem arg10_at8 (c : Dev nD) : W8 m ρ c (Proc.devRef .tc main_arg10) = X10 m c :=
  (W8_of_ne m ρ c main_arg10 (by decide)).trans (arg10_at7 m ρ c)

theorem arg11_at8 (c : Dev nD) : W8 m ρ c (Proc.devRef .tc main_arg11) = X11 m c :=
  (W8_of_ne m ρ c main_arg11 (by decide)).trans (arg11_at7 m ρ c)

theorem main_v14_at9 (c : Dev nD) : W9 m ρ c (Proc.devRef .tc main_v14) = KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c)) := by
  dsimp only [W15, W13, W11, W9, W7, W5, W4, W3, W2, W1, hostOps0, hostOps0_1, hostOps0_2, hostOps0_3, hostOps0_4, hostOps1, hostOps2, hostOps3, hostOps4, hostOps5]
  after_results
  exact main_v14_at8 m ρ c

theorem v1_at9 (c : Dev nD) : W9 m ρ c (Proc.devRef .tc main_v1) = KPrep.ipad (X1 m c) := by
  dsimp only [W15, W13, W11, W9, W7, W5, W4, W3, W2, W1, hostOps0, hostOps0_1, hostOps0_2, hostOps0_3, hostOps0_4, hostOps1, hostOps2, hostOps3, hostOps4, hostOps5]
  after_results
  exact v1_at8 m ρ c

theorem main_v19_at9 (c : Dev nD) : W9 m ρ c (Proc.devRef .tc main_v19) = KPrep.itab2 (X1 m c) := by
  dsimp only [W15, W13, W11, W9, W7, W5, W4, W3, W2, W1, hostOps0, hostOps0_1, hostOps0_2, hostOps0_3, hostOps0_4, hostOps1, hostOps2, hostOps3, hostOps4, hostOps5]
  after_results
  rw [v1_at8]
  rfl

theorem main_v16_at9 (c : Dev nD) : W9 m ρ c (Proc.devRef .tc main_v16) = KPrep.wt2 (X6 m c) := by
  dsimp only [W15, W13, W11, W9, W7, W5, W4, W3, W2, W1, hostOps0, hostOps0_1, hostOps0_2, hostOps0_3, hostOps0_4, hostOps1, hostOps2, hostOps3, hostOps4, hostOps5]
  after_results
  rw [arg6_at8]
  rfl

theorem main_v17_at9 (c : Dev nD) : W9 m ρ c (Proc.devRef .tc main_v17) = KPrep.bias2 (X7 m c) := by
  dsimp only [W15, W13, W11, W9, W7, W5, W4, W3, W2, W1, hostOps0, hostOps0_1, hostOps0_2, hostOps0_3, hostOps0_4, hostOps1, hostOps2, hostOps3, hostOps4, hostOps5]
  after_results
  rw [arg7_at8]
  rfl

theorem arg8_at9 (c : Dev nD) : W9 m ρ c (Proc.devRef .tc main_arg8) = X8 m c := by
  dsimp only [W15, W13, W11, W9, W7, W5, W4, W3, W2, W1, hostOps0, hostOps0_1, hostOps0_2, hostOps0_3, hostOps0_4, hostOps1, hostOps2, hostOps3, hostOps4, hostOps5]
  after_results
  exact arg8_at8 m ρ c

theorem arg9_at9 (c : Dev nD) : W9 m ρ c (Proc.devRef .tc main_arg9) = X9 m c := by
  dsimp only [W15, W13, W11, W9, W7, W5, W4, W3, W2, W1, hostOps0, hostOps0_1, hostOps0_2, hostOps0_3, hostOps0_4, hostOps1, hostOps2, hostOps3, hostOps4, hostOps5]
  after_results
  exact arg9_at8 m ρ c

theorem arg10_at9 (c : Dev nD) : W9 m ρ c (Proc.devRef .tc main_arg10) = X10 m c := by
  dsimp only [W15, W13, W11, W9, W7, W5, W4, W3, W2, W1, hostOps0, hostOps0_1, hostOps0_2, hostOps0_3, hostOps0_4, hostOps1, hostOps2, hostOps3, hostOps4, hostOps5]
  after_results
  exact arg10_at8 m ρ c

theorem arg11_at9 (c : Dev nD) : W9 m ρ c (Proc.devRef .tc main_arg11) = X11 m c := by
  dsimp only [W15, W13, W11, W9, W7, W5, W4, W3, W2, W1, hostOps0, hostOps0_1, hostOps0_2, hostOps0_3, hostOps0_4, hostOps1, hostOps2, hostOps3, hostOps4, hostOps5]
  after_results
  exact arg11_at8 m ρ c

/-! ## Call 2 and the host operations after it -/

theorem main_v20_at10 (c : Dev nD) : W10 m ρ c (Proc.devRef .tc main_v20) = KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c)) := by
  refine (W10_arr m ρ c 4).trans ?_
  rw [Layer2.arr (V9 m ρ) c]
  show KSpec.layer2 (W9 m ρ c (Proc.devRef .tc main_v14)) (W9 m ρ c (Proc.devRef .tc main_v19))
    (W9 m ρ c (Proc.devRef .tc main_v16)) (W9 m ρ c (Proc.devRef .tc main_v17)) = _
  rw [main_v14_at9, main_v19_at9, main_v16_at9, main_v17_at9]

theorem v1_at10 (c : Dev nD) : W10 m ρ c (Proc.devRef .tc main_v1) = KPrep.ipad (X1 m c) :=
  (W10_of_ne m ρ c main_v1 (by decide)).trans (v1_at9 m ρ c)

theorem arg8_at10 (c : Dev nD) : W10 m ρ c (Proc.devRef .tc main_arg8) = X8 m c :=
  (W10_of_ne m ρ c main_arg8 (by decide)).trans (arg8_at9 m ρ c)

theorem arg9_at10 (c : Dev nD) : W10 m ρ c (Proc.devRef .tc main_arg9) = X9 m c :=
  (W10_of_ne m ρ c main_arg9 (by decide)).trans (arg9_at9 m ρ c)

theorem arg10_at10 (c : Dev nD) : W10 m ρ c (Proc.devRef .tc main_arg10) = X10 m c :=
  (W10_of_ne m ρ c main_arg10 (by decide)).trans (arg10_at9 m ρ c)

theorem arg11_at10 (c : Dev nD) : W10 m ρ c (Proc.devRef .tc main_arg11) = X11 m c :=
  (W10_of_ne m ρ c main_arg11 (by decide)).trans (arg11_at9 m ρ c)

theorem main_v20_at11 (c : Dev nD) : W11 m ρ c (Proc.devRef .tc main_v20) = KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c)) := by
  dsimp only [W15, W13, W11, W9, W7, W5, W4, W3, W2, W1, hostOps0, hostOps0_1, hostOps0_2, hostOps0_3, hostOps0_4, hostOps1, hostOps2, hostOps3, hostOps4, hostOps5]
  after_results
  exact main_v20_at10 m ρ c

theorem v1_at11 (c : Dev nD) : W11 m ρ c (Proc.devRef .tc main_v1) = KPrep.ipad (X1 m c) := by
  dsimp only [W15, W13, W11, W9, W7, W5, W4, W3, W2, W1, hostOps0, hostOps0_1, hostOps0_2, hostOps0_3, hostOps0_4, hostOps1, hostOps2, hostOps3, hostOps4, hostOps5]
  after_results
  exact v1_at10 m ρ c

theorem main_v25_at11 (c : Dev nD) : W11 m ρ c (Proc.devRef .tc main_v25) = KPrep.itab3 (X1 m c) := by
  dsimp only [W15, W13, W11, W9, W7, W5, W4, W3, W2, W1, hostOps0, hostOps0_1, hostOps0_2, hostOps0_3, hostOps0_4, hostOps1, hostOps2, hostOps3, hostOps4, hostOps5]
  after_results
  rw [v1_at10]
  rfl

theorem main_v22_at11 (c : Dev nD) : W11 m ρ c (Proc.devRef .tc main_v22) = KPrep.wt3 (X8 m c) := by
  dsimp only [W15, W13, W11, W9, W7, W5, W4, W3, W2, W1, hostOps0, hostOps0_1, hostOps0_2, hostOps0_3, hostOps0_4, hostOps1, hostOps2, hostOps3, hostOps4, hostOps5]
  after_results
  rw [arg8_at10]
  rfl

theorem main_v23_at11 (c : Dev nD) : W11 m ρ c (Proc.devRef .tc main_v23) = KPrep.bias3 (X9 m c) := by
  dsimp only [W15, W13, W11, W9, W7, W5, W4, W3, W2, W1, hostOps0, hostOps0_1, hostOps0_2, hostOps0_3, hostOps0_4, hostOps1, hostOps2, hostOps3, hostOps4, hostOps5]
  after_results
  rw [arg9_at10]
  rfl

theorem arg10_at11 (c : Dev nD) : W11 m ρ c (Proc.devRef .tc main_arg10) = X10 m c := by
  dsimp only [W15, W13, W11, W9, W7, W5, W4, W3, W2, W1, hostOps0, hostOps0_1, hostOps0_2, hostOps0_3, hostOps0_4, hostOps1, hostOps2, hostOps3, hostOps4, hostOps5]
  after_results
  exact arg10_at10 m ρ c

theorem arg11_at11 (c : Dev nD) : W11 m ρ c (Proc.devRef .tc main_arg11) = X11 m c := by
  dsimp only [W15, W13, W11, W9, W7, W5, W4, W3, W2, W1, hostOps0, hostOps0_1, hostOps0_2, hostOps0_3, hostOps0_4, hostOps1, hostOps2, hostOps3, hostOps4, hostOps5]
  after_results
  exact arg11_at10 m ρ c

/-! ## Call 3 and the host operations after it -/

theorem main_v26_at12 (c : Dev nD) : W12 m ρ c (Proc.devRef .tc main_v26) = KSpec.layer3 (KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c))) (KPrep.itab3 (X1 m c)) (KPrep.wt3 (X8 m c)) (KPrep.bias3 (X9 m c)) := by
  refine (W12_arr m ρ c 4).trans ?_
  rw [Layer3.arr (V11 m ρ) c]
  show KSpec.layer3 (W11 m ρ c (Proc.devRef .tc main_v20)) (W11 m ρ c (Proc.devRef .tc main_v25))
    (W11 m ρ c (Proc.devRef .tc main_v22)) (W11 m ρ c (Proc.devRef .tc main_v23)) = _
  rw [main_v20_at11, main_v25_at11, main_v22_at11, main_v23_at11]

theorem v1_at12 (c : Dev nD) : W12 m ρ c (Proc.devRef .tc main_v1) = KPrep.ipad (X1 m c) :=
  (W12_of_ne m ρ c main_v1 (by decide)).trans (v1_at11 m ρ c)

theorem arg10_at12 (c : Dev nD) : W12 m ρ c (Proc.devRef .tc main_arg10) = X10 m c :=
  (W12_of_ne m ρ c main_arg10 (by decide)).trans (arg10_at11 m ρ c)

theorem arg11_at12 (c : Dev nD) : W12 m ρ c (Proc.devRef .tc main_arg11) = X11 m c :=
  (W12_of_ne m ρ c main_arg11 (by decide)).trans (arg11_at11 m ρ c)

theorem main_v26_at13 (c : Dev nD) : W13 m ρ c (Proc.devRef .tc main_v26) = KSpec.layer3 (KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c))) (KPrep.itab3 (X1 m c)) (KPrep.wt3 (X8 m c)) (KPrep.bias3 (X9 m c)) := by
  dsimp only [W15, W13, W11, W9, W7, W5, W4, W3, W2, W1, hostOps0, hostOps0_1, hostOps0_2, hostOps0_3, hostOps0_4, hostOps1, hostOps2, hostOps3, hostOps4, hostOps5]
  after_results
  exact main_v26_at12 m ρ c

theorem main_v28_at13 (c : Dev nD) : W13 m ρ c (Proc.devRef .tc main_v28) = KPrep.wtl (X10 m c) := by
  dsimp only [W15, W13, W11, W9, W7, W5, W4, W3, W2, W1, hostOps0, hostOps0_1, hostOps0_2, hostOps0_3, hostOps0_4, hostOps1, hostOps2, hostOps3, hostOps4, hostOps5]
  after_results
  rw [arg10_at12]
  rfl

theorem main_v29_at13 (c : Dev nD) : W13 m ρ c (Proc.devRef .tc main_v29) = KPrep.biasl (X11 m c) := by
  dsimp only [W15, W13, W11, W9, W7, W5, W4, W3, W2, W1, hostOps0, hostOps0_1, hostOps0_2, hostOps0_3, hostOps0_4, hostOps1, hostOps2, hostOps3, hostOps4, hostOps5]
  after_results
  rw [arg11_at12]
  rfl

/-! ## The last call and the last cut -/

theorem main_v30_at14 (c : Dev nD) : W14 m ρ c (Proc.devRef .tc main_v30) = Layer4.linear (KSpec.layer3 (KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c))) (KPrep.itab3 (X1 m c)) (KPrep.wt3 (X8 m c)) (KPrep.bias3 (X9 m c))) (KPrep.wtl (X10 m c)) (KPrep.biasl (X11 m c)) := by
  refine (W14_arr m ρ c 3).trans ?_
  rw [Layer4.arr (V13 m ρ) c]
  show Layer4.linear (W13 m ρ c (Proc.devRef .tc main_v26)) (W13 m ρ c (Proc.devRef .tc main_v28))
    (W13 m ρ c (Proc.devRef .tc main_v29)) = _
  rw [main_v26_at13, main_v28_at13, main_v29_at13]

/-- THE RESULT: the contents of the result buffer at the last boundary. -/
theorem result_eq (c : Dev nD) : W15 m ρ c (Proc.devRef .tc main_v31) = KPrep.cut (Layer4.linear (KSpec.layer3 (KSpec.layer2 (KSpec.layer1 (KSpec.layer0 (KPrep.xpad (X0 m c)) (KPrep.itab0 (X1 m c)) (KPrep.wt0 (X2 m c)) (KPrep.bias0 (X3 m c))) (KPrep.itab1 (X1 m c)) (KPrep.wt1 (X4 m c)) (KPrep.bias1 (X5 m c))) (KPrep.itab2 (X1 m c)) (KPrep.wt2 (X6 m c)) (KPrep.bias2 (X7 m c))) (KPrep.itab3 (X1 m c)) (KPrep.wt3 (X8 m c)) (KPrep.bias3 (X9 m c))) (KPrep.wtl (X10 m c)) (KPrep.biasl (X11 m c))) := by
  dsimp only [W15, W13, W11, W9, W7, W5, W4, W3, W2, W1, hostOps0, hostOps0_1, hostOps0_2, hostOps0_3, hostOps0_4, hostOps1, hostOps2, hostOps3, hostOps4, hostOps5]
  after_results
  rw [main_v30_at14]
  rfl

end Cert.KernelIdeal.HostFold

end
-- ==== Proof.SpecLaw.lean ====
/-
  The law that joins the two spellings of a spiral layer (see Spec.lean): where every looked-up word is a row of the
  table, a selecting sum is the looked-up entry, and nine taps of `C` features are one sum over `9 * C` features.
-/
import proofs.«419524_j12970801234173_1_alg».proof.Proof.Spec

noncomputable section

namespace Cert.Spiral

open Idealize.ShloMosaic

/-- The selection weight is one on the selected row number and zero on every other. -/
theorem sel_eq (w : BitVec 32) (j : ℕ) (hj : j < 2 ^ 32) : sel w j = if w.toNat = j then 1 else 0 := by
  unfold sel
  by_cases hw : w.toNat = j
  · -- the row number, as a word, is the looked-up word: the comparison bit is set
    have hjw : BitVec.ofNat 32 j = w := by
      apply BitVec.eq_of_toNat_eq
      rw [BitVec.toNat_ofNat, Nat.mod_eq_of_lt hj, hw]
    have hc : IntOp.cmpi .eq (BitVec.ofNat 32 j) w = 1#1 := by
      simp only [IntOp.cmpi, hjw, beq_self_eq_true, BitVec.ofBool_true]
      rfl
    have h1 : ((1#1 : BitVec 1).setWidth 32).toInt = 1 := by decide
    rw [if_pos hw, hc, h1]
    simp
  · -- a different row number: the comparison bit is clear
    have hjw : BitVec.ofNat 32 j ≠ w := by
      intro e
      apply hw
      rw [← e, BitVec.toNat_ofNat, Nat.mod_eq_of_lt hj]
    have hc : IntOp.cmpi .eq (BitVec.ofNat 32 j) w = 0#1 := by
      simp only [IntOp.cmpi, beq_eq_false_iff_ne.mpr hjw, BitVec.ofBool_false]
      rfl
    have h0 : ((0#1 : BitVec 1).setWidth 32).toInt = 0 := by decide
    rw [if_neg hw, hc, h0]
    simp

/-- A selecting sum over a table that contains the selected row is that row's entry. -/
theorem picked_eq {R C : ℕ} (hR : R ≤ 2 ^ 32) (h : Fin R → Fin C → EReal) (w : BitVec 32) (hw : w.toNat < R) (c : Fin C) :
    picked h w c = h ⟨w.toNat, hw⟩ c := by
  unfold picked
  rw [Finset.sum_eq_single (⟨w.toNat, hw⟩ : Fin R)]
  · rw [sel_eq w _ (lt_of_lt_of_le hw hR), if_pos rfl, one_mul]
  · intro j _ hne
    have hjne : ¬ w.toNat = j.val := fun e => hne (Fin.ext e.symm)
    rw [sel_eq w j.val (lt_of_lt_of_le j.isLt hR), if_neg hjne, zero_mul]
  · intro hmem
    exact absurd (Finset.mem_univ _) hmem

/-- Nine blocks of `C` terms are one run of `9 * C` terms: term `c` of block `l` is term `l * C + c` of the run.
    Only commutativity and associativity of the addition are used. -/
private theorem sum_blocks {C : ℕ} (F : Fin 9 → Fin C → EReal) (G : Fin (9 * C) → EReal)
    (hFG : ∀ (l : Fin 9) (c : Fin C) (hlt : l.val * C + c.val < 9 * C), F l c = G ⟨l.val * C + c.val, hlt⟩) :
    ∑ l : Fin 9, ∑ c : Fin C, F l c = ∑ k : Fin (9 * C), G k := by
  rw [← Equiv.sum_comp finProdFinEquiv G, Fintype.sum_prod_type]
  refine Finset.sum_congr rfl (fun l _ => Finset.sum_congr rfl (fun c _ => ?_))
  have hv : (finProdFinEquiv (l, c)).val = l.val * C + c.val := by
    simp only [finProdFinEquiv_apply_val]
    rw [Nat.mul_comm, Nat.add_comm]
  have hlt : l.val * C + c.val < 9 * C := hv ▸ (finProdFinEquiv (l, c)).isLt
  rw [hFG l c hlt]
  exact congrArg G (Fin.ext hv.symm)

/-- THE LAW.  A table `h` of `R` rows whose first `N` rows are the table `g`; looked-up words that are rows of `g`
    (`pos l` is word `idx l` as a row number); tap `l`'s weights the entries `l * C + c` of one weight row `W`:
    the selecting spelling over `h` is the indexing spelling over `g`. -/
theorem selVal_eq_idxVal {R N C K : ℕ} (hK : K = 9 * C) (hNR : N ≤ R) (hR : R ≤ 2 ^ 32)
    (h : Fin R → Fin C → EReal) (g : Fin N → Fin C → EReal)
    (hg : ∀ (n : Fin N) (c : Fin C), h ⟨n.val, lt_of_lt_of_le n.isLt hNR⟩ c = g n c)
    (idx : Fin 9 → BitVec 32) (pos : Fin 9 → Fin N) (hpos : ∀ l, (idx l).toNat = (pos l).val)
    (wt : Fin 9 → Fin C → EReal) (W : Fin K → EReal)
    (hW : ∀ (l : Fin 9) (c : Fin C) (hlt : l.val * C + c.val < K), wt l c = W ⟨l.val * C + c.val, hlt⟩) (b : EReal) :
    selVal h idx wt b = idxVal hK g pos W b := by
  subst hK
  -- a selecting sum is the looked-up entry of `g`
  have hpick : ∀ (l : Fin 9) (c : Fin C), picked h (idx l) c = g (pos l) c := by
    intro l c
    have hlt : (idx l).toNat < R := by rw [hpos l]; exact lt_of_lt_of_le (pos l).isLt hNR
    rw [picked_eq hR h (idx l) hlt c, ← hg (pos l) c]
    exact congrArg (fun n => h n c) (Fin.ext (hpos l))
  unfold selVal idxVal tap
  congr 1
  refine (Finset.sum_congr rfl (fun l _ => Finset.sum_congr rfl (fun c _ => by rw [hpick l c]))).trans ?_
  refine sum_blocks (fun l c => g (pos l) c * wt l c) _ ?_
  intro l c hlt
  have hC : 0 < C := lt_of_le_of_lt (Nat.zero_le _) c.isLt
  have hd : (l.val * C + c.val) / C = l.val := by
    rw [Nat.add_comm, Nat.add_mul_div_right _ _ hC, Nat.div_eq_of_lt c.isLt, Nat.zero_add]
  have hm : (l.val * C + c.val) % C = c.val := by
    rw [Nat.add_comm, Nat.add_mul_mod_self_right, Nat.mod_eq_of_lt c.isLt]
  show g (pos l) c * wt l c = g (pos ⟨(l.val * C + c.val) / C, _⟩) ⟨(l.val * C + c.val) % C, _⟩ * W ⟨l.val * C + c.val, hlt⟩
  rw [hW l c hlt]
  congr 1
  have e1 : (⟨(l.val * C + c.val) / C, by rw [hd]; exact l.isLt⟩ : Fin 9) = l := Fin.ext hd
  have e2 : (⟨(l.val * C + c.val) % C, by rw [hm]; exact c.isLt⟩ : Fin C) = c := Fin.ext hm
  exact (congrArg₂ (fun x y => g (pos x) y) e1 e2).symm

end Cert.Spiral

end
-- ==== Proof.RefLayers.lean ====
/-
  The reference program read layer by layer.  Each of its four layers gathers, for vertex `n` and tap `l`, row
  `row (idx l n)` of the previous layer's table, lays the nine rows' features side by side and contracts them with one
  row of the layer's weights, then adds the bias: the indexing spelling of Spec.lean.  The last stage is one plain
  affine map of the features.
-/
import proofs.«419524_j12970801234173_1_alg».proof.Proof.Gen.ReferenceIdeal.Read
import proofs.«419524_j12970801234173_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefLayers

open Cert.ReferenceIdeal Cert.ReferenceIdeal.Gen Cert.ReferenceIdeal.Read Idealize.ShloMosaic Idealize.ShloMosaic.ValueIdx

/-- The row of a 5023-row table the reference's gather reads for a looked-up word: a negative word counts from the
    end of the table, and the result is clamped into the table. -/
def row (w : BitVec 32) : Fin 5023 :=
  ⟨min (Scalar.select (IntOp.cmpi .slt w 0#32) (IntOp.addi w 5023#32) w).toInt.toNat 5022, by omega⟩

/-- A word that is a row number is read as that row. -/
theorem row_of_range (w : BitVec 32) (h0 : 0 ≤ w.toInt) (h1 : w.toInt < 5023) : (row w).val = w.toNat := by
  have hs : IntOp.cmpi .slt w 0#32 = 0#1 := by
    have : w.slt 0#32 = false := by
      simp only [BitVec.slt, BitVec.toInt_zero, decide_eq_false_iff_not, not_lt]
      exact h0
    simp only [IntOp.cmpi, this]
    rfl
  have hn : w.toInt.toNat = w.toNat := by
    have := BitVec.toInt_eq_toNat_of_msb (x := w) (by
      rw [BitVec.msb_eq_false_iff_two_mul_lt]
      have := BitVec.toInt_eq_toNat_cond w
      omega)
    omega
  show min (Scalar.select (IntOp.cmpi .slt w 0#32) (IntOp.addi w 5023#32) w).toInt.toNat 5022 = w.toNat
  rw [hs, select_zero, hn]
  omega

/-- The reference's gather record over an operand `[32, 5023, C]`, start indices `[5023, 9, 1]` and result
    `[32, 5023, 9, C]`: whole slices on axes 0 and 2, one looked-up row on axis 1. -/
private abbrev gDims (C : Nat)
    (wf : GatherDims.WF ⟨3, ![32, 5023, C]⟩ ⟨3, ![5023, 9, 1]⟩ ⟨4, ![32, 5023, 9, C]⟩ [0, 3] [1] [] [1] [] 2 ![32, 1, C]) :
    GatherDims ⟨3, ![32, 5023, C]⟩ ⟨3, ![5023, 9, 1]⟩ ⟨4, ![32, 5023, 9, C]⟩ where
  offsetDims := [0, 3]
  collapsedSliceDims := [1]
  operandBatchingDims := []
  startIndicesBatchingDims := []
  startIndexMap := [1]
  indexVectorDim := 2
  sliceSizes := ![32, 1, C]
  wf := wf

/-- That gather read at `(a, n, l, c)`: the operand at `(a, r, c)`, `r` the start index `idx[n, l, 0]` read signed and clamped
    into `[0, 5022]`. -/
private theorem gather_rows {α : Type} {C w : Nat}
    (wf : GatherDims.WF ⟨3, ![32, 5023, C]⟩ ⟨3, ![5023, 9, 1]⟩ ⟨4, ![32, 5023, 9, C]⟩ [0, 3] [1] [] [1] [] 2 ![32, 1, C])
    (x : (⟨3, ![32, 5023, C]⟩ : Shape).Idx → α) (idx : IVec ⟨3, ![5023, 9, 1]⟩ w)
    (a : Fin 32) (n : Fin 5023) (l : Fin 9) (c : Fin C) :
    Host.gather (gDims C wf) x idx (ix4 a n l c)
      = x (ix3 a ⟨min (idx (ix3 n l (0 : Fin 1))).toInt.toNat 5022, by omega⟩ c) := by
  unfold Host.gather
  congr 1
  funext b
  refine Fin.ext ?_
  match b with
  | ⟨0, _⟩ =>
    show (gDims C wf).start (ix4 a n l c) idx 0 + (gDims C wf).batchCoord (ix4 a n l c) 0 + (gDims C wf).offCoord (ix4 a n l c) 0 = a.val
    rw [GatherDims.batchCoord_eq_zero _ _ _ List.not_mem_nil]
    unfold GatherDims.start GatherDims.offCoord
    rw [dif_neg (show ¬ (0 : Fin 3) ∈ [(1 : Fin 3)] by decide),
      dif_pos ((GatherDims.mem_sKept _ _).mpr ⟨(show ¬ (0 : Fin 3) ∈ [(1 : Fin 3)] by decide), List.not_mem_nil⟩)]
    have hidx : List.idxOf (0 : Fin 3) (gDims C wf).sKept = 0 := by
      show List.idxOf (0 : Fin 3) ((List.finRange 3).filter (· ∉ [(1 : Fin 3)] ++ [])) = 0
      decide
    simp only [hidx, List.getElem_cons_zero, Nat.zero_add]
    rfl
  | ⟨1, _⟩ =>
    show (gDims C wf).start (ix4 a n l c) idx 1 + (gDims C wf).batchCoord (ix4 a n l c) 1 + (gDims C wf).offCoord (ix4 a n l c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gDims C wf).startIndexMap from List.mem_singleton.mpr rfl)]
    have hsi : (gDims C wf).siIdx (ix4 a n l c) ⟨List.idxOf (1 : Fin 3) (gDims C wf).startIndexMap,
        List.idxOf_lt_length_iff.2 (List.mem_singleton.mpr rfl)⟩ = ix3 n l (0 : Fin 1) := by
      funext b; refine Fin.ext ?_
      match b with
      | ⟨0, _⟩ => rfl
      | ⟨1, _⟩ => rfl
      | ⟨2, _⟩ => rfl
    rw [hsi]
    rfl
  | ⟨2, _⟩ =>
    show (gDims C wf).start (ix4 a n l c) idx 2 + (gDims C wf).batchCoord (ix4 a n l c) 2 + (gDims C wf).offCoord (ix4 a n l c) 2 = c.val
    rw [GatherDims.batchCoord_eq_zero _ _ _ List.not_mem_nil]
    unfold GatherDims.start GatherDims.offCoord
    rw [dif_neg (show ¬ (2 : Fin 3) ∈ [(1 : Fin 3)] by decide),
      dif_pos ((GatherDims.mem_sKept _ _).mpr ⟨(show ¬ (2 : Fin 3) ∈ [(1 : Fin 3)] by decide), List.not_mem_nil⟩)]
    have hidx : List.idxOf (2 : Fin 3) (gDims C wf).sKept = 1 := by
      show List.idxOf (2 : Fin 3) ((List.finRange 3).filter (· ∉ [(1 : Fin 3)] ++ [])) = 1
      decide
    simp only [hidx, List.getElem_cons_succ, List.getElem_cons_zero, Nat.zero_add]
    rfl

abbrev A0 := (⟨S32x5023x3, .f32⟩ : BufTy).Contents (Elt Ideal)
abbrev A1 := (⟨S4x5023x9, .i32⟩ : BufTy).Contents (Elt Ideal)
abbrev A2 := (⟨S32x27, .f32⟩ : BufTy).Contents (Elt Ideal)
abbrev A3 := (⟨S32, .f32⟩ : BufTy).Contents (Elt Ideal)
abbrev A4 := (⟨S64x288, .f32⟩ : BufTy).Contents (Elt Ideal)
abbrev A5 := (⟨S64, .f32⟩ : BufTy).Contents (Elt Ideal)
abbrev A6 := (⟨S128x576, .f32⟩ : BufTy).Contents (Elt Ideal)
abbrev A7 := (⟨S128, .f32⟩ : BufTy).Contents (Elt Ideal)
abbrev A8 := (⟨S128x1152, .f32⟩ : BufTy).Contents (Elt Ideal)
abbrev A9 := (⟨S128, .f32⟩ : BufTy).Contents (Elt Ideal)
abbrev A10 := (⟨S256x128, .f32⟩ : BufTy).Contents (Elt Ideal)
abbrev A11 := (⟨S256, .f32⟩ : BufTy).Contents (Elt Ideal)

/-- The start index layer 0 looks up at vertex `n`, tap `l`: word `(0, n, l)` of the index table, a negative word
    moved up by the table's height. -/
private theorem tab0 (x1 : A1) (n : Fin 5023) (l : Fin 9) :
    val_main_v7 (F := Ideal) x1 (ix3 n l (0 : Fin 1))
      = Scalar.select (IntOp.cmpi .slt (x1 (ix3 (0 : Fin 4) n l)) 0#32) (IntOp.addi (x1 (ix3 (0 : Fin 4) n l)) 5023#32)
          (x1 (ix3 (0 : Fin 4) n l)) := by
  have hn := n.isLt
  have hl := l.isLt
  have h1 : val_main_v1 (F := Ideal) x1 (idx_main_v7 (ix3 n l (0 : Fin 1))) = x1 (ix3 (0 : Fin 4) n l) := by
    rw [val_main_v1_apply, val_main_v0_apply]
    congr 1
    funext d
    match d with
    | ⟨0, _⟩ => exact Fin.ext rfl
    | ⟨1, _⟩ => exact Fin.ext (by show (n.val * 9 + l.val) / 9 % 5023 = n.val; omega)
    | ⟨2, _⟩ => exact Fin.ext (by show (n.val * 9 + l.val) % 9 = l.val; omega)
  rw [val_main_v7_apply, val_main_v6_apply, val_main_v3_apply, val_main_v5_apply, val_main_v2_apply, val_main_v4_apply, val_main_c_apply,
    val_main_c_0_apply, h1]

/-- Feature `k` of the 27 gathered features of layer 0 at vertex `n`: feature `k % 3` of the row tap `k / 3` looks up. -/
private theorem feat0 (x0 : A0) (x1 : A1) (a : Fin 32) (n : Fin 5023) (o : Fin 32) (k : Fin 27) :
    val_main_v9 (F := Ideal) x0 x1 (lidx_main_v10 (ix3 a n o) k)
      = x0 (ix3 a (row (x1 (ix3 (0 : Fin 4) n ⟨k.val / 3, by have := k.isLt; omega⟩)))
          ⟨k.val % 3, Nat.mod_lt _ (by decide)⟩) := by
  have ha := a.isLt
  have hn := n.isLt
  have hk := k.isLt
  rw [val_main_v9_apply]
  have hi : idx_main_v9 (lidx_main_v10 (ix3 a n o) k)
      = ix4 a n (⟨k.val / 3, by omega⟩ : Fin 9) (⟨k.val % 3, Nat.mod_lt _ (by decide)⟩ : Fin 3) := by
    funext d
    match d with
    | ⟨0, _⟩ => exact Fin.ext (by show ((a.val * 5023 + n.val) * 27 + k.val) / 135621 = a.val; omega)
    | ⟨1, _⟩ => exact Fin.ext (by show ((a.val * 5023 + n.val) * 27 + k.val) / 27 % 5023 = n.val; omega)
    | ⟨2, _⟩ => exact Fin.ext (by show ((a.val * 5023 + n.val) * 27 + k.val) / 3 % 9 = k.val / 3; omega)
    | ⟨3, _⟩ => exact Fin.ext (by show ((a.val * 5023 + n.val) * 27 + k.val) % 3 = k.val % 3; omega)
  rw [hi]
  unfold val_main_v8
  refine (gather_rows _ _ (val_main_v7 (F := Ideal) x1) a n _ _).trans ?_
  refine congrArg (fun q : Fin 5023 => x0 (ix3 a q (⟨k.val % 3, Nat.mod_lt _ (by decide)⟩ : Fin 3))) (Fin.ext ?_)
  show min (BitVec.toInt (val_main_v7 (F := Ideal) x1 (ix3 n (⟨k.val / 3, by omega⟩ : Fin 9) (0 : Fin 1)))).toNat 5022 = _
  rw [tab0]
  rfl

/-- Layer 0 (3 features in, 32 out) at batch `a`, vertex `n`, output feature `o`. -/
theorem layer0 (x0 : A0) (x1 : A1) (x2 : A2) (x3 : A3) (a : Fin 32) (n : Fin 5023) (o : Fin 32) :
    val_main_v13 (F := Ideal) x0 x1 x2 x3 (ix3 a n o)
      = Spiral.idxVal (N := 5023) (C := 3) (K := 27) rfl (fun n' c => x0 (ix3 a n' c))
          (fun l => row (x1 (ix3 (0 : Fin 4) n l))) (fun k => x2 (ix2 o k)) (x3 (ix1 o)) := by
  rw [val_main_v13_apply, val_main_v10_apply, val_main_v12_apply, val_main_v11_apply]
  unfold Spiral.idxVal
  refine congrArg₂ (· + ·) (Finset.sum_congr rfl fun k _ => ?_) ?_
  · rw [feat0]
    refine congrArg (_ * ·) (congrArg x2 ?_)
    funext d
    match d with
    | ⟨0, _⟩ => rfl
    | ⟨1, _⟩ => rfl
  · refine congrArg x3 ?_
    funext d
    match d with
    | ⟨0, _⟩ => rfl

/-- The start index layer 1 looks up at vertex `n`, tap `l`: word `(1, n, l)` of the index table, a negative word
    moved up by the table's height. -/
private theorem tab1 (x1 : A1) (n : Fin 5023) (l : Fin 9) :
    val_main_v21 (F := Ideal) x1 (ix3 n l (0 : Fin 1))
      = Scalar.select (IntOp.cmpi .slt (x1 (ix3 (1 : Fin 4) n l)) 0#32) (IntOp.addi (x1 (ix3 (1 : Fin 4) n l)) 5023#32)
          (x1 (ix3 (1 : Fin 4) n l)) := by
  have hn := n.isLt
  have hl := l.isLt
  have h1 : val_main_v15 (F := Ideal) x1 (idx_main_v21 (ix3 n l (0 : Fin 1))) = x1 (ix3 (1 : Fin 4) n l) := by
    rw [val_main_v15_apply, val_main_v14_apply]
    congr 1
    funext d
    match d with
    | ⟨0, _⟩ => exact Fin.ext rfl
    | ⟨1, _⟩ => exact Fin.ext (by show (n.val * 9 + l.val) / 9 % 5023 = n.val; omega)
    | ⟨2, _⟩ => exact Fin.ext (by show (n.val * 9 + l.val) % 9 = l.val; omega)
  rw [val_main_v21_apply, val_main_v20_apply, val_main_v17_apply, val_main_v19_apply, val_main_v16_apply, val_main_v18_apply, val_main_c_1_apply,
    val_main_c_2_apply, h1]

/-- Feature `k` of the 288 gathered features of layer 1 at vertex `n`: feature `k % 32` of the row tap `k / 32` looks up. -/
private theorem feat1 (x0 : A0) (x1 : A1) (x2 : A2) (x3 : A3) (a : Fin 32) (n : Fin 5023) (o : Fin 64) (k : Fin 288) :
    val_main_v23 (F := Ideal) x0 x1 x2 x3 (lidx_main_v24 (ix3 a n o) k)
      = val_main_v13 (F := Ideal) x0 x1 x2 x3 (ix3 a (row (x1 (ix3 (1 : Fin 4) n ⟨k.val / 32, by have := k.isLt; omega⟩)))
          ⟨k.val % 32, Nat.mod_lt _ (by decide)⟩) := by
  have ha := a.isLt
  have hn := n.isLt
  have hk := k.isLt
  rw [val_main_v23_apply]
  have hi : idx_main_v23 (lidx_main_v24 (ix3 a n o) k)
      = ix4 a n (⟨k.val / 32, by omega⟩ : Fin 9) (⟨k.val % 32, Nat.mod_lt _ (by decide)⟩ : Fin 32) := by
    funext d
    match d with
    | ⟨0, _⟩ => exact Fin.ext (by show ((a.val * 5023 + n.val) * 288 + k.val) / 1446624 = a.val; omega)
    | ⟨1, _⟩ => exact Fin.ext (by show ((a.val * 5023 + n.val) * 288 + k.val) / 288 % 5023 = n.val; omega)
    | ⟨2, _⟩ => exact Fin.ext (by show ((a.val * 5023 + n.val) * 288 + k.val) / 32 % 9 = k.val / 32; omega)
    | ⟨3, _⟩ => exact Fin.ext (by show ((a.val * 5023 + n.val) * 288 + k.val) % 32 = k.val % 32; omega)
  rw [hi]
  unfold val_main_v22
  refine (gather_rows _ _ (val_main_v21 (F := Ideal) x1) a n _ _).trans ?_
  refine congrArg (fun q : Fin 5023 => val_main_v13 (F := Ideal) x0 x1 x2 x3 (ix3 a q (⟨k.val % 32, Nat.mod_lt _ (by decide)⟩ : Fin 32))) (Fin.ext ?_)
  show min (BitVec.toInt (val_main_v21 (F := Ideal) x1 (ix3 n (⟨k.val / 32, by omega⟩ : Fin 9) (0 : Fin 1)))).toNat 5022 = _
  rw [tab1]
  rfl

/-- Layer 1 (32 features in, 64 out). -/
theorem layer1 (x0 : A0) (x1 : A1) (x2 : A2) (x3 : A3) (x4 : A4) (x5 : A5) (a : Fin 32) (n : Fin 5023) (o : Fin 64) :
    val_main_v27 (F := Ideal) x0 x1 x2 x3 x4 x5 (ix3 a n o)
      = Spiral.idxVal (N := 5023) (C := 32) (K := 288) rfl (fun n' c => val_main_v13 (F := Ideal) x0 x1 x2 x3 (ix3 a n' c))
          (fun l => row (x1 (ix3 (1 : Fin 4) n l))) (fun k => x4 (ix2 o k)) (x5 (ix1 o)) := by
  rw [val_main_v27_apply, val_main_v24_apply, val_main_v26_apply, val_main_v25_apply]
  unfold Spiral.idxVal
  refine congrArg₂ (· + ·) (Finset.sum_congr rfl fun k _ => ?_) ?_
  · rw [feat1]
    refine congrArg (_ * ·) (congrArg x4 ?_)
    funext d
    match d with
    | ⟨0, _⟩ => rfl
    | ⟨1, _⟩ => rfl
  · refine congrArg x5 ?_
    funext d
    match d with
    | ⟨0, _⟩ => rfl

/-- The start index layer 2 looks up at vertex `n`, tap `l`: word `(2, n, l)` of the index table, a negative word
    moved up by the table's height. -/
private theorem tab2 (x1 : A1) (n : Fin 5023) (l : Fin 9) :
    val_main_v35 (F := Ideal) x1 (ix3 n l (0 : Fin 1))
      = Scalar.select (IntOp.cmpi .slt (x1 (ix3 (2 : Fin 4) n l)) 0#32) (IntOp.addi (x1 (ix3 (2 : Fin 4) n l)) 5023#32)
          (x1 (ix3 (2 : Fin 4) n l)) := by
  have hn := n.isLt
  have hl := l.isLt
  have h1 : val_main_v29 (F := Ideal) x1 (idx_main_v35 (ix3 n l (0 : Fin 1))) = x1 (ix3 (2 : Fin 4) n l) := by
    rw [val_main_v29_apply, val_main_v28_apply]
    congr 1
    funext d
    match d with
    | ⟨0, _⟩ => exact Fin.ext rfl
    | ⟨1, _⟩ => exact Fin.ext (by show (n.val * 9 + l.val) / 9 % 5023 = n.val; omega)
    | ⟨2, _⟩ => exact Fin.ext (by show (n.val * 9 + l.val) % 9 = l.val; omega)
  rw [val_main_v35_apply, val_main_v34_apply, val_main_v31_apply, val_main_v33_apply, val_main_v30_apply, val_main_v32_apply, val_main_c_3_apply,
    val_main_c_4_apply, h1]

/-- Feature `k` of the 576 gathered features of layer 2 at vertex `n`: feature `k % 64` of the row tap `k / 64` looks up. -/
private theorem feat2 (x0 : A0) (x1 : A1) (x2 : A2) (x3 : A3) (x4 : A4) (x5 : A5) (a : Fin 32) (n : Fin 5023) (o : Fin 128) (k : Fin 576) :
    val_main_v37 (F := Ideal) x0 x1 x2 x3 x4 x5 (lidx_main_v38 (ix3 a n o) k)
      = val_main_v27 (F := Ideal) x0 x1 x2 x3 x4 x5 (ix3 a (row (x1 (ix3 (2 : Fin 4) n ⟨k.val / 64, by have := k.isLt; omega⟩)))
          ⟨k.val % 64, Nat.mod_lt _ (by decide)⟩) := by
  have ha := a.isLt
  have hn := n.isLt
  have hk := k.isLt
  rw [val_main_v37_apply]
  have hi : idx_main_v37 (lidx_main_v38 (ix3 a n o) k)
      = ix4 a n (⟨k.val / 64, by omega⟩ : Fin 9) (⟨k.val % 64, Nat.mod_lt _ (by decide)⟩ : Fin 64) := by
    funext d
    match d with
    | ⟨0, _⟩ => exact Fin.ext (by show ((a.val * 5023 + n.val) * 576 + k.val) / 2893248 = a.val; omega)
    | ⟨1, _⟩ => exact Fin.ext (by show ((a.val * 5023 + n.val) * 576 + k.val) / 576 % 5023 = n.val; omega)
    | ⟨2, _⟩ => exact Fin.ext (by show ((a.val * 5023 + n.val) * 576 + k.val) / 64 % 9 = k.val / 64; omega)
    | ⟨3, _⟩ => exact Fin.ext (by show ((a.val * 5023 + n.val) * 576 + k.val) % 64 = k.val % 64; omega)
  rw [hi]
  unfold val_main_v36
  refine (gather_rows _ _ (val_main_v35 (F := Ideal) x1) a n _ _).trans ?_
  refine congrArg (fun q : Fin 5023 => val_main_v27 (F := Ideal) x0 x1 x2 x3 x4 x5 (ix3 a q (⟨k.val % 64, Nat.mod_lt _ (by decide)⟩ : Fin 64))) (Fin.ext ?_)
  show min (BitVec.toInt (val_main_v35 (F := Ideal) x1 (ix3 n (⟨k.val / 64, by omega⟩ : Fin 9) (0 : Fin 1)))).toNat 5022 = _
  rw [tab2]
  rfl

/-- Layer 2 (64 features in, 128 out). -/
theorem layer2 (x0 : A0) (x1 : A1) (x2 : A2) (x3 : A3) (x4 : A4) (x5 : A5) (x6 : A6) (x7 : A7)
    (a : Fin 32) (n : Fin 5023) (o : Fin 128) :
    val_main_v41 (F := Ideal) x0 x1 x2 x3 x4 x5 x6 x7 (ix3 a n o)
      = Spiral.idxVal (N := 5023) (C := 64) (K := 576) rfl (fun n' c => val_main_v27 (F := Ideal) x0 x1 x2 x3 x4 x5 (ix3 a n' c))
          (fun l => row (x1 (ix3 (2 : Fin 4) n l))) (fun k => x6 (ix2 o k)) (x7 (ix1 o)) := by
  rw [val_main_v41_apply, val_main_v38_apply, val_main_v40_apply, val_main_v39_apply]
  unfold Spiral.idxVal
  refine congrArg₂ (· + ·) (Finset.sum_congr rfl fun k _ => ?_) ?_
  · rw [feat2]
    refine congrArg (_ * ·) (congrArg x6 ?_)
    funext d
    match d with
    | ⟨0, _⟩ => rfl
    | ⟨1, _⟩ => rfl
  · refine congrArg x7 ?_
    funext d
    match d with
    | ⟨0, _⟩ => rfl

/-- The start index layer 3 looks up at vertex `n`, tap `l`: word `(3, n, l)` of the index table, a negative word
    moved up by the table's height. -/
private theorem tab3 (x1 : A1) (n : Fin 5023) (l : Fin 9) :
    val_main_v49 (F := Ideal) x1 (ix3 n l (0 : Fin 1))
      = Scalar.select (IntOp.cmpi .slt (x1 (ix3 (3 : Fin 4) n l)) 0#32) (IntOp.addi (x1 (ix3 (3 : Fin 4) n l)) 5023#32)
          (x1 (ix3 (3 : Fin 4) n l)) := by
  have hn := n.isLt
  have hl := l.isLt
  have h1 : val_main_v43 (F := Ideal) x1 (idx_main_v49 (ix3 n l (0 : Fin 1))) = x1 (ix3 (3 : Fin 4) n l) := by
    rw [val_main_v43_apply, val_main_v42_apply]
    congr 1
    funext d
    match d with
    | ⟨0, _⟩ => exact Fin.ext rfl
    | ⟨1, _⟩ => exact Fin.ext (by show (n.val * 9 + l.val) / 9 % 5023 = n.val; omega)
    | ⟨2, _⟩ => exact Fin.ext (by show (n.val * 9 + l.val) % 9 = l.val; omega)
  rw [val_main_v49_apply, val_main_v48_apply, val_main_v45_apply, val_main_v47_apply, val_main_v44_apply, val_main_v46_apply, val_main_c_5_apply,
    val_main_c_6_apply, h1]

/-- Feature `k` of the 1152 gathered features of layer 3 at vertex `n`: feature `k % 128` of the row tap `k / 128` looks up. -/
private theorem feat3 (x0 : A0) (x1 : A1) (x2 : A2) (x3 : A3) (x4 : A4) (x5 : A5) (x6 : A6) (x7 : A7) (a : Fin 32) (n : Fin 5023) (o : Fin 128) (k : Fin 1152) :
    val_main_v51 (F := Ideal) x0 x1 x2 x3 x4 x5 x6 x7 (lidx_main_v52 (ix3 a n o) k)
      = val_main_v41 (F := Ideal) x0 x1 x2 x3 x4 x5 x6 x7 (ix3 a (row (x1 (ix3 (3 : Fin 4) n ⟨k.val / 128, by have := k.isLt; omega⟩)))
          ⟨k.val % 128, Nat.mod_lt _ (by decide)⟩) := by
  have ha := a.isLt
  have hn := n.isLt
  have hk := k.isLt
  rw [val_main_v51_apply]
  have hi : idx_main_v51 (lidx_main_v52 (ix3 a n o) k)
      = ix4 a n (⟨k.val / 128, by omega⟩ : Fin 9) (⟨k.val % 128, Nat.mod_lt _ (by decide)⟩ : Fin 128) := by
    funext d
    match d with
    | ⟨0, _⟩ => exact Fin.ext (by show ((a.val * 5023 + n.val) * 1152 + k.val) / 5786496 = a.val; omega)
    | ⟨1, _⟩ => exact Fin.ext (by show ((a.val * 5023 + n.val) * 1152 + k.val) / 1152 % 5023 = n.val; omega)
    | ⟨2, _⟩ => exact Fin.ext (by show ((a.val * 5023 + n.val) * 1152 + k.val) / 128 % 9 = k.val / 128; omega)
    | ⟨3, _⟩ => exact Fin.ext (by show ((a.val * 5023 + n.val) * 1152 + k.val) % 128 = k.val % 128; omega)
  rw [hi]
  unfold val_main_v50
  refine (gather_rows _ _ (val_main_v49 (F := Ideal) x1) a n _ _).trans ?_
  refine congrArg (fun q : Fin 5023 => val_main_v41 (F := Ideal) x0 x1 x2 x3 x4 x5 x6 x7 (ix3 a q (⟨k.val % 128, Nat.mod_lt _ (by decide)⟩ : Fin 128))) (Fin.ext ?_)
  show min (BitVec.toInt (val_main_v49 (F := Ideal) x1 (ix3 n (⟨k.val / 128, by omega⟩ : Fin 9) (0 : Fin 1)))).toNat 5022 = _
  rw [tab3]
  rfl

/-- Layer 3 (128 features in, 128 out). -/
theorem layer3 (x0 : A0) (x1 : A1) (x2 : A2) (x3 : A3) (x4 : A4) (x5 : A5) (x6 : A6) (x7 : A7) (x8 : A8) (x9 : A9)
    (a : Fin 32) (n : Fin 5023) (o : Fin 128) :
    val_main_v55 (F := Ideal) x0 x1 x2 x3 x4 x5 x6 x7 x8 x9 (ix3 a n o)
      = Spiral.idxVal (N := 5023) (C := 128) (K := 1152) rfl
          (fun n' c => val_main_v41 (F := Ideal) x0 x1 x2 x3 x4 x5 x6 x7 (ix3 a n' c))
          (fun l => row (x1 (ix3 (3 : Fin 4) n l))) (fun k => x8 (ix2 o k)) (x9 (ix1 o)) := by
  rw [val_main_v55_apply, val_main_v52_apply, val_main_v54_apply, val_main_v53_apply]
  unfold Spiral.idxVal
  refine congrArg₂ (· + ·) (Finset.sum_congr rfl fun k _ => ?_) ?_
  · rw [feat3]
    refine congrArg (_ * ·) (congrArg x8 ?_)
    funext d
    match d with
    | ⟨0, _⟩ => rfl
    | ⟨1, _⟩ => rfl
  · refine congrArg x9 ?_
    funext d
    match d with
    | ⟨0, _⟩ => rfl

/-- The last stage: one affine map of the 128 features to 256. -/
theorem last (x0 : A0) (x1 : A1) (x2 : A2) (x3 : A3) (x4 : A4) (x5 : A5) (x6 : A6) (x7 : A7) (x8 : A8) (x9 : A9)
    (x10 : A10) (x11 : A11) (a : Fin 32) (n : Fin 5023) (o : Fin 256) :
    val_main_v59 (F := Ideal) x0 x1 x2 x3 x4 x5 x6 x7 x8 x9 x10 x11 (ix3 a n o)
      = (∑ k : Fin 128, val_main_v55 (F := Ideal) x0 x1 x2 x3 x4 x5 x6 x7 x8 x9 (ix3 a n k) * x10 (ix2 o k)) + x11 (ix1 o) := by
  rw [val_main_v59_apply, val_main_v56_apply, val_main_v58_apply, val_main_v57_apply]
  refine congrArg₂ (· + ·) (Finset.sum_congr rfl fun k _ => ?_) ?_
  · refine congrArg₂ (· * ·) (congrArg (val_main_v55 (F := Ideal) x0 x1 x2 x3 x4 x5 x6 x7 x8 x9) ?_) (congrArg x10 ?_)
    · funext d
      match d with
      | ⟨0, _⟩ => rfl
      | ⟨1, _⟩ => rfl
      | ⟨2, _⟩ => rfl
    · funext d
      match d with
      | ⟨0, _⟩ => rfl
      | ⟨1, _⟩ => rfl
  · refine congrArg x11 ?_
    funext d
    match d with
    | ⟨0, _⟩ => rfl

end Cert.RefLayers

end
-- ==== Proof.Bridge.lean ====
/-
  The two programs compute one function.  Layer by layer: on the first 5023 rows the kernel program's padded table is
  the reference's table (the padding rows are never looked up, because every looked-up number is below 5023), its
  looked-up words are the reference's, its transposed weights the reference's weights; so by the law of SpecLaw.lean
  the kernel's selecting layer is the reference's indexing layer on those rows, and the next layer's tables agree
  again.  The last affine map and the cut of the padded rows finish it.
-/
import proofs.«419524_j12970801234173_1_alg».proof.Proof.KSpec
import proofs.«419524_j12970801234173_1_alg».proof.Proof.KPrep
import proofs.«419524_j12970801234173_1_alg».proof.Proof.Layer4
import proofs.«419524_j12970801234173_1_alg».proof.Proof.SpecLaw
import proofs.«419524_j12970801234173_1_alg».proof.Proof.RefLayers

noncomputable section

namespace Cert.Bridge

open Cert.KernelIdeal Cert.ReferenceIdeal.Read Idealize.ShloMosaic Idealize.ShloMosaic.ValueIdx

/-- A row number of the 5023-row table as a row number of the padded table. -/
abbrev up (n : Fin 5023) : Fin 5120 := ⟨n.val, by have := n.isLt; omega⟩

variable (x0 : RefLayers.A0) (x1 : RefLayers.A1) (x2 : RefLayers.A2) (x3 : RefLayers.A3) (x4 : RefLayers.A4) (x5 : RefLayers.A5)
    (x6 : RefLayers.A6) (x7 : RefLayers.A7) (x8 : RefLayers.A8) (x9 : RefLayers.A9) (x10 : RefLayers.A10) (x11 : RefLayers.A11)
variable (hrange : ∀ i : Cert.ReferenceIdeal.S4x5023x9.Idx, 0 ≤ (x1 i).toInt ∧ (x1 i).toInt < 5023)
include hrange

/-- After layer 0 the kernel program's table agrees with the reference's on the first 5023 rows. -/
theorem agree1 (a : Fin 32) (n : Fin 5023) (o : Fin 32) :
    (KSpec.layer0 (KPrep.xpad x0) (KPrep.itab0 x1) (KPrep.wt0 x2) (KPrep.bias0 x3)) (ix3 a (up n) o) = val_main_v13 (F := Ideal) x0 x1 x2 x3 (ix3 a n o) := by
  rw [RefLayers.layer0]
  show Spiral.selVal (fun (j : Fin 5120) (c : Fin 3) => (KPrep.xpad x0) (ix3 a j c))
      (fun (l : Fin 9) => KPrep.itab0 x1 (ix2 (up n) l))
      (fun (l : Fin 9) (c : Fin 3) => KPrep.wt0 x2 (ix2 (⟨l.val * 3 + c.val, by have := l.isLt; have := c.isLt; omega⟩ : Fin 27) o))
      (KPrep.bias0 x3 (ix2 (0 : Fin 1) o)) = _
  rw [KPrep.bias0_apply]
  exact Spiral.selVal_eq_idxVal (R := 5120) (N := 5023) (C := 3) (K := 27) rfl (by omega) (by norm_num) _ _
    (fun n' c => KPrep.xpad_apply x0 a n' c) _ _
    (fun l => by
      rw [KPrep.itab0_apply]
      exact (RefLayers.row_of_range _ (hrange _).1 (hrange _).2).symm) _ _
    (fun l c hlt => KPrep.wt0_apply x2 _ o) _

/-- After layer 1 the kernel program's table agrees with the reference's on the first 5023 rows. -/
theorem agree2 (a : Fin 32) (n : Fin 5023) (o : Fin 64) :
    (KSpec.layer1 (KSpec.layer0 (KPrep.xpad x0) (KPrep.itab0 x1) (KPrep.wt0 x2) (KPrep.bias0 x3)) (KPrep.itab1 x1) (KPrep.wt1 x4) (KPrep.bias1 x5)) (ix3 a (up n) o) = val_main_v27 (F := Ideal) x0 x1 x2 x3 x4 x5 (ix3 a n o) := by
  rw [RefLayers.layer1]
  show Spiral.selVal (fun (j : Fin 5120) (c : Fin 32) => (KSpec.layer0 (KPrep.xpad x0) (KPrep.itab0 x1) (KPrep.wt0 x2) (KPrep.bias0 x3)) (ix3 a j c))
      (fun (l : Fin 9) => KPrep.itab1 x1 (ix2 (up n) l))
      (fun (l : Fin 9) (c : Fin 32) => KPrep.wt1 x4 (ix2 (⟨l.val * 32 + c.val, by have := l.isLt; have := c.isLt; omega⟩ : Fin 288) o))
      (KPrep.bias1 x5 (ix2 (0 : Fin 1) o)) = _
  rw [KPrep.bias1_apply]
  exact Spiral.selVal_eq_idxVal (R := 5120) (N := 5023) (C := 32) (K := 288) rfl (by omega) (by norm_num) _ _
    (fun n' c => agree1 x0 x1 x2 x3 hrange a n' c) _ _
    (fun l => by
      rw [KPrep.itab1_apply]
      exact (RefLayers.row_of_range _ (hrange _).1 (hrange _).2).symm) _ _
    (fun l c hlt => KPrep.wt1_apply x4 _ o) _

/-- After layer 2 the kernel program's table agrees with the reference's on the first 5023 rows. -/
theorem agree3 (a : Fin 32) (n : Fin 5023) (o : Fin 128) :
    (KSpec.layer2 (KSpec.layer1 (KSpec.layer0 (KPrep.xpad x0) (KPrep.itab0 x1) (KPrep.wt0 x2) (KPrep.bias0 x3)) (KPrep.itab1 x1) (KPrep.wt1 x4) (KPrep.bias1 x5)) (KPrep.itab2 x1) (KPrep.wt2 x6) (KPrep.bias2 x7)) (ix3 a (up n) o) = val_main_v41 (F := Ideal) x0 x1 x2 x3 x4 x5 x6 x7 (ix3 a n o) := by
  rw [RefLayers.layer2]
  show Spiral.selVal (fun (j : Fin 5120) (c : Fin 64) => (KSpec.layer1 (KSpec.layer0 (KPrep.xpad x0) (KPrep.itab0 x1) (KPrep.wt0 x2) (KPrep.bias0 x3)) (KPrep.itab1 x1) (KPrep.wt1 x4) (KPrep.bias1 x5)) (ix3 a j c))
      (fun (l : Fin 9) => KPrep.itab2 x1 (ix2 (up n) l))
      (fun (l : Fin 9) (c : Fin 64) => KPrep.wt2 x6 (ix2 (⟨l.val * 64 + c.val, by have := l.isLt; have := c.isLt; omega⟩ : Fin 576) o))
      (KPrep.bias2 x7 (ix2 (0 : Fin 1) o)) = _
  rw [KPrep.bias2_apply]
  exact Spiral.selVal_eq_idxVal (R := 5120) (N := 5023) (C := 64) (K := 576) rfl (by omega) (by norm_num) _ _
    (fun n' c => agree2 x0 x1 x2 x3 x4 x5 hrange a n' c) _ _
    (fun l => by
      rw [KPrep.itab2_apply]
      exact (RefLayers.row_of_range _ (hrange _).1 (hrange _).2).symm) _ _
    (fun l c hlt => KPrep.wt2_apply x6 _ o) _

/-- After layer 3 the kernel program's table agrees with the reference's on the first 5023 rows. -/
theorem agree4 (a : Fin 32) (n : Fin 5023) (o : Fin 128) :
    (KSpec.layer3 (KSpec.layer2 (KSpec.layer1 (KSpec.layer0 (KPrep.xpad x0) (KPrep.itab0 x1) (KPrep.wt0 x2) (KPrep.bias0 x3)) (KPrep.itab1 x1) (KPrep.wt1 x4) (KPrep.bias1 x5)) (KPrep.itab2 x1) (KPrep.wt2 x6) (KPrep.bias2 x7)) (KPrep.itab3 x1) (KPrep.wt3 x8) (KPrep.bias3 x9)) (ix3 a (up n) o) = val_main_v55 (F := Ideal) x0 x1 x2 x3 x4 x5 x6 x7 x8 x9 (ix3 a n o) := by
  rw [RefLayers.layer3]
  show Spiral.selVal (fun (j : Fin 5120) (c : Fin 128) => (KSpec.layer2 (KSpec.layer1 (KSpec.layer0 (KPrep.xpad x0) (KPrep.itab0 x1) (KPrep.wt0 x2) (KPrep.bias0 x3)) (KPrep.itab1 x1) (KPrep.wt1 x4) (KPrep.bias1 x5)) (KPrep.itab2 x1) (KPrep.wt2 x6) (KPrep.bias2 x7)) (ix3 a j c))
      (fun (l : Fin 9) => KPrep.itab3 x1 (ix2 (up n) l))
      (fun (l : Fin 9) (c : Fin 128) => KPrep.wt3 x8 (ix2 (⟨l.val * 128 + c.val, by have := l.isLt; have := c.isLt; omega⟩ : Fin 1152) o))
      (KPrep.bias3 x9 (ix2 (0 : Fin 1) o)) = _
  rw [KPrep.bias3_apply]
  exact Spiral.selVal_eq_idxVal (R := 5120) (N := 5023) (C := 128) (K := 1152) rfl (by omega) (by norm_num) _ _
    (fun n' c => agree3 x0 x1 x2 x3 x4 x5 x6 x7 hrange a n' c) _ _
    (fun l => by
      rw [KPrep.itab3_apply]
      exact (RefLayers.row_of_range _ (hrange _).1 (hrange _).2).symm) _ _
    (fun l c hlt => KPrep.wt3_apply x8 _ o) _

/-- THE RESULT: the kernel program's result array is the reference's. -/
theorem result_agree :
    KPrep.cut (Layer4.linear (KSpec.layer3 (KSpec.layer2 (KSpec.layer1 (KSpec.layer0 (KPrep.xpad x0) (KPrep.itab0 x1) (KPrep.wt0 x2) (KPrep.bias0 x3)) (KPrep.itab1 x1) (KPrep.wt1 x4) (KPrep.bias1 x5)) (KPrep.itab2 x1) (KPrep.wt2 x6) (KPrep.bias2 x7)) (KPrep.itab3 x1) (KPrep.wt3 x8) (KPrep.bias3 x9)) (KPrep.wtl x10) (KPrep.biasl x11)) = val_main_v59 (F := Ideal) x0 x1 x2 x3 x4 x5 x6 x7 x8 x9 x10 x11 := by
  funext i
  obtain ⟨a, n, o, rfl⟩ : ∃ (a : Fin 32) (n : Fin 5023) (o : Fin 256), i = ix3 a n o := ⟨i 0, i 1, i 2, eq_ix3 i⟩
  rw [KPrep.cut_apply, RefLayers.last]
  show (∑ k : Fin 128, (KSpec.layer3 (KSpec.layer2 (KSpec.layer1 (KSpec.layer0 (KPrep.xpad x0) (KPrep.itab0 x1) (KPrep.wt0 x2) (KPrep.bias0 x3)) (KPrep.itab1 x1) (KPrep.wt1 x4) (KPrep.bias1 x5)) (KPrep.itab2 x1) (KPrep.wt2 x6) (KPrep.bias2 x7)) (KPrep.itab3 x1) (KPrep.wt3 x8) (KPrep.bias3 x9)) (ix3 a (up n) k) * KPrep.wtl x10 (ix2 k o)) + KPrep.biasl x11 (ix2 (0 : Fin 1) o) = _
  rw [KPrep.biasl_apply]
  refine congrArg (· + x11 (ix1 o)) (Finset.sum_congr rfl fun k _ => ?_)
  rw [agree4 x0 x1 x2 x3 x4 x5 x6 x7 x8 x9 hrange a n k, KPrep.wtl_apply]

end Cert.Bridge

end
-- ==== Proof.PreRange.lean ====
/-
  What the precondition says of the looked-up numbers: every entry of the index table is a row number of the vertex
  axis, `0 ≤ idx < 5023`, read as signed 32-bit integers.  The precondition is a conjunction of "all entries" tests,
  joined from left to right; the last two conjuncts are the two bounds of the index table.
-/
import proofs.«419524_j12970801234173_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Cert.Pre_finite_inputs

variable {F : FTy → Type} [FloatOps F] [Cert.Pre_finite_inputs.Facts]

/-- The rank-0 shape has one index. -/
private instance subsingleton_S_ : Subsingleton S_.Idx := ⟨fun a b => funext fun d => d.elim0⟩

/-- The last part of the chain: whatever the earlier conjuncts are, the result being 1 gives both bounds at every
    entry of the index table. -/
private theorem part3_range (a1 : IVec S4x5023x9 32) (v48 : IVec S_ 1) (v49 v50 : FVec F S256 .f32)
    (h : fn_part3 (F := F) a1 v48 v49 v50 ValueIdx.ix0 = 1#1) :
    ∀ i : S4x5023x9.Idx, 0 ≤ (a1 i).toInt ∧ (a1 i).toInt < 5023 := by
  unfold fn_part3 at h
  obtain ⟨h1, hlt⟩ := IntOp.andi_eq_one.1 h
  obtain ⟨-, hge⟩ := IntOp.andi_eq_one.1 h1
  intro i
  have hge' := Host.reduce_andi_all _ _ _ _ _ hge i
  have hlt' := Host.reduce_andi_all _ _ _ _ _ hlt i
  have e0 := IntOp.cmpi_sge.1 hge'
  have e1 := IntOp.cmpi_slt.1 hlt'
  exact ⟨e0, e1⟩

/-- Under the precondition every entry of the index table lies in `[0, 5023)` as a signed integer. -/
theorem idx_range (a0 : FVec F S32x5023x3 .f32) (a1 : IVec S4x5023x9 32) (a2 : FVec F S32x27 .f32) (a3 : FVec F S32 .f32)
    (a4 : FVec F S64x288 .f32) (a5 : FVec F S64 .f32) (a6 : FVec F S128x576 .f32) (a7 : FVec F S128 .f32)
    (a8 : FVec F S128x1152 .f32) (a9 : FVec F S128 .f32) (a10 : FVec F S256x128 .f32) (a11 : FVec F S256 .f32)
    (h : Cert.Pre_finite_inputs.fn (F := F) a0 a1 a2 a3 a4 a5 a6 a7 a8 a9 a10 a11 = fun _ => 1#1) :
    ∀ i : S4x5023x9.Idx, 0 ≤ (a1 i).toInt ∧ (a1 i).toInt < 5023 := by
  have h0 := congrFun h ValueIdx.ix0
  unfold fn fn_part1 fn_part2 at h0
  exact part3_range a1 _ _ _ h0

end Cert.PreRange

end
-- ==== Proof.lean ====
/-
  The certificate of the spiral-convolution network: four layers, each gathering nine looked-up rows of the layer's
  table per vertex and applying one affine map to the gathered features, then one more affine map.

  The kernel program never indexes a table by a looked-up number: for each tap it builds a selection matrix by
  comparing every row number of the padded table with the looked-up word and multiplies it into the table, so a row is
  "gathered" as a sum in which all terms but one are `0 * x`.  The reference indexes the table directly.  On the
  extended reals `0 * x = 0` for every `x`, so the two agree wherever the looked-up word is a row of the table; the
  precondition says every looked-up number lies in `[0, 5023)`, the rows of the unpadded table (outside that range
  the reference indexes out of range and clamps, and the kernel selects nothing).  The remaining difference is
  grouping: nine sums over `C` features against one sum over `9 * C`, and 97 padded rows per batch entry that no
  output row inside the first 5023 ever reads and that the last cut drops.

  * the kernel's result, call by call and host operation by host operation: KRun (the run, its result buffer named),
    Layer0 … Layer4 (each call's output array as one function of its input arrays), HostFold (the composition);
  * the reference's result layer by layer: RefLayers over the generated run and reads;
  * the law joining one layer's two spellings: Spec, SpecLaw; the composition of the layers: Bridge;
  * the index range out of the precondition: PreRange.
  `preserves` is trivial: the idealization rewrote no operation.
-/
import proofs.«419524_j12970801234173_1_alg».proof.Defs
import proofs.«419524_j12970801234173_1_alg».proof.Proof.Gen.Kernel
import proofs.«419524_j12970801234173_1_alg».proof.Proof.Gen.Kernel.Frame
import proofs.«419524_j12970801234173_1_alg».proof.Proof.Gen.KernelIdeal
import proofs.«419524_j12970801234173_1_alg».proof.Proof.Gen.KernelIdeal.Frame
import proofs.«419524_j12970801234173_1_alg».proof.Proof.Gen.ReferenceIdeal
import proofs.«419524_j12970801234173_1_alg».proof.Proof.Gen.ReferenceIdeal.Run
import proofs.«419524_j12970801234173_1_alg».proof.Proof.Gen.ReferenceIdeal.Read
import proofs.«419524_j12970801234173_1_alg».proof.Proof.Gen.Pre_finite_inputs
import proofs.«419524_j12970801234173_1_alg».proof.Proof.KRun
import proofs.«419524_j12970801234173_1_alg».proof.Proof.HostFold
import proofs.«419524_j12970801234173_1_alg».proof.Proof.Bridge
import proofs.«419524_j12970801234173_1_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's result buffer holds the composition HostFold reads
    back, the reference's its generated run's term, and under the index range the two are one function of the
    arguments (Bridge), the arguments agreeing. -/
theorem algebraic : Cert.algebraic_KernelIdeal_ReferenceIdeal := by
  intro m ρ m' ρ' hpre hagree
  refine ⟨fun c => Cert.KernelIdeal.Gen.W15 m ρ c (Proc.devRef .tc Cert.KernelIdeal.main_v31),
    Cert.KernelIdeal.Gen.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v59_eq]
  show _ = Cert.KernelIdeal.Gen.W15 m ρ c (Proc.devRef .tc Cert.KernelIdeal.main_v31)
  rw [Cert.KernelIdeal.HostFold.result_eq]
  obtain ⟨e0, e1, e2, e3, e4, e5, e6, e7, e8, e9, e10, e11⟩ := hagree c
  rw [e0, e1, e2, e3, e4, e5, e6, e7, e8, e9, e10, e11]
  exact (Cert.Bridge.result_agree _ _ _ _ _ _ _ _ _ _ _ _
    (Cert.PreRange.idx_range _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
